-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v6_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S32x1024x128 : Shape := ⟨3, ![32, 1024, 128]⟩
abbrev S32x1024 : Shape := ⟨2, ![32, 1024]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg0 : IVec S4096x32 32) (main_v13 : IVec S_ 1) (main_v15 : IVec S4096x32 1) (main_c_5 : IVec S_ 1) : IVec S_ 1 :=
  let main_v16 : IVec S_ 1 := (fun x v => Host.reduce IntOp.andi x v reducesTo_S4096x32_S_d0_1 h_S_) main_v15 main_c_5
  let main_v17 : IVec S_ 1 := andi main_v13 main_v16
  let main_c_6 : IVec S_ 32 := constantI S_ 32 1024#32
  let main_v18 : IVec S4096x32 32 := broadcastInDim S4096x32 ![] bcast_S_S4096x32 main_c_6
  let main_v19 : IVec S4096x32 1 := cmpi .slt main_arg0 main_v18
  let main_c_7 : IVec S_ 1 := constantI S_ 1 1#1
  let main_v20 : IVec S_ 1 := (fun x v => Host.reduce IntOp.andi x v reducesTo_S4096x32_S_d0_1 h_S_) main_v19 main_c_7
  let main_v21 : IVec S_ 1 := andi main_v17 main_v20
  main_v21

def fn {F : FTy → Type} [FloatOps F] (main_arg0 : IVec S4096x32 32) (main_arg1 : FVec F S32x1024x128 .f32) (main_arg2 : FVec F S32x1024 .f32) (main_arg3 : FVec F S32x1024x128 .f32) : IVec S_ 1 :=
  let main_v0 : FVec F S32x1024x128 .f32 := Host.absf main_arg1
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024 .f32 := Host.absf main_arg2
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024x128 .f32 := Host.absf main_arg3
  let main_cst_2 : FVec F S_ .f32 := constant S_ .f32 0x7F800000#32
  let main_v10 : FVec F S32x1024x128 .f32 := broadcastInDim S32x1024x128 ![] bcast_S_S32x1024x128 main_cst_2
  let main_v11 : IVec S32x1024x128 1 := cmpf .olt main_v9 main_v10
  let main_c_3 : IVec S_ 1 := constantI S_ 1 1#1
  let main_v12 : IVec S_ 1 := (fun x v => Host.reduce IntOp.andi x v reducesTo_S32x1024x128_S_d0_1_2 h_S_) main_v11 main_c_3
  let main_v13 : IVec S_ 1 := andi main_v8 main_v12
  let main_c_4 : IVec S_ 32 := constantI S_ 32 0#32
  let main_v14 : IVec S4096x32 32 := broadcastInDim S4096x32 ![] bcast_S_S4096x32 main_c_4
  let main_v15 : IVec S4096x32 1 := cmpi .sge main_arg0 main_v14
  let main_c_5 : IVec S_ 1 := constantI S_ 1 1#1
  fn_part1 (F := F) main_arg0 main_v13 main_v15 main_c_5
-- ==== Kernel.lean ====
abbrev S4096x32 : Shape := ⟨2, ![4096, 32]⟩
abbrev S32x1024x128 : Shape := ⟨3, ![32, 1024, 128]⟩
abbrev S32x1024 : Shape := ⟨2, ![32, 1024]⟩
abbrev S_ : Shape := ⟨0, ![]⟩
abbrev S32x4096 : Shape := ⟨2, ![32, 4096]⟩
abbrev S32x1x4096 : Shape := ⟨3, ![32, 1, 4096]⟩
abbrev S4096x4096 : Shape := ⟨2, ![4096, 4096]⟩
abbrev S8x1x1024 : Shape := ⟨3, ![8, 1, 1024]⟩
abbrev S8x1024x128 : Shape := ⟨3, ![8, 1024, 128]⟩
abbrev S1024x1024 : Shape := ⟨2, ![1024, 1024]⟩
abbrev S8x1024 : Shape := ⟨2, ![8, 1024]⟩
abbrev S1x1x1024 : Shape := ⟨3, ![1, 1, 1024]⟩
abbrev S1024 : Shape := ⟨1, ![1024]⟩
abbrev S1024x1 : Shape := ⟨2, ![1024, 1]⟩
abbrev S1x1024x128 : Shape := ⟨3, ![1, 1024, 128]⟩
abbrev S1024x128 : Shape := ⟨2, ![1024, 128]⟩
abbrev S1x1024 : Shape := ⟨2, ![1, 1024]⟩
abbrev S4096x32x128 : Shape := ⟨3, ![4096, 32, 128]⟩
abbrev S32 : Shape := ⟨1, ![32]⟩
abbrev S32x1 : Shape := ⟨2, ![32, 1]⟩
abbrev S8x512x128 : Shape := ⟨3, ![8, 512, 128]⟩
abbrev S8x512 : Shape := ⟨2, ![8, 512]⟩
abbrev S8x512x1 : Shape := ⟨3, ![8, 512, 1]⟩

abbrev nBuf : Space → Nat
  | .hbm => 21
  | .vmem => 24
  | .smem => 0
  | _ => 0

abbrev bufTy : (tb : Table) → Fin (tcTables nBuf tb) → BufTy
  | .hbm, ⟨0, _⟩ => ⟨S4096x32, .i32⟩
  | .hbm, ⟨1, _⟩ => ⟨S32x1024x128, .f32⟩
  | .hbm, ⟨2, _⟩ => ⟨S32x1024, .f32⟩
  | .hbm, ⟨3, _⟩ => ⟨S32x1024x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096x32, .i32⟩
  | .hbm, ⟨8, _⟩ => ⟨S4096x32, .i32⟩
  | .hbm, ⟨9, _⟩ => ⟨S_, .i32⟩
  | .hbm, ⟨10, _⟩ => ⟨S4096x32, .i32⟩
  | .hbm, ⟨11, _⟩ => ⟨S4096x32, .i32⟩
  | .hbm, ⟨12, _⟩ => ⟨S32x4096, .i32⟩
  | .hbm, ⟨13, _⟩ => ⟨S32x1x4096, .i32⟩
  | .hbm, ⟨14, _⟩ => ⟨S4096x4096, .f32⟩
  | .hbm, ⟨15, _⟩ => ⟨S32x1024, .f32⟩
  | .hbm, ⟨16, _⟩ => ⟨S4096x32x128, .f32⟩
  | .hbm, ⟨17, _⟩ => ⟨S32x1024, .f32⟩
  | .hbm, ⟨18, _⟩ => ⟨S32x1024, .f32⟩
  | .hbm, ⟨19, _⟩ => ⟨S32x1024x128, .f32⟩
  | .hbm, ⟨20, _⟩ => ⟨S32x1024x128, .f32⟩
  | .local _ .vmem, ⟨0, _⟩ => ⟨S8x1x1024, .i32⟩
  | .local _ .vmem, ⟨1, _⟩ => ⟨S8x1x1024, .i32⟩
  | .local _ .vmem, ⟨2, _⟩ => ⟨S8x1024x128, .f32⟩
  | .local _ .vmem, ⟨3, _⟩ => ⟨S8x1024x128, .f32⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S8x512x128, .f32⟩
  | .local _ .vmem, ⟨13, _⟩ => ⟨S8x512x128, .f32⟩
  | .local _ .vmem, ⟨14, _⟩ => ⟨S8x512x128, .f32⟩
  | .local _ .vmem, ⟨15, _⟩ => ⟨S8x512x128, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512x128, .f32⟩
  | .local _ .vmem, ⟨21, _⟩ => ⟨S8x512x128, .f32⟩
  | .local _ .vmem, ⟨22, _⟩ => ⟨S8x512x128, .f32⟩
  | .local _ .vmem, ⟨23, _⟩ => ⟨S8x512x128, .f32⟩
  | _, _ => ⟨S4096x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S8x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S8x512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  bcast_S_S4096x32 : S_.BroadcastsInDim S4096x32 (![] : Fin 0 → Fin S4096x32.rank)
  transposes_S4096x32_S32x4096_1_0 : S4096x32.Transposes [1, 0] S32x4096
  bcast_S32x4096_S32x1x4096_0_2 : S32x4096.BroadcastsInDim S32x1x4096 (![0, 2] : Fin 2 → Fin S32x1x4096.rank)
  inb_S8x1024_S8x1024_0_0 : ∀ a, (![0, 0] : Fin 2 → Nat) a + S8x1024.size a ≤ S8x1024.size a
  h_S8x1024 : 0 < S8x1024.numel
  iota_S1024x1024_d1_w32 : S1024x1024.Iotas .tc 32 [1]
  inb_S8x1x1024_S1x1x1024_0_0_0 : ∀ a, (![0, 0, 0] : Fin 3 → Nat) a + S1x1x1024.size a ≤ S8x1x1024.size a
  h_S1x1x1024 : 0 < S1x1x1024.numel
  shapeCasts_S1x1x1024_S1024 : S1x1x1024.ShapeCasts S1024
  shapeCasts_S1024_S1024x1 : S1024.ShapeCasts S1024x1
  broadcasts_S1024x1_S1024x1024 : S1024x1.Broadcasts S1024x1024
  natLt_1_32 : 1 < 32
  bitsLt_bf16_f32 : FTy.bits .bf16 < FTy.bits .f32
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  inb_S1024x1024_S1024x128_0_0 : ∀ a, (![0, 0] : Fin 2 → Nat) a + S1024x128.size a ≤ S1024x1024.size a
  h_S1024x128 : 0 < S1024x128.numel
  reduces_S1024x1024_S1024 : S1024x1024.Reduces [0] S1024
  inb_S8x1024_S1x1024_0_0 : ∀ a, (![0, 0] : Fin 2 → Nat) a + S1x1024.size a ≤ S8x1024.size a
  h_S1x1024 : 0 < S1x1024.numel
  shapeCasts_S1x1024_S1024 : S1x1024.ShapeCasts S1024
  shapeCasts_S1024_S1x1024 : S1024.ShapeCasts S1x1024
  inb_S8x1x1024_S1x1x1024_1_0_0 : ∀ a, (![1, 0, 0] : Fin 3 → Nat) a + S1x1x1024.size a ≤ S8x1x1024.size a
  inb_S8x1024x128_S1x1024x128_1_0_0 : ∀ a, (![1, 0, 0] : Fin 3 → Nat) a + S1x1024x128.size a ≤ S8x1024x128.size a
  inb_S1024x1024_S1024x128_0_128 : ∀ a, (![0, 128] : Fin 2 → Nat) a + S1024x128.size a ≤ S1024x1024.size a
  inb_S8x1024_S1x1024_1_0 : ∀ a, (![1, 0] : Fin 2 → Nat) a + S1x1024.size a ≤ S8x1024.size a
  inb_S8x1x1024_S1x1x1024_2_0_0 : ∀ a, (![2, 0, 0] : Fin 3 → Nat) a + S1x1x1024.size a ≤ S8x1x1024.size a
  inb_S8x1024x128_S1x1024x128_2_0_0 : ∀ a, (![2, 0, 0] : Fin 3 → Nat) a + S1x1024x128.size a ≤ S8x1024x128.size a
  inb_S1024x1024_S1024x128_0_256 : ∀ a, (![0, 256] : Fin 2 → Nat) a + S1024x128.size a ≤ S1024x1024.size a
  inb_S8x1024_S1x1024_2_0 : ∀ a, (![2, 0] : Fin 2 → Nat) a + S1x1024.size a ≤ S8x1024.size a
  inb_S8x1x1024_S1x1x1024_3_0_0 : ∀ a, (![3, 0, 0] : Fin 3 → Nat) a + S1x1x1024.size a ≤ S8x1x1024.size a
  inb_S8x1024x128_S1x1024x128_3_0_0 : ∀ a, (![3, 0, 0] : Fin 3 → Nat) a + S1x1024x128.size a ≤ S8x1024x128.size a
  inb_S1024x1024_S1024x128_0_384 : ∀ a, (![0, 384] : Fin 2 → Nat) a + S1024x128.size a ≤ S1024x1024.size a
  inb_S8x1024_S1x1024_3_0 : ∀ a, (![3, 0] : Fin 2 → Nat) a + S1x1024.size a ≤ S8x1024.size a
  inb_S8x1x1024_S1x1x1024_4_0_0 : ∀ a, (![4, 0, 0] : Fin 3 → Nat) a + S1x1x1024.size a ≤ S8x1x1024.size a
  inb_S8x1024x128_S1x1024x128_4_0_0 : ∀ a, (![4, 0, 0] : Fin 3 → Nat) a + S1x1024x128.size a ≤ S8x1024x128.size a
  inb_S1024x1024_S1024x128_0_512 : ∀ a, (![0, 512] : Fin 2 → Nat) a + S1024x128.size a ≤ S1024x1024.size a
  inb_S8x1024_S1x1024_4_0 : ∀ a, (![4, 0] : Fin 2 → Nat) a + S1x1024.size a ≤ S8x1024.size a
  inb_S8x1x1024_S1x1x1024_5_0_0 : ∀ a, (![5, 0, 0] : Fin 3 → Nat) a + S1x1x1024.size a ≤ S8x1x1024.size a
  inb_S8x1024x128_S1x1024x128_5_0_0 : ∀ a, (![5, 0, 0] : Fin 3 → Nat) a + S1x1024x128.size a ≤ S8x1024x128.size a
  inb_S1024x1024_S1024x128_0_640 : ∀ a, (![0, 640] : Fin 2 → Nat) a + S1024x128.size a ≤ S1024x1024.size a
  inb_S8x1024_S1x1024_5_0 : ∀ a, (![5, 0] : Fin 2 → Nat) a + S1x1024.size a ≤ S8x1024.size a
  inb_S8x1x1024_S1x1x1024_6_0_0 : ∀ a, (![6, 0, 0] : Fin 3 → Nat) a + S1x1x1024.size a ≤ S8x1x1024.size a
  inb_S8x1024x128_S1x1024x128_6_0_0 : ∀ a, (![6, 0, 0] : Fin 3 → Nat) a + S1x1024x128.size a ≤ S8x1024x128.size a
  inb_S1024x1024_S1024x128_0_768 : ∀ a, (![0, 768] : Fin 2 → Nat) a + S1024x128.size a ≤ S1024x1024.size a
  inb_S8x1024_S1x1024_6_0 : ∀ a, (![6, 0] : Fin 2 → Nat) a + S1x1024.size a ≤ S8x1024.size a
  inb_S8x1x1024_S1x1x1024_7_0_0 : ∀ a, (![7, 0, 0] : Fin 3 → Nat) a + S1x1x1024.size a ≤ S8x1x1024.size a
  inb_S8x1024x128_S1x1024x128_7_0_0 : ∀ a, (![7, 0, 0] : Fin 3 → Nat) a + S1x1024x128.size a ≤ S8x1024x128.size a
  inb_S1024x1024_S1024x128_0_896 : ∀ a, (![0, 896] : Fin 2 → Nat) a + S1024x128.size a ≤ S1024x1024.size a
  inb_S8x1024_S1x1024_7_0 : ∀ a, (![7, 0] : Fin 2 → Nat) a + S1x1024.size a ≤ S8x1024.size a
  shapeCasts_S4096x4096_S4096x32x128 : S4096x4096.ShapeCasts S4096x32x128
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  reduces_S32x1024_S32 : S32x1024.Reduces [1] S32
  shapeCasts_S32_S32x1 : S32.ShapeCasts S32x1
  broadcasts_S32x1_S32x1024 : S32x1.Broadcasts S32x1024
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x512x1 : S8x512.ShapeCasts S8x512x1
  inb_S8x512x128_S8x512x128_0_0_0 : ∀ a, (![0, 0, 0] : Fin 3 → Nat) a + S8x512x128.size a ≤ S8x512x128.size a
  h_S8x512x128 : 0 < S8x512x128.numel
  broadcasts_S8x512x1_S8x512x128 : S8x512x1.Broadcasts S8x512x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x1024.size a ≤ S32x1x4096.size a
  hwx0_0 : ∀ i : grid0.Coords, EltTy.bits .i32 = 32 ∨ (Rect.block (s := S32x1x4096) S8x1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x128.size a ≤ S32x1024x128.size a
  hwx0_1 : ∀ i : grid0.Coords, EltTy.bits .f32 = 32 ∨ (Rect.block (s := S32x1024x128) S8x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x1024.size a
  hwx0_3 : ∀ i : grid0.Coords, EltTy.bits .f32 = 32 ∨ (Rect.block (s := S32x1024) S8x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .f32 = 32 ∨ (Rect.block (s := S32x1024) S32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S32x1024.size a
  hwx1_1 : ∀ i : grid1.Coords, EltTy.bits .f32 = 32 ∨ (Rect.block (s := S32x1024) S32x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1024.size a ≤ S32x1024.size a
  hwx1_2 : ∀ i : grid1.Coords, EltTy.bits .f32 = 32 ∨ (Rect.block (s := S32x1024) S32x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1024.size a ≤ S32x1024.size a
  hwx1_3 : ∀ i : grid1.Coords, EltTy.bits .f32 = 32 ∨ (Rect.block (s := S32x1024) S32x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x512x128.size a ≤ S32x1024x128.size a
  hwx2_0 : ∀ i : grid2.Coords, EltTy.bits .f32 = 32 ∨ (Rect.block (s := S32x1024x128) S8x512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x512x128.size a ≤ S32x1024x128.size a
  hwx2_1 : ∀ i : grid2.Coords, EltTy.bits .f32 = 32 ∨ (Rect.block (s := S32x1024x128) S8x512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x512.size a ≤ S32x1024.size a
  hwx2_2 : ∀ i : grid2.Coords, EltTy.bits .f32 = 32 ∨ (Rect.block (s := S32x1024) S8x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x512.size a ≤ S32x1024.size a
  hwx2_3 : ∀ i : grid2.Coords, EltTy.bits .f32 = 32 ∨ (Rect.block (s := S32x1024) S8x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x512x128.size a ≤ S32x1024x128.size a
  hwx2_4 : ∀ i : grid2.Coords, EltTy.bits .f32 = 32 ∨ (Rect.block (s := S32x1024x128) S8x512x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x512x128.size a ≤ S32x1024x128.size a
  hwx2_5 : ∀ i : grid2.Coords, EltTy.bits .f32 = 32 ∨ (Rect.block (s := S32x1024x128) S8x512x128.size (cc2_transform_5 i) (hinb2_5 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v2) S8x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3_1) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S32x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S32x1024.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S32x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S8x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S8x512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S8x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5_1) S8x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6_0) S8x512x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_1) S8x512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x32 : Shape := ⟨2, ![4096, 32]⟩
abbrev S32x1024x128 : Shape := ⟨3, ![32, 1024, 128]⟩
abbrev S32x1024 : Shape := ⟨2, ![32, 1024]⟩
abbrev S32 : Shape := ⟨1, ![32]⟩
abbrev S_ : Shape := ⟨0, ![]⟩
abbrev S4096x32x1 : Shape := ⟨3, ![4096, 32, 1]⟩
abbrev S4096x32x2 : Shape := ⟨3, ![4096, 32, 2]⟩
abbrev S4096x32x128 : Shape := ⟨3, ![4096, 32, 128]⟩
abbrev S32x1 : Shape := ⟨2, ![32, 1]⟩
abbrev S32x1024x1 : Shape := ⟨3, ![32, 1024, 1]⟩

abbrev nBuf : Space → Nat
  | .hbm => 96
  | .vmem => 0
  | .smem => 0
  | _ => 0

abbrev bufTy : (tb : Table) → Fin (tcTables nBuf tb) → BufTy
  | .hbm, ⟨0, _⟩ => ⟨S4096x32, .i32⟩
  | .hbm, ⟨1, _⟩ => ⟨S32x1024x128, .f32⟩
  | .hbm, ⟨2, _⟩ => ⟨S32x1024, .f32⟩
  | .hbm, ⟨3, _⟩ => ⟨S32x1024x128, .f32⟩
  | .hbm, ⟨4, _⟩ => ⟨S32, .i32⟩
  | .hbm, ⟨5, _⟩ => ⟨S4096x32, .i32⟩
  | .hbm, ⟨6, _⟩ => ⟨S_, .i32⟩
  | .hbm, ⟨7, _⟩ => ⟨S4096x32, .i32⟩
  | .hbm, ⟨8, _⟩ => ⟨S4096x32, .i1⟩
  | .hbm, ⟨9, _⟩ => ⟨S_, .i32⟩
  | .hbm, ⟨10, _⟩ => ⟨S4096x32, .i32⟩
  | .hbm, ⟨11, _⟩ => ⟨S4096x32, .i32⟩
  | .hbm, ⟨12, _⟩ => ⟨S4096x32, .i32⟩
  | .hbm, ⟨13, _⟩ => ⟨S_, .i32⟩
  | .hbm, ⟨14, _⟩ => ⟨S4096x32, .i32⟩
  | .hbm, ⟨15, _⟩ => ⟨S4096x32, .i1⟩
  | .hbm, ⟨16, _⟩ => ⟨S_, .i32⟩
  | .hbm, ⟨17, _⟩ => ⟨S4096x32, .i32⟩
  | .hbm, ⟨18, _⟩ => ⟨S4096x32, .i32⟩
  | .hbm, ⟨19, _⟩ => ⟨S4096x32, .i32⟩
  | .hbm, ⟨20, _⟩ => ⟨S4096x32x1, .i32⟩
  | .hbm, ⟨21, _⟩ => ⟨S4096x32x1, .i32⟩
  | .hbm, ⟨22, _⟩ => ⟨S4096x32x2, .i32⟩
  | .hbm, ⟨23, _⟩ => ⟨S4096x32x128, .f32⟩
  | .hbm, ⟨24, _⟩ => ⟨S_, .f32⟩
  | .hbm, ⟨25, _⟩ => ⟨S32x1024, .f32⟩
  | .hbm, ⟨26, _⟩ => ⟨S_, .i32⟩
  | .hbm, ⟨27, _⟩ => ⟨S4096x32, .i32⟩
  | .hbm, ⟨28, _⟩ => ⟨S4096x32, .i1⟩
  | .hbm, ⟨29, _⟩ => ⟨S_, .i32⟩
  | .hbm, ⟨30, _⟩ => ⟨S4096x32, .i32⟩
  | .hbm, ⟨31, _⟩ => ⟨S4096x32, .i32⟩
  | .hbm, ⟨32, _⟩ => ⟨S4096x32, .i32⟩
  | .hbm, ⟨33, _⟩ => ⟨S_, .i32⟩
  | .hbm, ⟨34, _⟩ => ⟨S4096x32, .i32⟩
  | .hbm, ⟨35, _⟩ => ⟨S4096x32, .i1⟩
  | .hbm, ⟨36, _⟩ => ⟨S_, .i32⟩
  | .hbm, ⟨37, _⟩ => ⟨S4096x32, .i32⟩
  | .hbm, ⟨38, _⟩ => ⟨S4096x32, .i32⟩
  | .hbm, ⟨39, _⟩ => ⟨S4096x32, .i32⟩
  | .hbm, ⟨40, _⟩ => ⟨S4096x32x1, .i32⟩
  | .hbm, ⟨41, _⟩ => ⟨S4096x32x1, .i32⟩
  | .hbm, ⟨42, _⟩ => ⟨S4096x32x2, .i32⟩
  | .hbm, ⟨43, _⟩ => ⟨S_, .f32⟩
  | .hbm, ⟨44, _⟩ => ⟨S4096x32, .f32⟩
  | .hbm, ⟨45, _⟩ => ⟨S32x1024, .f32⟩
  | .hbm, ⟨46, _⟩ => ⟨S_, .f32⟩
  | .hbm, ⟨47, _⟩ => ⟨S32x1024x128, .f32⟩
  | .hbm, ⟨48, _⟩ => ⟨S_, .i32⟩
  | .hbm, ⟨49, _⟩ => ⟨S4096x32, .i32⟩
  | .hbm, ⟨50, _⟩ => ⟨S4096x32, .i1⟩
  | .hbm, ⟨51, _⟩ => ⟨S_, .i32⟩
  | .hbm, ⟨52, _⟩ => ⟨S4096x32, .i32⟩
  | .hbm, ⟨53, _⟩ => ⟨S4096x32, .i32⟩
  | .hbm, ⟨54, _⟩ => ⟨S4096x32, .i32⟩
  | .hbm, ⟨55, _⟩ => ⟨S_, .i32⟩
  | .hbm, ⟨56, _⟩ => ⟨S4096x32, .i32⟩
  | .hbm, ⟨57, _⟩ => ⟨S4096x32, .i1⟩
  | .hbm, ⟨58, _⟩ => ⟨S_, .i32⟩
  | .hbm, ⟨59, _⟩ => ⟨S4096x32, .i32⟩
  | .hbm, ⟨60, _⟩ => ⟨S4096x32, .i32⟩
  | .hbm, ⟨61, _⟩ => ⟨S4096x32, .i32⟩
  | .hbm, ⟨62, _⟩ => ⟨S4096x32x1, .i32⟩
  | .hbm, ⟨63, _⟩ => ⟨S4096x32x1, .i32⟩
  | .hbm, ⟨64, _⟩ => ⟨S4096x32x2, .i32⟩
  | .hbm, ⟨65, _⟩ => ⟨S32x1024x128, .f32⟩
  | .hbm, ⟨66, _⟩ => ⟨S_, .f32⟩
  | .hbm, ⟨67, _⟩ => ⟨S32x1024, .f32⟩
  | .hbm, ⟨68, _⟩ => ⟨S32x1024, .f32⟩
  | .hbm, ⟨69, _⟩ => ⟨S_, .f32⟩
  | .hbm, ⟨70, _⟩ => ⟨S32x1024, .f32⟩
  | .hbm, ⟨71, _⟩ => ⟨S32x1024, .f32⟩
  | .hbm, ⟨72, _⟩ => ⟨S32x1024, .f32⟩
  | .hbm, ⟨73, _⟩ => ⟨S_, .f32⟩
  | .hbm, ⟨74, _⟩ => ⟨S32x1024x128, .f32⟩
  | .hbm, ⟨75, _⟩ => ⟨S32x1024x128, .f32⟩
  | .hbm, ⟨76, _⟩ => ⟨S_, .f32⟩
  | .hbm, ⟨77, _⟩ => ⟨S32x1024x128, .f32⟩
  | .hbm, ⟨78, _⟩ => ⟨S32x1024x128, .f32⟩
  | .hbm, ⟨79, _⟩ => ⟨S32x1024x128, .f32⟩
  | .hbm, ⟨80, _⟩ => ⟨S_, .f32⟩
  | .hbm, ⟨81, _⟩ => ⟨S32, .f32⟩
  | .hbm, ⟨82, _⟩ => ⟨S32x1, .f32⟩
  | .hbm, ⟨83, _⟩ => ⟨S_, .f32⟩
  | .hbm, ⟨84, _⟩ => ⟨S32x1024, .f32⟩
  | .hbm, ⟨85, _⟩ => ⟨S32x1024, .f32⟩
  | .hbm, ⟨86, _⟩ => ⟨S_, .f32⟩
  | .hbm, ⟨87, _⟩ => ⟨S32x1, .f32⟩
  | .hbm, ⟨88, _⟩ => ⟨S32x1, .f32⟩
  | .hbm, ⟨89, _⟩ => ⟨S32x1024, .f32⟩
  | .hbm, ⟨90, _⟩ => ⟨S32x1024, .f32⟩
  | .hbm, ⟨91, _⟩ => ⟨S32x1024, .f32⟩
  | .hbm, ⟨92, _⟩ => ⟨S32x1024, .f32⟩
  | .hbm, ⟨93, _⟩ => ⟨S32x1024x1, .f32⟩
  | .hbm, ⟨94, _⟩ => ⟨S32x1024x128, .f32⟩
  | .hbm, ⟨95, _⟩ => ⟨S32x1024x128, .f32⟩
  | _, _ => ⟨S4096x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_c_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_cst_19 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  bcast_S32_S4096x32_1 : S32.BroadcastsInDim S4096x32 (![1] : Fin 1 → Fin S4096x32.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  concatenates_S4096x32x1_S4096x32x1_S4096x32x2_d2 : Shape.Concatenates [S4096x32x1, S4096x32x1] S4096x32x2 2
  bcast_S_S32x1024 : S_.BroadcastsInDim S32x1024 (![] : Fin 0 → Fin S32x1024.rank)
  bcast_S_S32x1024x128 : S_.BroadcastsInDim S32x1024x128 (![] : Fin 0 → Fin S32x1024x128.rank)
  reducesTo_S32x1024_S32_d1 : S32x1024.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1024_0_1 : S32x1.BroadcastsInDim S32x1024 (![0, 1] : Fin 2 → Fin S32x1024.rank)
  bcast_S32x1024_S32x1024x1_0_1 : S32x1024.BroadcastsInDim S32x1024x1 (![0, 1] : Fin 2 → Fin S32x1024x1.rank)
  bcast_S32x1024x1_S32x1024x128_0_1_2 : S32x1024x1.BroadcastsInDim S32x1024x128 (![0, 1, 2] : Fin 3 → Fin S32x1024x128.rank)
  gather_S32x1024x128_S4096x32x2_S4096x32x128_2_01_n_n_01_2_11128_wf : GatherDims.WF S32x1024x128 S4096x32x2 S4096x32x128 [2] [0, 1] [] [0, 1] [] 2 ![1, 1, 128]
  scatter_S32x1024_S4096x32x2_S4096x32_n_01_01_2_wf : ScatterDims.WF S32x1024 S4096x32x2 S4096x32 [] [0, 1] [0, 1] 2
  scatter_S32x1024x128_S4096x32x2_S4096x32x128_2_01_01_2_wf : ScatterDims.WF S32x1024x128 S4096x32x2 S4096x32x128 [2] [0, 1] [0, 1] 2

variable [Facts₀]

def gather_S32x1024x128_S4096x32x2_S4096x32x128_2_01_n_n_01_2_11128 : GatherDims S32x1024x128 S4096x32x2 S4096x32x128 where
  offsetDims := [2]
  collapsedSliceDims := [0, 1]
  operandBatchingDims := []
  startIndicesBatchingDims := []
  startIndexMap := [0, 1]
  indexVectorDim := 2
  sliceSizes := ![1, 1, 128]
  wf := gather_S32x1024x128_S4096x32x2_S4096x32x128_2_01_n_n_01_2_11128_wf
def scatter_S32x1024_S4096x32x2_S4096x32_n_01_01_2 : ScatterDims S32x1024 S4096x32x2 S4096x32 where
  updateWindowDims := []
  insertedWindowDims := [0, 1]
  scatterDimsToOperandDims := [0, 1]
  indexVectorDim := 2
  wf := scatter_S32x1024_S4096x32x2_S4096x32_n_01_01_2_wf
def scatter_S32x1024x128_S4096x32x2_S4096x32x128_2_01_01_2 : ScatterDims S32x1024x128 S4096x32x2 S4096x32x128 where
  updateWindowDims := [2]
  insertedWindowDims := [0, 1]
  scatterDimsToOperandDims := [0, 1]
  indexVectorDim := 2
  wf := scatter_S32x1024x128_S4096x32x2_S4096x32x128_2_01_01_2_wf

class Facts : Prop extends Facts₀ where

variable [Facts]
-- ==== Proof.Spec.lean ====
/-
  What the four results are, as functions of the four argument arrays, index by index over the extended reals.

  `indices[b, s]` selects, in slot `s`, one of 1024 code rows of `embedding[s]`. The results:
    z_q[b, s, :]            the selected row;
    counts[s, k]            how many batch rows `b` select code `k` in slot `s` (an intermediate);
    new_ecs[s, k]           0.99 · ecs[s, k] + 0.01 · counts[s, k];
    new_ema_w[s, k, :]      0.99 · ema_w[s, k, :] + 0.01 · (counts[s, k] · embedding[s, k, :])
                            (adding the selected row once per selecting batch row is counts · row);
    cluster[s, k]           (new_ecs[s, k] + ε) / (n[s] + 1024 ε) · n[s],   n[s] = Σ_k new_ecs[s, k]  (an intermediate);
    new_embedding[s, k, :]  new_ema_w[s, k, :] / cluster[s, k].
  The float literals are kept as the words both programs print.
-/
import Idealize.ShloMosaic.PureOps.Ideal
import Idealize.ShloMosaic.Lib.ValueIdx

noncomputable section

open scoped BigOperators

namespace Cert.Spec

open Idealize.ShloMosaic Idealize.ShloMosaic.ValueIdx

abbrev SIdx : Shape := ⟨2, ![4096, 32]⟩
abbrev SIdxT : Shape := ⟨3, ![32, 1, 4096]⟩
abbrev SEmb : Shape := ⟨3, ![32, 1024, 128]⟩
abbrev SCnt : Shape := ⟨2, ![32, 1024]⟩
abbrev SZq : Shape := ⟨3, ![4096, 32, 128]⟩
abbrev SZf : Shape := ⟨2, ![4096, 4096]⟩

/-- 0.99, 0.01, ε = 1e-5 and 1024 ε as the f32 words the programs carry. -/
abbrev c99 : EReal := Ideal.ofBits .f32 0x3F7D70A4#32
abbrev c01 : EReal := Ideal.ofBits .f32 0x3C23D70A#32
abbrev eps : EReal := Ideal.ofBits .f32 0x3727C5AC#32
abbrev keps : EReal := Ideal.ofBits .f32 0x3C27C5AC#32

/-- Every index word names one of the 1024 codes. -/
def InRange {S : Shape} (idx : S.Idx → BitVec 32) : Prop := ∀ i, (idx i).toNat < 1024

/-- Every entry is a real number. -/
def Finite {S : Shape} (x : S.Idx → EReal) : Prop := ∀ i, ∃ r : ℝ, x i = (r : EReal)

/-- The code a word selects (the last code for a word past the table: never met under `InRange`). -/
def pos (w : BitVec 32) : Fin 1024 := ⟨min w.toNat 1023, by omega⟩

/-- z_q[b, s, d] = embedding[s, indices[b, s], d]. -/
def zqAt (idx : SIdx.Idx → BitVec 32) (emb : SEmb.Idx → EReal) (b : Fin 4096) (s : Fin 32) (d : Fin 128) : EReal :=
  emb (ix3 s (pos (idx (ix2 b s))) d)
def zq (idx : SIdx.Idx → BitVec 32) (emb : SEmb.Idx → EReal) : SZq.Idx → EReal :=
  fun i => zqAt idx emb ⟨(i 0).val, (i 0).isLt⟩ ⟨(i 1).val, (i 1).isLt⟩ ⟨(i 2).val, (i 2).isLt⟩

/-- counts[s, k] = #{b | indices[b, s] = k}, as a sum of ones. -/
def cntAt (idx : SIdx.Idx → BitVec 32) (s : Fin 32) (k : Fin 1024) : EReal :=
  ∑ b : Fin 4096, if idx (ix2 b s) = BitVec.ofNat 32 k.val then (1 : EReal) else 0
def cnt (idx : SIdx.Idx → BitVec 32) : SCnt.Idx → EReal :=
  fun j => cntAt idx ⟨(j 0).val, (j 0).isLt⟩ ⟨(j 1).val, (j 1).isLt⟩

/-- new_ecs, from a counts array. -/
def necs (cn ecs : SCnt.Idx → EReal) : SCnt.Idx → EReal := fun j => c99 * ecs j + c01 * cn j

/-- A row's sum over the 1024 codes. -/
def rowsum (x : SCnt.Idx → EReal) (s : Fin 32) : EReal := ∑ k : Fin 1024, x (ix2 s k)

/-- The smoothed cluster size, from a counts array. -/
def clus (cn ecs : SCnt.Idx → EReal) : SCnt.Idx → EReal := fun j =>
  Ideal.div (necs cn ecs j + eps) (rowsum (necs cn ecs) ⟨(j 0).val, (j 0).isLt⟩ + keps) * rowsum (necs cn ecs) ⟨(j 0).val, (j 0).isLt⟩

/-- new_ema_w, from a counts array. -/
def nemaw (emb emaw : SEmb.Idx → EReal) (cn : SCnt.Idx → EReal) : SEmb.Idx → EReal := fun i =>
  c99 * emaw i + c01 * (cn (ix2 ⟨(i 0).val, (i 0).isLt⟩ ⟨(i 1).val, (i 1).isLt⟩) * emb i)

/-- new_embedding, from a counts array and a cluster-size array. -/
def nemb (emb emaw : SEmb.Idx → EReal) (cn cl : SCnt.Idx → EReal) : SEmb.Idx → EReal := fun i =>
  Ideal.div (nemaw emb emaw cn i) (cl (ix2 ⟨(i 0).val, (i 0).isLt⟩ ⟨(i 1).val, (i 1).isLt⟩))

/-! ## The first kernel's two arrays, over the transposed index array `ixT[s, 0, b]` -/

/-- The flat z_q array [4096, 32·128]: column `128 s + d` of row `b` is the selected row's entry `d`. -/
def zflat (ixT : SIdxT.Idx → BitVec 32) (emb : SEmb.Idx → EReal) : SZf.Idx → EReal := fun j =>
  emb (ix3 (⟨(j 1).val / 128, by have h : (j 1).val < 4096 := (j 1).isLt; omega⟩ : Fin 32)
    (pos (ixT (ix3 (⟨(j 1).val / 128, by have h : (j 1).val < 4096 := (j 1).isLt; omega⟩ : Fin 32) (0 : Fin 1) (⟨(j 0).val, (j 0).isLt⟩ : Fin 4096))))
    (⟨(j 1).val % 128, Nat.mod_lt _ (by decide)⟩ : Fin 128))

/-- The counts over the transposed index array. -/
def cntT (ixT : SIdxT.Idx → BitVec 32) : SCnt.Idx → EReal := fun j =>
  ∑ b : Fin 4096, if ixT (ix3 (⟨(j 0).val, (j 0).isLt⟩ : Fin 32) (0 : Fin 1) b) = BitVec.ofNat 32 (j 1).val then (1 : EReal) else 0

end Cert.Spec

end
-- ==== Proof.PreDecode.lean ====
/-
  What the precondition says of the arguments: every index word names one of the 1024 codes (it is ≥ 0 and < 1024 read
  signed, so its unsigned value is below 1024), and every entry of the embedding table is a real number (its absolute
  value is below +∞).
-/
import proofs.«402485_j27315992003198_3_alg».proof.Pre_finite_inputs
import proofs.«402485_j27315992003198_3_alg».proof.Proof.Gen.Pre_finite_inputs
import proofs.«402485_j27315992003198_3_alg».proof.Proof.Spec
import Idealize.ShloMosaic.Lib.ReduceAll
import Idealize.ShloMosaic.Lib.StableHlo.Predicate

noncomputable section

namespace Cert.PreDecode

open Idealize.ShloMosaic Idealize.ShloMosaic.ValueIdx

variable [Cert.Pre_finite_inputs.Facts]

/-- The result shape of a reduction over every axis has one index. -/
private instance : Subsingleton Cert.Pre_finite_inputs.S_.Idx := ⟨fun a b => funext fun d => d.elim0⟩

/-- A 32-bit word that is ≥ 0 and < 1024 read signed is below 1024 read unsigned. -/
private theorem word_range (w : BitVec 32) (h0 : IntOp.cmpi .sge w 0#32 = 1#1) (h1 : IntOp.cmpi .slt w 1024#32 = 1#1) :
    w.toNat < 1024 := by
  simp only [IntOp.cmpi, StableHlo.Predicate.ofBool_eq_one_iff, BitVec.sle, BitVec.slt, decide_eq_true_eq] at h0 h1
  have e0 : (0#32 : BitVec 32).toInt = 0 := by decide
  have e1 : (1024#32 : BitVec 32).toInt = 1024 := by decide
  rw [e0] at h0
  rw [e1] at h1
  have hw := BitVec.toInt_eq_toNat_cond w
  have hlt := w.isLt
  split at hw <;> omega

/-- An extended real whose absolute value max x (-x) is below +∞ (the word 0x7F800000) is a real number. -/
private theorem real_of_abs_lt (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  simp only [Ideal.cmp, StableHlo.Predicate.ofBool_eq_one_iff, decide_eq_true_eq] at h
  induction x using EReal.rec with
  | bot => simp at h
  | coe r => exact ⟨r, rfl⟩
  | top => simp at h

/-- Under the precondition the index words are in range and the embedding table's entries are real. -/
theorem of_pre (a0 : IVec Cert.Pre_finite_inputs.S4096x32 32) (a1 : FVec Ideal Cert.Pre_finite_inputs.S32x1024x128 .f32)
    (a2 : FVec Ideal Cert.Pre_finite_inputs.S32x1024 .f32) (a3 : FVec Ideal Cert.Pre_finite_inputs.S32x1024x128 .f32)
    (h : Cert.Pre_finite_inputs.fn (F := Ideal) a0 a1 a2 a3 = fun _ => 1#1) :
    Spec.InRange (S := Spec.SIdx) a0 ∧ Spec.Finite (S := Spec.SEmb) a1 := by
  have h0 := congrFun h ValueIdx.ix0
  dsimp only [Cert.Pre_finite_inputs.fn, Cert.Pre_finite_inputs.fn_part1] at h0
  -- the result is the conjunction of five all-reductions: each one is 1
  obtain ⟨h0, hlt⟩ := IntOp.andi_eq_one.1 h0
  obtain ⟨h0, hge⟩ := IntOp.andi_eq_one.1 h0
  obtain ⟨h0, _⟩ := IntOp.andi_eq_one.1 h0
  obtain ⟨hf1, _⟩ := IntOp.andi_eq_one.1 h0
  refine ⟨fun i => ?_, fun i => ?_⟩
  · exact word_range (a0 i) (Host.reduce_andi_all _ _ _ _ ValueIdx.ix0 hge i) (Host.reduce_andi_all _ _ _ _ ValueIdx.ix0 hlt i)
  · exact real_of_abs_lt (a1 i) (Host.reduce_andi_all _ _ _ _ ValueIdx.ix0 hf1 i)

end Cert.PreDecode

end
-- ==== Proof.KGlue.lean ====
/-
  The kernel program's buffer contents at its segment boundaries, read where the proof needs them: each result array is
  what the last region that writes it leaves (the flat z_q array reshaped by the one host operation after the first
  region); each region finds its input arrays at the launch contents or at what an earlier region left; and the first
  region's index array is the argument clipped to [0, 1023], transposed, with a unit axis inserted.
-/
import proofs.«402485_j27315992003198_3_alg».proof.Proof.Gen.KernelIdeal.Frame
import proofs.«402485_j27315992003198_3_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The result arrays -/

/-- new_embedding is the third region's output window 4. -/
theorem out_v6_0 (c : Dev nD) : W7 m ρ c (Proc.devRef .tc main_v6_0) = (dat2 (V6 m ρ) c).arrAt 4 cfg2.N := W7_arr m ρ c 4
/-- new_ema_w is the third region's output window 5. -/
theorem out_v6_1 (c : Dev nD) : W7 m ρ c (Proc.devRef .tc main_v6_1) = (dat2 (V6 m ρ) c).arrAt 5 cfg2.N := W7_arr m ρ c 5
/-- new_ecs is the second region's output window 2; the third region does not touch it. -/
theorem out_v5_0 (c : Dev nD) : W7 m ρ c (Proc.devRef .tc main_v5_0) = (dat1 (V5 m ρ) c).arrAt 2 cfg1.N :=
  (W7_of_ne m ρ c main_v5_0 (by decide)).trans (W6_arr m ρ c 2)
/-- z_q is the first region's flat output reshaped; the later regions do not touch it. -/
theorem out_v4 (c : Dev nD) : W7 m ρ c (Proc.devRef .tc main_v4)
    = shapeCast S4096x32x128 ((dat0 (V3 m ρ) c).arrAt 2 cfg0.N) shapeCasts_S4096x4096_S4096x32x128 := by
  rw [W7_of_ne m ρ c main_v4 (by decide), W6_of_ne m ρ c main_v4 (by decide), ← W4_arr m ρ c 2]
  show StableHlo.after hostOps1 (W4 m ρ c) (Proc.devRef .tc main_v4) = _
  after_results
  rfl

/-! ## What each region finds -/

/-- The counts array as the second region finds it: what the first region left. -/
theorem V5_v3_1 (c : Dev nD) : V5 m ρ c main_v3_1 = (dat0 (V3 m ρ) c).arrAt 3 cfg0.N :=
  calc W5 m ρ c (Proc.devRef .tc main_v3_1)
    _ = W4 m ρ c (Proc.devRef .tc main_v3_1) := StableHlo.after_of_forall_not_mem (b := Proc.devRef .tc main_v3_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W4_arr m ρ c 3

/-- The counts array as the third region finds it: still what the first region left. -/
theorem V6_v3_1 (c : Dev nD) : V6 m ρ c main_v3_1 = (dat0 (V3 m ρ) c).arrAt 3 cfg0.N :=
  (W6_arr m ρ c 0).trans (((dat1 (V5 m ρ) c).arrAt_in 0 rfl _).trans ((A_eq1 (V5 m ρ) c 0).trans (V5_v3_1 m ρ c)))

/-- The cluster-size array as the third region finds it: the second region's output window 3. -/
theorem V6_v5_1 (c : Dev nD) : V6 m ρ c main_v5_1 = (dat1 (V5 m ρ) c).arrAt 3 cfg1.N := W6_arr m ρ c 3

/-- The embedding table as the third region finds it: the argument. -/
theorem V6_arg1 (c : Dev nD) : V6 m ρ c main_arg1 = m ((c : Thread nD τ).loc main_arg1) :=
  ((W7_arr m ρ c 0).trans (((dat2 (V6 m ρ) c).arrAt_in 0 rfl _).trans (A_eq2 (V6 m ρ) c 0))).symm.trans (W7_main_arg1 m ρ c)

/-- The ema_w array as the third region finds it: the argument. -/
theorem V6_arg3 (c : Dev nD) : V6 m ρ c main_arg3 = m ((c : Thread nD τ).loc main_arg3) :=
  ((W7_arr m ρ c 1).trans (((dat2 (V6 m ρ) c).arrAt_in 1 rfl _).trans (A_eq2 (V6 m ρ) c 1))).symm.trans (W7_main_arg3 m ρ c)

/-- The ecs array as the second region finds it: the argument. -/
theorem V5_arg2 (c : Dev nD) : V5 m ρ c main_arg2 = m ((c : Thread nD τ).loc main_arg2) :=
  ((W6_arr m ρ c 1).trans (((dat1 (V5 m ρ) c).arrAt_in 1 rfl _).trans (A_eq1 (V5 m ρ) c 1))).symm.trans
    ((W7_of_ne m ρ c main_arg2 (by decide)).symm.trans (W7_main_arg2 m ρ c))

/-- The embedding table as the first region finds it: the argument. -/
theorem V3_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The index array as the first region finds it: the argument clipped to [0, 1023], transposed, a unit axis inserted. -/
theorem V3_v2 (c : Dev nD) : V3 m ρ c main_v2
    = broadcastInDim S32x1x4096 ![0, 2] bcast_S32x4096_S32x1x4096_0_2
        (transpose S32x4096 [1, 0]
          (minsi (broadcastInDim S4096x32 ![] bcast_S_S4096x32 (constantI S_ 32 1023#32))
            (maxsi (broadcastInDim S4096x32 ![] bcast_S_S4096x32 (constantI S_ 32 0#32)) (m ((c : Thread nD τ).loc main_arg0))))
          transposes_S4096x32_S32x4096_1_0) := by
  show StableHlo.after hostOps0_2 (StableHlo.after hostOps0_1 (StableHlo.after hostOps0 (W0 m ρ c))) (Proc.devRef .tc main_v2) = _
  after_results
  rfl

end Cert.KernelIdeal.Glue

end
-- ==== Proof.Reg0Z.lean ====
/-
  The first kernel's flat z_q array. At a grid point (slot tile, batch tile) the body writes, for each of its eight slots,
  a 1024 × 128 column strip: the one-hot matrix of the strip's index words against the 1024 codes, times the slot's code
  table, plus the same one-hot matrix times the table's difference from itself (zero, the entries being real). A one-hot
  row times the table is the selected row, so each entry of the strip is the selected code's entry.
-/
import proofs.«402485_j27315992003198_3_alg».proof.Proof.Gen.KernelIdeal.Frame
import proofs.«402485_j27315992003198_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg0Z

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

open scoped BigOperators

/-- The word row r of a strip compares against every code: the strip's index block at (0, 0, r). -/
theorem word_apply (v : S1x1x1024.Idx → BitVec 32) (h1 : S1x1x1024.ShapeCasts S1024) (h2 : S1024.ShapeCasts S1024x1)
    (h3 : S1024x1.Broadcasts S1024x1024) (r k : Fin 1024) :
    broadcastTo S1024x1024 (shapeCast S1024x1 (shapeCast S1024 v h1) h2) h3 (ix2 r k) = v (ix3 (0 : Fin 1) (0 : Fin 1) r) := by
  refine (broadcastTo_apply _ h3 (ix2 r k) (ix2 r (0 : Fin 1)) ?_).trans ?_
  · intro a
    match a with
    | ⟨0, _⟩ => rfl
    | ⟨1, _⟩ => rfl
  refine (shapeCast_apply _ h2 (ix2 r (0 : Fin 1)) (ix1 r) ?_).trans ?_
  · rw [Shape.rowMajor_val_one, Shape.rowMajor_val_two]; simp
  refine shapeCast_apply _ h1 (ix1 r) (ix3 (0 : Fin 1) (0 : Fin 1) r) ?_
  rw [Shape.rowMajor_val_three, Shape.rowMajor_val_one]; simp

/-- The one-hot matrix at (r, k): 1 when row r's word is code k's word, else 0. -/
theorem onehot_apply (v3 : IVec S1024x1024 32) (hv3 : ∀ r k : Fin 1024, v3 (ix2 r k) = BitVec.ofNat 32 k.val)
    (v : Vec Ideal S1x1x1024 .i32) (r k : Fin 1024) :
    k0_pay2 (F := Ideal) v3 v (ix2 r k) = if v (ix3 (0 : Fin 1) (0 : Fin 1) r) = BitVec.ofNat 32 k.val then (1 : EReal) else 0 := by
  have hw := word_apply v shapeCasts_S1x1x1024_S1024 shapeCasts_S1024_S1024x1 broadcasts_S1024x1_S1024x1024 r k
  unfold k0_pay2
  show ((((IntOp.cmpi .eq (broadcastTo S1024x1024 (shapeCast S1024x1 (shapeCast S1024 v _) _) _ (ix2 r k)) (v3 (ix2 r k))).setWidth 32).toInt : ℝ) : EReal) = _
  rw [hw, hv3]
  by_cases h : v (ix3 (0 : Fin 1) (0 : Fin 1) r) = BitVec.ofNat 32 k.val
  · rw [if_pos h, h]
    simp [IntOp.cmpi]
  · rw [if_neg h]
    have hb : (v (ix3 (0 : Fin 1) (0 : Fin 1) r) == BitVec.ofNat 32 k.val) = false := beq_eq_false_iff_ne.mpr h
    simp [IntOp.cmpi, hb]

/-- The strip's matrix product into a zero accumulator, at (r, d): the sum over the 1024 codes. -/
theorem mm_apply (l : FVec Ideal S1024x1024 .bf16) (q : FVec Ideal S1024x128 .bf16) (r : Fin 1024) (d : Fin 128) :
    matmul dot_S1024x1024_S1024x128_S1024x128_1_0_0_1_n_n none l q (constant (F := Ideal) S1024x128 .f32 0x00000000#32) (ix2 r d)
      = ∑ k : Fin 1024, l (ix2 r k) * q (ix2 k d) := by
  refine (Ideal.matmul_constant_zero_apply dot_S1024x1024_S1024x128_S1024x128_1_0_0_1_n_n none l q (ix2 r d)).trans ?_
  rw [← Equiv.sum_comp (contrEquiv1 dot_S1024x1024_S1024x128_S1024x128_1_0_0_1_n_n 1024 rfl rfl).symm]
  refine Finset.sum_congr rfl fun k _ => ?_
  have ck := contrEquiv1_symm_val dot_S1024x1024_S1024x128_S1024x128_1_0_0_1_n_n 1024 rfl rfl k
  have hl : dot_S1024x1024_S1024x128_S1024x128_1_0_0_1_n_n.lhsIdx (ix2 r d) ((contrEquiv1 _ 1024 rfl rfl).symm k) = ix2 r k := by
    funext ax; apply Fin.ext
    match ax with
    | ⟨0, _⟩ => simp [DotDims.lhsIdx, dot_S1024x1024_S1024x128_S1024x128_1_0_0_1_n_n]; rfl
    | ⟨1, _⟩ => simp [DotDims.lhsIdx, dot_S1024x1024_S1024x128_S1024x128_1_0_0_1_n_n]; exact ck
  have hr : dot_S1024x1024_S1024x128_S1024x128_1_0_0_1_n_n.rhsIdx (ix2 r d) ((contrEquiv1 _ 1024 rfl rfl).symm k) = ix2 k d := by
    funext ax; apply Fin.ext
    match ax with
    | ⟨0, _⟩ => simp [DotDims.rhsIdx, dot_S1024x1024_S1024x128_S1024x128_1_0_0_1_n_n]; exact ck
    | ⟨1, _⟩ => simp [DotDims.rhsIdx, dot_S1024x1024_S1024x128_S1024x128_1_0_0_1_n_n]; rfl
  rw [hl, hr]

/-- A strip at (r, d), for any one-hot matrix and table: the one-hot row times the table's column, plus the same row times
    the column's difference from itself. -/
theorem strip_apply (oh : FVec Ideal S1024x1024 .bf16) (tb : FVec Ideal S1024x128 .f32) (r : Fin 1024) (d : Fin 128) :
    k0_pay25 (F := Ideal) oh tb (ix2 r d)
      = ∑ k : Fin 1024, oh (ix2 r k) * tb (ix2 k d) + ∑ k : Fin 1024, oh (ix2 r k) * (tb (ix2 k d) - tb (ix2 k d)) := by
  unfold k0_pay25
  show matmul dot_S1024x1024_S1024x128_S1024x128_1_0_0_1_n_n none oh (truncf .bf16 tb bitsLt_bf16_f32) (constant (F := Ideal) S1024x128 .f32 0x00000000#32) (ix2 r d)
    + matmul dot_S1024x1024_S1024x128_S1024x128_1_0_0_1_n_n none oh (truncf .bf16 (subf tb tb) bitsLt_bf16_f32) (constant (F := Ideal) S1024x128 .f32 0x00000000#32) (ix2 r d) = _
  rw [mm_apply, mm_apply]
  rfl

/-- A word below 1024 is the word of exactly one code, the one `Spec.pos` names. -/
theorem word_eq_code_iff (w : BitVec 32) (hw : w.toNat < 1024) (k : Fin 1024) :
    w = BitVec.ofNat 32 k.val ↔ k = Spec.pos w := by
  have hk : k.val < 1024 := k.isLt
  constructor
  · intro h
    apply Fin.ext
    have e : w.toNat = k.val := by rw [h, BitVec.toNat_ofNat]; omega
    show k.val = min w.toNat 1023
    omega
  · intro h
    have e : k.val = w.toNat := by rw [h]; show min w.toNat 1023 = w.toNat; omega
    apply BitVec.eq_of_toNat_eq
    rw [BitVec.toNat_ofNat, e]; omega

/-- A one-hot row against a column of real entries: the products sum to the entry at the hot code, and the products with the
    column's difference from itself sum to zero. -/
theorem select_sum (w : BitVec 32) (hw : w.toNat < 1024) (f : Fin 1024 → EReal) (hf : ∀ k, ∃ x : ℝ, f k = (x : EReal)) :
    ∑ k : Fin 1024, (if w = BitVec.ofNat 32 k.val then (1 : EReal) else 0) * f k
      + ∑ k : Fin 1024, (if w = BitVec.ofNat 32 k.val then (1 : EReal) else 0) * (f k - f k) = f (Spec.pos w) := by
  have h2 : ∑ k : Fin 1024, (if w = BitVec.ofNat 32 k.val then (1 : EReal) else 0) * (f k - f k) = 0 := by
    refine Finset.sum_eq_zero fun k _ => ?_
    obtain ⟨x, hx⟩ := hf k
    rw [hx, ← EReal.coe_sub, sub_self, EReal.coe_zero, mul_zero]
  have h1 : ∑ k : Fin 1024, (if w = BitVec.ofNat 32 k.val then (1 : EReal) else 0) * f k = f (Spec.pos w) := by
    rw [Finset.sum_eq_single (Spec.pos w)]
    · rw [if_pos ((word_eq_code_iff w hw _).mpr rfl), one_mul]
    · intro k _ hk
      rw [if_neg (fun h => hk ((word_eq_code_iff w hw k).mp h)), zero_mul]
    · intro h; exact absurd (Finset.mem_univ _) h
  rw [h1, h2, add_zero]

/-- The strip of slot sl at (r, d), from the slot's loaded index words w and table tb: the table's entry at the code row r's
    word selects. The words are in range and the table's entries are real. -/
theorem strip_entry (x0 : Vec Ideal S8x1x1024 .i32) (x1 : Vec Ideal S8x1024x128 .f32)
    (hr : ∀ j, (x0 j).toNat < 1024) (hf : ∀ j, ∃ a : ℝ, x1 j = (a : EReal))
    (sl : Fin 8) (w : Vec Ideal S1x1x1024 .i32)
    (hw : ∀ r : Fin 1024, w (ix3 (0 : Fin 1) (0 : Fin 1) r) = x0 (ix3 sl (0 : Fin 1) r))
    (tb : Vec Ideal S1x1024x128 .f32)
    (htb : ∀ (k : Fin 1024) (d : Fin 128), tb (ix3 (0 : Fin 1) k d) = x1 (ix3 sl k d))
    (v3 : IVec S1024x1024 32) (hv3 : ∀ r k : Fin 1024, v3 (ix2 r k) = BitVec.ofNat 32 k.val)
    (r : Fin 1024) (d : Fin 128) :
    k0_pay25 (F := Ideal) (truncf .bf16 (k0_pay2 (F := Ideal) v3 w) bitsLt_bf16_f32)
        (shapeCast S1024x128 tb shapeCasts_S1x1024x128_S1024x128) (ix2 r d)
      = x1 (ix3 sl (Spec.pos (x0 (ix3 sl (0 : Fin 1) r))) d) := by
  rw [strip_apply]
  have e1 : ∀ k : Fin 1024, (truncf .bf16 (k0_pay2 (F := Ideal) v3 w) bitsLt_bf16_f32 : FVec Ideal S1024x1024 .bf16) (ix2 r k)
      = if x0 (ix3 sl (0 : Fin 1) r) = BitVec.ofNat 32 k.val then (1 : EReal) else 0 := fun k => by
    show k0_pay2 (F := Ideal) v3 w (ix2 r k) = _
    rw [onehot_apply v3 hv3 w r k, hw r]
  have e2 : ∀ k : Fin 1024, shapeCast S1024x128 tb shapeCasts_S1x1024x128_S1024x128 (ix2 k d) = x1 (ix3 sl k d) := fun k => by
    rw [shapeCast_1ab_ab_apply]; exact htb k d
  simp only [e1, e2]
  exact select_sum (x0 (ix3 sl (0 : Fin 1) r)) (hr _) (fun k => x1 (ix3 sl k d)) (fun k => hf _)

/-- The code iota's entry (r, k) is the word of k. -/
theorem iota_code (r k : Fin 1024) :
    iota .tc S1024x1024 32 [1] iota_S1024x1024_d1_w32 (ix2 r k) = BitVec.ofNat 32 k.val :=
  iota_single_apply .tc S1024x1024 32 1 iota_S1024x1024_d1_w32 (ix2 r k)

/-- A load of slot sl's row of index words off the whole index block. -/
theorem load_words (m : Memref sig .tc .vmem S8x1x1024 .i32) (hm : m.IsWhole) (x0 : Vec Ideal S8x1x1024 .i32) (sl : Fin 8)
    (off : Fin 3 → ℕ) (hoff : off = ![sl.val, 0, 0]) (inb : ∀ a, off a + S1x1x1024.size a ≤ S8x1x1024.size a) (r : Fin 1024) :
    View.readAt (Elt Ideal) m.view (Rect.unit (s := S8x1x1024) off S1x1x1024.size inb).toLoadRect (hm.unread x0) (ix3 (0 : Fin 1) (0 : Fin 1) r)
      = x0 (ix3 sl (0 : Fin 1) r) := by
  subst hoff
  refine (congrFun (hm.read_unread x0) _).trans (congrArg x0 (funext fun a => Fin.ext ?_))
  match a with
  | ⟨0, _⟩ => show sl.val + 1 * 0 = sl.val; omega
  | ⟨1, _⟩ => show 0 + 1 * 0 = 0; omega
  | ⟨2, _⟩ => show 0 + 1 * r.val = r.val; omega

/-- A load of slot sl's table off the whole table block. -/
theorem load_table (m : Memref sig .tc .vmem S8x1024x128 .f32) (hm : m.IsWhole) (x1 : Vec Ideal S8x1024x128 .f32) (sl : Fin 8)
    (off : Fin 3 → ℕ) (hoff : off = ![sl.val, 0, 0]) (inb : ∀ a, off a + S1x1024x128.size a ≤ S8x1024x128.size a)
    (k : Fin 1024) (d : Fin 128) :
    View.readAt (Elt Ideal) m.view (Rect.unit (s := S8x1024x128) off S1x1024x128.size inb).toLoadRect (hm.unread x1) (ix3 (0 : Fin 1) k d)
      = x1 (ix3 sl k d) := by
  subst hoff
  refine (congrFun (hm.read_unread x1) _).trans (congrArg x1 (funext fun a => Fin.ext ?_))
  match a with
  | ⟨0, _⟩ => show sl.val + 1 * 0 = sl.val; omega
  | ⟨1, _⟩ => show 0 + 1 * k.val = k.val; omega
  | ⟨2, _⟩ => show 0 + 1 * d.val = d.val; omega

/-- The 1024 × 1024 block of the flat array a grid point leaves, from the point's index block x0 and table block x1:
    entry (r, 128 sl + d) is the entry d of the table row that slot sl's word of row r selects. -/
def blockZ (x0 : Vec Ideal S8x1x1024 .i32) (x1 : Vec Ideal S8x1024x128 .f32) : S1024x1024.Idx → EReal := fun y =>
  x1 (ix3 (⟨(y 1).val / 128, by have h : (y 1).val < 1024 := (y 1).isLt; omega⟩ : Fin 8)
    (Spec.pos (x0 (ix3 (⟨(y 1).val / 128, by have h : (y 1).val < 1024 := (y 1).isLt; omega⟩ : Fin 8) (0 : Fin 1)
      (⟨(y 0).val, (y 0).isLt⟩ : Fin 1024))))
    (⟨(y 1).val % 128, Nat.mod_lt _ (by decide)⟩ : Fin 128))

/-- The block at the index whose row is r and whose column is 128 sl + d. -/
theorem blockZ_at (x0 : Vec Ideal S8x1x1024 .i32) (x1 : Vec Ideal S8x1024x128 .f32) (sl : Fin 8) (r : Fin 1024) (d : Fin 128)
    (y : S1024x1024.Idx) (h0 : (y 0).val = r.val) (h1 : (y 1).val = 128 * sl.val + d.val) :
    blockZ x0 x1 y = x1 (ix3 sl (Spec.pos (x0 (ix3 sl (0 : Fin 1) r))) d) := by
  have hd : d.val < 128 := d.isLt
  have e0 : (⟨(y 1).val / 128, by have h : (y 1).val < 1024 := (y 1).isLt; omega⟩ : Fin 8) = sl := Fin.ext (by show (y 1).val / 128 = sl.val; omega)
  have e1 : (⟨(y 0).val, (y 0).isLt⟩ : Fin 1024) = r := Fin.ext h0
  have e2 : (⟨(y 1).val % 128, Nat.mod_lt _ (by decide)⟩ : Fin 128) = d := Fin.ext (by show (y 1).val % 128 = d.val; omega)
  unfold blockZ
  rw [e0, e1, e2]

/-- One stored strip is the block's columns 128 sl … 128 sl + 127: the strip's payload, over the slot's loads, at a strip
    index is the block at the index's place. -/
theorem piece_entry (x0 : Vec Ideal S8x1x1024 .i32) (x1 : Vec Ideal S8x1024x128 .f32)
    (hr : ∀ j, (x0 j).toNat < 1024) (hf : ∀ j, ∃ a : ℝ, x1 j = (a : EReal)) (sl : Fin 8)
    (m2 : Memref sig .tc .vmem S8x1x1024 .i32) (hm2 : m2.IsWhole) (m3 : Memref sig .tc .vmem S8x1024x128 .f32) (hm3 : m3.IsWhole)
    (offw : Fin 3 → ℕ) (hoffw : offw = ![sl.val, 0, 0]) (inbw : ∀ a, offw a + S1x1x1024.size a ≤ S8x1x1024.size a)
    (offt : Fin 3 → ℕ) (hofft : offt = ![sl.val, 0, 0]) (inbt : ∀ a, offt a + S1x1024x128.size a ≤ S8x1024x128.size a)
    (pay : FVec Ideal S1024x128 .f32)
    (hpay : pay = k0_pay25 (F := Ideal)
      (truncf .bf16 (k0_pay2 (F := Ideal) (iota .tc S1024x1024 32 [1] iota_S1024x1024_d1_w32)
        (View.readAt (Elt Ideal) m2.view (Rect.unit (s := S8x1x1024) offw S1x1x1024.size inbw).toLoadRect (hm2.unread x0))) bitsLt_bf16_f32)
      (shapeCast S1024x128
        (View.readAt (Elt Ideal) m3.view (Rect.unit (s := S8x1024x128) offt S1x1024x128.size inbt).toLoadRect (hm3.unread x1))
        shapeCasts_S1x1024x128_S1024x128))
    (off : Fin 2 → ℕ) (hoff : off = ![0, 128 * sl.val]) (inb : ∀ a, off a + S1024x128.size a ≤ S1024x1024.size a)
    (x : S1024x128.Idx) :
    pay x = blockZ x0 x1 ((Rect.unit (s := S1024x1024) off S1024x128.size inb).emb x) := by
  obtain ⟨r, d, rfl⟩ : ∃ (r : Fin 1024) (d : Fin 128), x = ix2 r d := ⟨x 0, x 1, eq_ix2 x⟩
  subst hoff hpay
  refine (strip_entry x0 x1 hr hf sl _ (load_words m2 hm2 x0 sl offw hoffw inbw) _ (load_table m3 hm3 x1 sl offt hofft inbt) _
    iota_code r d).trans (blockZ_at x0 x1 sl r d _ ?_ ?_).symm
  · show 0 + 1 * r.val = r.val; omega
  · show 128 * sl.val + 1 * d.val = 128 * sl.val + d.val; omega

/-- What the body leaves in the flat array's staging buffer at a point of the first case: the block of its input blocks. -/
theorem out2_A (c : Dev nD) (i : grid0.Coords) (a2 : Memref sig .tc .vmem S8x1x1024 .i32) (h2 : a2.IsWhole)
    (a3 : Memref sig .tc .vmem S8x1024x128 .f32) (h3 : a3.IsWhole) (a4 : Memref sig .tc .vmem S1024x1024 .f32) (h4 : a4.IsWhole)
    (a5 : Memref sig .tc .vmem S8x1024 .f32) (h5 : a5.IsWhole) (hc0 : cond0_0 i)
    (x0 : Vec Ideal S8x1x1024 .i32) (x1 : Vec Ideal S8x1024x128 .f32)
    (hr : ∀ j, (x0 j).toNat < 1024) (hf : ∀ j, ∃ a : ℝ, x1 j = (a : EReal)) :
    out0_A_2 (F := Ideal) c i a2 h2 a3 h3 a4 h4 a5 h5 hc0 x0 x1 = blockZ x0 x1 := by
  have hcov := cover0_A_2 (F := Ideal) c i a2 h2 a3 h3 a4 h4 a5 h5 hc0 x0 x1
  unfold out0_A_2
  rw [View.read_writes_eq_canon _ _ _ hcov]
  funext y
  refine View.canon_apply_of_pieces (blockZ x0 x1) _ ?_ y (hcov y)
  unfold kernelRun0_A
  dsimp only
  sl_unfold_words
  intro p hp
  simp only [List.mem_cons, List.not_mem_nil, or_false] at hp
  rcases hp with rfl | rfl | rfl | rfl | rfl | rfl | rfl | rfl
  · exact piece_entry x0 x1 hr hf 7 a2 h2 a3 h3 ![7, 0, 0] rfl inb_S8x1x1024_S1x1x1024_7_0_0 ![7, 0, 0] rfl inb_S8x1024x128_S1x1024x128_7_0_0 _ rfl ![0, 896] rfl inb_S1024x1024_S1024x128_0_896
  · exact piece_entry x0 x1 hr hf 6 a2 h2 a3 h3 ![6, 0, 0] rfl inb_S8x1x1024_S1x1x1024_6_0_0 ![6, 0, 0] rfl inb_S8x1024x128_S1x1024x128_6_0_0 _ rfl ![0, 768] rfl inb_S1024x1024_S1024x128_0_768
  · exact piece_entry x0 x1 hr hf 5 a2 h2 a3 h3 ![5, 0, 0] rfl inb_S8x1x1024_S1x1x1024_5_0_0 ![5, 0, 0] rfl inb_S8x1024x128_S1x1024x128_5_0_0 _ rfl ![0, 640] rfl inb_S1024x1024_S1024x128_0_640
  · exact piece_entry x0 x1 hr hf 4 a2 h2 a3 h3 ![4, 0, 0] rfl inb_S8x1x1024_S1x1x1024_4_0_0 ![4, 0, 0] rfl inb_S8x1024x128_S1x1024x128_4_0_0 _ rfl ![0, 512] rfl inb_S1024x1024_S1024x128_0_512
  · exact piece_entry x0 x1 hr hf 3 a2 h2 a3 h3 ![3, 0, 0] rfl inb_S8x1x1024_S1x1x1024_3_0_0 ![3, 0, 0] rfl inb_S8x1024x128_S1x1024x128_3_0_0 _ rfl ![0, 384] rfl inb_S1024x1024_S1024x128_0_384
  · exact piece_entry x0 x1 hr hf 2 a2 h2 a3 h3 ![2, 0, 0] rfl inb_S8x1x1024_S1x1x1024_2_0_0 ![2, 0, 0] rfl inb_S8x1024x128_S1x1024x128_2_0_0 _ rfl ![0, 256] rfl inb_S1024x1024_S1024x128_0_256
  · exact piece_entry x0 x1 hr hf 1 a2 h2 a3 h3 ![1, 0, 0] rfl inb_S8x1x1024_S1x1x1024_1_0_0 ![1, 0, 0] rfl inb_S8x1024x128_S1x1024x128_1_0_0 _ rfl ![0, 128] rfl inb_S1024x1024_S1024x128_0_128
  · exact piece_entry x0 x1 hr hf 0 a2 h2 a3 h3 ![0, 0, 0] rfl inb_S8x1x1024_S1x1x1024_0_0_0 ![0, 0, 0] rfl inb_S8x1024x128_S1x1024x128_0_0_0 _ rfl ![0, 0] rfl inb_S1024x1024_S1024x128_0_0
/-- What the body leaves in the flat array's staging buffer at a point of the second case (whatever the counts buffer held): the same block. -/
theorem out2_B (c : Dev nD) (i : grid0.Coords) (a2 : Memref sig .tc .vmem S8x1x1024 .i32) (h2 : a2.IsWhole)
    (a3 : Memref sig .tc .vmem S8x1024x128 .f32) (h3 : a3.IsWhole) (a4 : Memref sig .tc .vmem S1024x1024 .f32) (h4 : a4.IsWhole)
    (a5 : Memref sig .tc .vmem S8x1024 .f32) (h5 : a5.IsWhole) (hc0 : ¬cond0_0 i)
    (x0 : Vec Ideal S8x1x1024 .i32) (x1 : Vec Ideal S8x1024x128 .f32) (xo3 : Vec Ideal S8x1024 .f32)
    (hr : ∀ j, (x0 j).toNat < 1024) (hf : ∀ j, ∃ a : ℝ, x1 j = (a : EReal)) :
    out0_B_2 (F := Ideal) c i a2 h2 a3 h3 a4 h4 a5 h5 hc0 x0 x1 xo3 = blockZ x0 x1 := by
  have hcov := cover0_B_2 (F := Ideal) c i a2 h2 a3 h3 a4 h4 a5 h5 hc0 x0 x1 xo3
  unfold out0_B_2
  rw [View.read_writes_eq_canon _ _ _ hcov]
  funext y
  refine View.canon_apply_of_pieces (blockZ x0 x1) _ ?_ y (hcov y)
  unfold kernelRun0_B
  dsimp only
  sl_unfold_words
  intro p hp
  simp only [List.mem_cons, List.not_mem_nil, or_false] at hp
  rcases hp with rfl | rfl | rfl | rfl | rfl | rfl | rfl | rfl
  · exact piece_entry x0 x1 hr hf 7 a2 h2 a3 h3 ![7, 0, 0] rfl inb_S8x1x1024_S1x1x1024_7_0_0 ![7, 0, 0] rfl inb_S8x1024x128_S1x1024x128_7_0_0 _ rfl ![0, 896] rfl inb_S1024x1024_S1024x128_0_896
  · exact piece_entry x0 x1 hr hf 6 a2 h2 a3 h3 ![6, 0, 0] rfl inb_S8x1x1024_S1x1x1024_6_0_0 ![6, 0, 0] rfl inb_S8x1024x128_S1x1024x128_6_0_0 _ rfl ![0, 768] rfl inb_S1024x1024_S1024x128_0_768
  · exact piece_entry x0 x1 hr hf 5 a2 h2 a3 h3 ![5, 0, 0] rfl inb_S8x1x1024_S1x1x1024_5_0_0 ![5, 0, 0] rfl inb_S8x1024x128_S1x1024x128_5_0_0 _ rfl ![0, 640] rfl inb_S1024x1024_S1024x128_0_640
  · exact piece_entry x0 x1 hr hf 4 a2 h2 a3 h3 ![4, 0, 0] rfl inb_S8x1x1024_S1x1x1024_4_0_0 ![4, 0, 0] rfl inb_S8x1024x128_S1x1024x128_4_0_0 _ rfl ![0, 512] rfl inb_S1024x1024_S1024x128_0_512
  · exact piece_entry x0 x1 hr hf 3 a2 h2 a3 h3 ![3, 0, 0] rfl inb_S8x1x1024_S1x1x1024_3_0_0 ![3, 0, 0] rfl inb_S8x1024x128_S1x1024x128_3_0_0 _ rfl ![0, 384] rfl inb_S1024x1024_S1024x128_0_384
  · exact piece_entry x0 x1 hr hf 2 a2 h2 a3 h3 ![2, 0, 0] rfl inb_S8x1x1024_S1x1x1024_2_0_0 ![2, 0, 0] rfl inb_S8x1024x128_S1x1024x128_2_0_0 _ rfl ![0, 256] rfl inb_S1024x1024_S1024x128_0_256
  · exact piece_entry x0 x1 hr hf 1 a2 h2 a3 h3 ![1, 0, 0] rfl inb_S8x1x1024_S1x1x1024_1_0_0 ![1, 0, 0] rfl inb_S8x1024x128_S1x1024x128_1_0_0 _ rfl ![0, 128] rfl inb_S1024x1024_S1024x128_0_128
  · exact piece_entry x0 x1 hr hf 0 a2 h2 a3 h3 ![0, 0, 0] rfl inb_S8x1x1024_S1x1x1024_0_0_0 ![0, 0, 0] rfl inb_S8x1024x128_S1x1024x128_0_0_0 _ rfl ![0, 0] rfl inb_S1024x1024_S1024x128_0_0

/-- The printed index maps over the grid: the index window's and the table window's block indices against the flat array's
    (its block index is (batch tile, slot tile)), and the ranges of the latter. -/
theorem idx_facts : ∀ t : Fin cfg0.N,
    win0_0.index t (0 : Fin 3) = win0_2.index t (1 : Fin 2) ∧ win0_0.index t (1 : Fin 3) = 0
    ∧ win0_0.index t (2 : Fin 3) = win0_2.index t (0 : Fin 2)
    ∧ win0_1.index t (0 : Fin 3) = win0_2.index t (1 : Fin 2) ∧ win0_1.index t (1 : Fin 3) = 0 ∧ win0_1.index t (2 : Fin 3) = 0
    ∧ win0_2.index t (0 : Fin 2) ≤ 3 ∧ win0_2.index t (1 : Fin 2) ≤ 3 :=
  (by decide +kernel : ∀ t : Fin grid0.N, _)

/-- Every block of the flat array is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- The block against the whole-array function: with the blocks' entries read off the arrays at slot tile si and batch tile
    bi, the block at j is the flat array's function at (1024 bi + j₀, 1024 si + j₁). -/
theorem blockZ_eq_zflat (ixT : Spec.SIdxT.Idx → BitVec 32) (emb : Spec.SEmb.Idx → EReal)
    (x0 : Vec Ideal S8x1x1024 .i32) (x1 : Vec Ideal S8x1024x128 .f32) (si bi : ℕ) (hs : si < 4) (hb : bi < 4)
    (h0 : ∀ (sl : Fin 8) (r : Fin 1024), x0 (ix3 sl (0 : Fin 1) r)
      = ixT (ix3 (⟨si * 8 + sl.val, by have := sl.isLt; omega⟩ : Fin 32) (0 : Fin 1) (⟨bi * 1024 + r.val, by have := r.isLt; omega⟩ : Fin 4096)))
    (h1 : ∀ (sl : Fin 8) (k : Fin 1024) (d : Fin 128), x1 (ix3 sl k d)
      = emb (ix3 (⟨si * 8 + sl.val, by have := sl.isLt; omega⟩ : Fin 32) k d))
    (j : S1024x1024.Idx) (i : Spec.SZf.Idx) (hi0 : (i 0).val = bi * 1024 + (j 0).val) (hi1 : (i 1).val = si * 1024 + (j 1).val) :
    blockZ x0 x1 j = Spec.zflat ixT emb i := by
  have hj0 : (j 0).val < 1024 := (j 0).isLt
  have hj1 : (j 1).val < 1024 := (j 1).isLt
  have key : ∀ (s s' : Fin 32) (b b' : Fin 4096) (d d' : Fin 128), s = s' → b = b' → d = d' →
      emb (ix3 s (Spec.pos (ixT (ix3 s (0 : Fin 1) b))) d) = emb (ix3 s' (Spec.pos (ixT (ix3 s' (0 : Fin 1) b'))) d') := by
    rintro s _ b _ d _ rfl rfl rfl; rfl
  unfold blockZ Spec.zflat
  rw [h1, h0]
  exact key _ _ _ _ _ _ (Fin.ext (by show si * 8 + (j 1).val / 128 = (i 1).val / 128; omega))
    (Fin.ext (by show bi * 1024 + (j 0).val = (i 0).val; omega)) (Fin.ext (by show (j 1).val % 128 = (i 1).val % 128; omega))

/-- The index block and the table block at a point, at their literal types. -/
abbrev xw (c : Dev nD) (t : Fin cfg0.N) : Vec Ideal S8x1x1024 .i32 := iblk0 (F := Ideal) V c 0 t
abbrev xt (c : Dev nD) (t : Fin cfg0.N) : Vec Ideal S8x1024x128 .f32 := iblk0 (F := Ideal) V c 1 t

/-- The index block at a point reads the transposed index array at slot 8 si + sl, batch row 1024 bi + r. -/
theorem xw_apply (c : Dev nD) (t : Fin cfg0.N) (si bi : ℕ) (hsi : win0_2.index t (1 : Fin 2) = si) (hbi : win0_2.index t (0 : Fin 2) = bi)
    (hs : si < 4) (hb : bi < 4) (sl : Fin 8) (r : Fin 1024) :
    xw V c t (ix3 sl (0 : Fin 1) r) = (V c main_v2 : Spec.SIdxT.Idx → BitVec 32)
      (ix3 (⟨si * 8 + sl.val, by have := sl.isLt; omega⟩ : Fin 32) (0 : Fin 1) (⟨bi * 1024 + r.val, by have := r.isLt; omega⟩ : Fin 4096)) := by
  obtain ⟨e0, e1, e2, -⟩ := idx_facts t
  show V c main_v2 (((cfg0.win 0).blk t).view.emb (ix3 sl (0 : Fin 1) r)) = V c main_v2 _
  refine congrArg (V c main_v2) (funext fun a => Fin.ext ?_)
  match a with
  | ⟨0, _⟩ => show win0_0.index t (0 : Fin 3) * 8 + 1 * sl.val = si * 8 + sl.val; rw [e0, hsi]; omega
  | ⟨1, _⟩ => show win0_0.index t (1 : Fin 3) * 1 + 1 * 0 = 0; rw [e1]
  | ⟨2, _⟩ => show win0_0.index t (2 : Fin 3) * 1024 + 1 * r.val = bi * 1024 + r.val; rw [e2, hbi]; omega

/-- The table block at a point reads the code tables at slot 8 si + sl. -/
theorem xt_apply (c : Dev nD) (t : Fin cfg0.N) (si : ℕ) (hsi : win0_2.index t (1 : Fin 2) = si) (hs : si < 4)
    (sl : Fin 8) (k : Fin 1024) (d : Fin 128) :
    xt V c t (ix3 sl k d) = (V c main_arg1 : Spec.SEmb.Idx → EReal) (ix3 (⟨si * 8 + sl.val, by have := sl.isLt; omega⟩ : Fin 32) k d) := by
  obtain ⟨-, -, -, e3, e4, e5, -⟩ := idx_facts t
  show V c main_arg1 (((cfg0.win 1).blk t).view.emb (ix3 sl k d)) = V c main_arg1 _
  refine congrArg (V c main_arg1) (funext fun a => Fin.ext ?_)
  match a with
  | ⟨0, _⟩ => show win0_1.index t (0 : Fin 3) * 8 + 1 * sl.val = si * 8 + sl.val; rw [e3, hsi]; omega
  | ⟨1, _⟩ => show win0_1.index t (1 : Fin 3) * 1024 + 1 * k.val = k.val; rw [e4]; omega
  | ⟨2, _⟩ => show win0_1.index t (2 : Fin 3) * 128 + 1 * d.val = d.val; rw [e5]; omega

/-- After the body at any point the flat array's staging buffer holds the block of the point's input blocks: both cases. -/
theorem outs2_eq (c : Dev nD) (hrng : Spec.InRange (S := Spec.SIdxT) (V c main_v2)) (hfin : Spec.Finite (S := Spec.SEmb) (V c main_arg1))
    (t : Fin cfg0.N) : (outsAt0 (F := Ideal) V c t.val t.isLt).1 = blockZ (xw V c t) (xt V c t) := by
  have hr : ∀ j, (xw V c t j).toNat < 1024 := fun j => hrng (((cfg0.win 0).blk t).view.emb j)
  have hf : ∀ j, ∃ a : ℝ, xt V c t j = (a : EReal) := fun j => hfin (((cfg0.win 1).blk t).view.emb j)
  by_cases h0 : t.val % 4 = 0
  · rw [outsAt0_A V c t h0]
    dsimp only
    exact out2_A c (grid0.coords t) (ms0_0 t) (hs0_0 t) (ms0_1 t) (hs0_1 t) (ms0_2 t) (hs0_2 t) (ms0_3 t) (hs0_3 t)
      ((hcond0_0 t).mpr h0) (xw V c t) (xt V c t) hr hf
  · rw [outsAt0_B V c t h0]
    dsimp only
    exact out2_B c (grid0.coords t) (ms0_0 t) (hs0_0 t) (ms0_1 t) (hs0_1 t) (ms0_2 t) (hs0_2 t) (ms0_3 t) (hs0_3 t)
      (fun h => h0 ((hcond0_0 t).mp h)) (xw V c t) (xt V c t)
      (outsAt0 (F := Ideal) V c (t.val - 1) (Nat.lt_of_le_of_lt (Nat.sub_le _ _) t.isLt)).2 hr hf

/-- What a point writes back to the flat array is its block of the whole-array function. -/
theorem flushed_eq (c : Dev nD) (hrng : Spec.InRange (S := Spec.SIdxT) (V c main_v2)) (hfin : Spec.Finite (S := Spec.SEmb) (V c main_arg1))
    (t : Fin cfg0.N) :
    (dat0 (F := Ideal) V c).flushed 2 t
      = ((cfg0.win 2).blk t).view.read (Elt Ideal) (Spec.zflat (V c main_v2) (V c main_arg1)) := by
  show (cfg0.win 2).cut (grid0.coords t) ((dat0 (F := Ideal) V c).after 2 t) = _
  rw [after0_2, outs2_eq V c hrng hfin t]
  obtain ⟨-, -, -, -, -, -, e6, e7⟩ := idx_facts t
  funext j
  show blockZ (xw V c t) (xt V c t) j = Spec.zflat (V c main_v2) (V c main_arg1) (((cfg0.win 2).blk t).view.emb j)
  refine blockZ_eq_zflat (V c main_v2) (V c main_arg1) (xw V c t) (xt V c t) (win0_2.index t (1 : Fin 2)) (win0_2.index t (0 : Fin 2))
    (by omega) (by omega)
    (fun sl r => xw_apply V c t (win0_2.index t (1 : Fin 2)) (win0_2.index t (0 : Fin 2)) rfl rfl (by omega) (by omega) sl r)
    (fun sl k d => xt_apply V c t (win0_2.index t (1 : Fin 2)) rfl (by omega) sl k d) j _ ?_ ?_
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An index of the flat array is in a point's block iff each coordinate is in the block's range on its axis. -/
theorem mem_blk (t : Fin cfg0.N) (i : Spec.SZf.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3_0).slice (win0_2.rect t)).set ↔ _
  rw [View.set_slice_whole, Rect.mem_set_unit]
  exact Iff.rfl

/-- Every index of the flat array is in the block of the point at (batch tile i₀ / 1024, slot tile i₁ / 1024). -/
theorem covered (i : Spec.SZf.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The flat z_q array after the first kernel: entry (b, 128 s + d) is the code table's entry (s, ixT[s, 0, b], d). -/
theorem arr0_2 (c : Dev nD) (hrng : Spec.InRange (S := Spec.SIdxT) (V c main_v2)) (hfin : Spec.Finite (S := Spec.SEmb) (V c main_arg1)) :
    (dat0 (F := Ideal) V c).arrAt 2 cfg0.N = Spec.zflat (V c main_v2) (V c main_arg1) :=
  (dat0 (F := Ideal) V c).arrAt_eq_of_cover 2 (Spec.zflat (V c main_v2) (V c main_arg1))
    (fun t _ => flushed_eq V c hrng hfin t) covered

end Cert.KernelIdeal.Reg0Z

end
-- ==== Proof.Reg0C.lean ====
/-
  The first kernel's counts array. Its block for a slot tile stays in place over the four batch tiles: zeroed at the
  first, and at every tile each slot's row gains, per code, the number of the tile's 1024 index words equal to the code
  (the column sums of the one-hot matrix). After the fourth tile a row holds the count over all 4096 batch rows.
-/
import proofs.«402485_j27315992003198_3_alg».proof.Proof.Gen.KernelIdeal.Frame
import proofs.«402485_j27315992003198_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg0C

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One slot's row update, at an index -/

section RowUpdate

variable {F : FTy → Type} [FloatOps F]

/-- What one slot's step stores in its row of the counts block: the row as it was, plus the column sums of the
    one-hot matrix of the slot's 1024 index words (entry (r, k) is 1 when word r is the code k). -/
def rowUpd (w : Vec F S1x1x1024 .i32) (old : Vec F S1x1024 .f32) : FVec F S1x1024 .f32 :=
  shapeCast S1x1024
    (addf (shapeCast S1024 old shapeCasts_S1x1024_S1024)
      (multiReduction .add [0] S1024
        (sitofp .f32 (extui 32 (cmpi .eq
          (broadcastTo S1024x1024 (shapeCast S1024x1 (shapeCast S1024 w shapeCasts_S1x1x1024_S1024) shapeCasts_S1024_S1024x1)
            broadcasts_S1024x1_S1024x1024)
          (iota .tc S1024x1024 32 [1] iota_S1024x1024_d1_w32)) natLt_1_32))
        0x00000000#32 reduces_S1024x1024_S1024 (.inl rfl) rfl))
    shapeCasts_S1024_S1x1024

/-- The eight forms the step takes in the body (a value computed in one part of the body and used in the next is passed
    along as an argument) are all this one. -/
theorem pay8_eq (w : Vec F S1x1x1024 .i32) (old : Vec F S1x1024 .f32) : k0_pay8 w old = rowUpd w old := rfl
theorem pay12_eq (w : Vec F S1x1x1024 .i32) (old : Vec F S1x1024 .f32) : k0_pay12 (k0_pay9 w) old = rowUpd w old := rfl
theorem pay15_eq (w : Vec F S1x1x1024 .i32) (old : Vec F S1x1024 .f32) :
    k0_pay15 (k0_pay13 (iota .tc S1024x1024 32 [1] iota_S1024x1024_d1_w32) w) old = rowUpd w old := rfl
theorem pay18_eq (w : Vec F S1x1x1024 .i32) (old : Vec F S1x1024 .f32) :
    k0_pay18 (iota .tc S1024x1024 32 [1] iota_S1024x1024_d1_w32) w old = rowUpd w old := rfl
theorem pay21_eq (w : Vec F S1x1x1024 .i32) (old : Vec F S1x1024 .f32) :
    k0_pay21 (iota .tc S1024x1024 32 [1] iota_S1024x1024_d1_w32) w old = rowUpd w old := rfl
theorem pay26_eq (w : Vec F S1x1x1024 .i32) (old : Vec F S1x1024 .f32) :
    k0_pay26 (k0_pay22 (iota .tc S1024x1024 32 [1] iota_S1024x1024_d1_w32) w) old = rowUpd w old := rfl
theorem pay1_eq (w : Vec F S1x1x1024 .i32) (old : Vec F S1x1024 .f32) :
    k0_pay1 (k0_pay29 (iota .tc S1024x1024 32 [1] iota_S1024x1024_d1_w32) w) old = rowUpd w old := rfl
theorem pay4_eq (w : Vec F S1x1x1024 .i32) (old : Vec F S1x1024 .f32) :
    k0_pay4 (iota .tc S1024x1024 32 [1] iota_S1024x1024_d1_w32) w old = rowUpd w old := rfl

end RowUpdate

/-- How many of a slot's 1024 index words are the code k, as a sum of ones. -/
def hits (w : S1x1x1024.Idx → BitVec 32) (k : Fin 1024) : EReal :=
  ∑ r : Fin 1024, if w (ix3 (0 : Fin 1) (0 : Fin 1) r) = BitVec.ofNat 32 k.val then (1 : EReal) else 0

/-- An entry of the one-hot matrix: the comparison's bit, widened and converted, is 1 or 0. -/
theorem onehot_apply (w : Vec Ideal S1x1x1024 .i32) (r k : Fin 1024) :
    (sitofp .f32 (extui 32 (cmpi .eq
        (broadcastTo S1024x1024 (shapeCast S1024x1 (shapeCast S1024 w shapeCasts_S1x1x1024_S1024) shapeCasts_S1024_S1024x1)
          broadcasts_S1024x1_S1024x1024)
        (iota .tc S1024x1024 32 [1] iota_S1024x1024_d1_w32)) natLt_1_32) : FVec Ideal S1024x1024 .f32) (ix2 r k)
      = if w (ix3 (0 : Fin 1) (0 : Fin 1) r) = BitVec.ofNat 32 k.val then (1 : EReal) else 0 := by
  have e1 : (iota .tc S1024x1024 32 [1] iota_S1024x1024_d1_w32 : IVec S1024x1024 32) (ix2 r k) = BitVec.ofNat 32 k.val :=
    iota_single_apply .tc S1024x1024 32 1 iota_S1024x1024_d1_w32 (ix2 r k)
  have e2 : broadcastTo S1024x1024 (shapeCast S1024x1 (shapeCast S1024 w shapeCasts_S1x1x1024_S1024) shapeCasts_S1024_S1024x1)
      broadcasts_S1024x1_S1024x1024 (ix2 r k) = w (ix3 (0 : Fin 1) (0 : Fin 1) r) := by
    refine (broadcastTo_apply _ _ (ix2 r k) (ix2 r (0 : Fin 1)) ?_).trans ?_
    · intro a
      match a with
      | ⟨0, _⟩ => rfl
      | ⟨1, _⟩ => rfl
    refine (shapeCast_apply _ _ (ix2 r (0 : Fin 1)) (ix1 r) ?_).trans ?_
    · rw [Shape.rowMajor_val_one, Shape.rowMajor_val_two]
      show r.val = r.val * 1 + 0
      omega
    exact shapeCast_apply _ _ (ix1 r) (ix3 (0 : Fin 1) (0 : Fin 1) r) (by
      rw [Shape.rowMajor_val_three, Shape.rowMajor_val_one]
      show (0 * 1 + 0) * 1024 + r.val = r.val
      omega)
  show FloatOps.sitofp (F := Ideal) .f32 ((IntOp.cmpi .eq
      (broadcastTo S1024x1024 (shapeCast S1024x1 (shapeCast S1024 w shapeCasts_S1x1x1024_S1024) shapeCasts_S1024_S1024x1)
        broadcasts_S1024x1_S1024x1024 (ix2 r k))
      ((iota .tc S1024x1024 32 [1] iota_S1024x1024_d1_w32 : IVec S1024x1024 32) (ix2 r k))).setWidth 32) = _
  rw [e1, e2]
  show (((((IntOp.cmpi .eq (w (ix3 (0 : Fin 1) (0 : Fin 1) r)) (BitVec.ofNat 32 k.val)).setWidth 32).toInt : ℝ)) : EReal) = _
  by_cases h : w (ix3 (0 : Fin 1) (0 : Fin 1) r) = BitVec.ofNat 32 k.val
  · rw [if_pos h, h]
    have : IntOp.cmpi .eq (BitVec.ofNat 32 k.val) (BitVec.ofNat 32 k.val) = 1#1 := by
      show BitVec.ofBool (BitVec.ofNat 32 k.val == BitVec.ofNat 32 k.val) = 1#1
      rw [beq_self_eq_true]; rfl
    rw [this]
    norm_num
  · rw [if_neg h]
    have : IntOp.cmpi .eq (w (ix3 (0 : Fin 1) (0 : Fin 1) r)) (BitVec.ofNat 32 k.val) = 0#1 := by
      show BitVec.ofBool (w (ix3 (0 : Fin 1) (0 : Fin 1) r) == BitVec.ofNat 32 k.val) = 0#1
      rw [beq_eq_false_iff_ne.mpr h]; rfl
    rw [this]
    norm_num

/-- The step at an entry: the old entry plus the number of the slot's words equal to the entry's code. -/
theorem rowUpd_apply (w : Vec Ideal S1x1x1024 .i32) (old : Vec Ideal S1x1024 .f32) (u : Fin 1) (k : Fin 1024) :
    rowUpd (F := Ideal) w old (ix2 u k) = old (ix2 (0 : Fin 1) k) + hits w k := by
  unfold rowUpd
  refine (shapeCast_a_1a_apply _ shapeCasts_S1024_S1x1024 u k).trans ?_
  rw [addf_apply]
  refine congrArg₂ (· + ·) (shapeCast_1a_a_apply old shapeCasts_S1x1024_S1024 k) ?_
  refine (Ideal.multiReduction_add_single _ 0x00000000#32 reduces_S1024x1024_S1024 (.inl rfl) rfl (ix1 k)).trans ?_
  unfold hits
  refine Finset.sum_congr rfl fun r _ => ?_
  have hl : reduces_S1024x1024_S1024.lift (ix1 k) r = ix2 r k := by
    funext a
    match a with
    | ⟨0, _⟩ => rfl
    | ⟨1, _⟩ => rfl
  rw [hl]
  exact onehot_apply w r k

/-! ## The counts block after the body, in each of its two cases -/

theorem hz2 : (![0, 0] : Fin 2 → Nat) = fun _ => 0 := funext fun a => by fin_cases a <;> rfl

/-- The float zero the first batch tile stores. -/
abbrev zf : EReal := Ideal.ofBits .f32 0x00000000#32

/-- How many of the 1024 words of slot row `sl` of a block of index words are the code `k`. -/
def hitsRow (x0 : S8x1x1024.Idx → BitVec 32) (sl : Fin 8) (k : Fin 1024) : EReal :=
  ∑ q : Fin 1024, if x0 (ix3 sl (0 : Fin 1) q) = BitVec.ofNat 32 k.val then (1 : EReal) else 0

/-- A slot's row of the block, loaded, has the block's words of that row. -/
theorem hits_ld (x0 : Vec Ideal S8x1x1024 .i32) (n : Nat) (hn : n < 8)
    (inb3 : ∀ a, (![n, 0, 0] : Fin 3 → Nat) a + S1x1x1024.size a ≤ S8x1x1024.size a) (k : Fin 1024) :
    hits (View.ld x0 (Rect.unit ![n, 0, 0] S1x1x1024.size inb3)) k = hitsRow x0 ⟨n, hn⟩ k := by
  unfold hits hitsRow
  refine Finset.sum_congr rfl fun q _ => ?_
  have he : (Rect.unit (s := S8x1x1024) ![n, 0, 0] S1x1x1024.size inb3).emb (ix3 (0 : Fin 1) (0 : Fin 1) q) = ix3 (⟨n, hn⟩ : Fin 8) (0 : Fin 1) q := by
    funext a
    apply Fin.ext
    match a with
    | ⟨0, _⟩ => show n + 1 * 0 = n; omega
    | ⟨1, _⟩ => show 0 + 1 * 0 = 0; omega
    | ⟨2, _⟩ => show 0 + 1 * q.val = q.val; omega
  show (if x0 ((Rect.unit (s := S8x1x1024) ![n, 0, 0] S1x1x1024.size inb3).emb (ix3 (0 : Fin 1) (0 : Fin 1) q)) = _ then (1 : EReal) else 0) = _
  rw [he]

/-- Row `n` of the counts block, entry `k`, as an index of the block. -/
theorem row_emb (n : Nat) (hn : n < 8) (inb2 : ∀ a, (![n, 0] : Fin 2 → Nat) a + S1x1024.size a ≤ S8x1024.size a) (u : Fin 1) (k : Fin 1024) :
    (Rect.unit (s := S8x1024) ![n, 0] S1x1024.size inb2).emb (ix2 u k) = ix2 (⟨n, hn⟩ : Fin 8) k := by
  funext a
  apply Fin.ext
  have hu : u.val = 0 := by omega
  match a with
  | ⟨0, _⟩ => show n + 1 * u.val = n; omega
  | ⟨1, _⟩ => show 0 + 1 * k.val = k.val; omega

/-- A later batch tile (case B): every entry of the carried block gains its slot's hit count. -/
def GB (x0 : S8x1x1024.Idx → BitVec 32) (xo : S8x1024.Idx → EReal) : S8x1024.Idx → EReal := fun y =>
  xo y + hitsRow x0 ⟨(y 0).val, (y 0).isLt⟩ ⟨(y 1).val, (y 1).isLt⟩

/-- The first batch tile (case A) after its first `n` row steps: rows below `n` hold zero plus their hit count, the rest
    the zero just stored. -/
def GA (x0 : S8x1x1024.Idx → BitVec 32) (n : Nat) : S8x1024.Idx → EReal := fun y =>
  if (y 0).val < n then zf + hitsRow x0 ⟨(y 0).val, (y 0).isLt⟩ ⟨(y 1).val, (y 1).isLt⟩ else zf

/-- Case B's row store for slot `n`: its payload is the block `GB` on that row. -/
theorem rowPiece_B (x0 : Vec Ideal S8x1x1024 .i32) (xo : Vec Ideal S8x1024 .f32) (n : Nat) (hn : n < 8)
    (inb3 : ∀ a, (![n, 0, 0] : Fin 3 → Nat) a + S1x1x1024.size a ≤ S8x1x1024.size a)
    (inb2 : ∀ a, (![n, 0] : Fin 2 → Nat) a + S1x1024.size a ≤ S8x1024.size a)
    (x : (Rect.unit (s := S8x1024) ![n, 0] S1x1024.size inb2).shape.Idx) :
    rowUpd (F := Ideal) (View.ld x0 (Rect.unit ![n, 0, 0] S1x1x1024.size inb3)) (View.ld xo (Rect.unit ![n, 0] S1x1024.size inb2)) x
      = GB x0 xo ((Rect.unit (s := S8x1024) ![n, 0] S1x1024.size inb2).emb x) := by
  obtain ⟨u, k, rfl⟩ : ∃ (u : Fin 1) (k : Fin 1024), x = ix2 u k := ⟨x 0, x 1, eq_ix2 x⟩
  rw [rowUpd_apply, hits_ld x0 n hn inb3 k]
  show xo ((Rect.unit (s := S8x1024) ![n, 0] S1x1024.size inb2).emb (ix2 (0 : Fin 1) k)) + _ = _
  rw [row_emb n hn inb2 (0 : Fin 1) k, row_emb n hn inb2 u k]
  rfl

/-- Case A's row store for slot `n`, over a buffer whose earlier stores left `GA x0 n`: it leaves `GA x0 (n + 1)`. The
    row read back before the store is still the zero row. -/
theorem canon_step (x0 : Vec Ideal S8x1x1024 .i32) (v : View sig .tc .vmem S8x1024 .f32) (n : Nat) (hn : n < 8)
    (inb3 : ∀ a, (![n, 0, 0] : Fin 3 → Nat) a + S1x1x1024.size a ≤ S8x1x1024.size a)
    (inb2 : ∀ a, (![n, 0] : Fin 2 → Nat) a + S1x1024.size a ≤ S8x1024.size a)
    (L : List (View.Piece (Elt Ideal) S8x1024 .f32)) (hL : View.canon L = GA x0 n)
    (pay : (Rect.unit (s := S8x1024) ![n, 0] S1x1024.size inb2).shape.Idx → Elt Ideal .f32)
    (hpay : pay = rowUpd (F := Ideal) (View.ld x0 (Rect.unit ![n, 0, 0] S1x1x1024.size inb3))
      (v.readCov L (Rect.unit (s := S8x1024) ![n, 0] S1x1024.size inb2).toLoadRect)) :
    View.canon ((⟨Rect.unit ![n, 0] S1x1024.size inb2, pay⟩ : View.Piece (Elt Ideal) S8x1024 .f32) :: L) = GA x0 (n + 1) := by
  funext y
  obtain ⟨r, k, rfl⟩ : ∃ (r : Fin 8) (k : Fin 1024), y = ix2 r k := ⟨y 0, y 1, eq_ix2 y⟩
  by_cases hr : r.val = n
  · subst hr
    have he := row_emb r.val r.isLt inb2 (0 : Fin 1) k
    have hrk : (ix2 (⟨r.val, r.isLt⟩ : Fin 8) k : S8x1024.Idx) = ix2 r k := rfl
    rw [hrk] at he
    rw [← he, View.canon_cons_emb, hpay, rowUpd_apply, View.readCov_eq_canon', hL, hits_ld x0 r.val r.isLt inb3 k]
    show GA x0 r.val ((Rect.unit (s := S8x1024) ![r.val, 0] S1x1024.size inb2).emb (ix2 (0 : Fin 1) k)) + _ = _
    rw [he]
    unfold GA
    rw [if_neg (by show ¬ r.val < r.val; omega), if_pos (by show r.val < r.val + 1; omega)]
  · have hnm : (ix2 r k : S8x1024.Idx) ∉ (Rect.unit (s := S8x1024) ![n, 0] S1x1024.size inb2).set := by
      rw [Rect.mem_set_unit]
      intro h
      have h0 : n ≤ r.val ∧ r.val < n + 1 := h 0
      omega
    rw [View.canon_cons_of_not_mem (Val := Elt Ideal) (⟨Rect.unit ![n, 0] S1x1024.size inb2, pay⟩ : View.Piece (Elt Ideal) S8x1024 .f32) L
      (y := ix2 r k) hnm, hL]
    unfold GA
    by_cases h2 : r.val < n
    · rw [if_pos (by show r.val < n; exact h2), if_pos (by show r.val < n + 1; omega)]
    · rw [if_neg (by show ¬ r.val < n; exact h2), if_neg (by show ¬ r.val < n + 1; omega)]

section Cases

variable (c : Dev nD) (i : grid0.Coords)
  (a2 : Memref sig .tc .vmem S8x1x1024 .i32) (h2 : a2.IsWhole) (a3 : Memref sig .tc .vmem S8x1024x128 .f32) (h3 : a3.IsWhole)
  (a4 : Memref sig .tc .vmem S1024x1024 .f32) (h4 : a4.IsWhole) (a5 : Memref sig .tc .vmem S8x1024 .f32) (h5 : a5.IsWhole)
  (x0 : Vec Ideal S8x1x1024 .i32) (x1 : Vec Ideal S8x1024x128 .f32)

/-- CASE B (a later batch tile): over the carried block `xo` the body's eight row stores leave `GB x0 xo`; each row's
    load reads the carried block, the rows being disjoint. -/
theorem out_B (hc : ¬cond0_0 i) (xo : Vec Ideal S8x1024 .f32) :
    out0_B_3 (F := Ideal) c i a2 h2 a3 h3 a4 h4 a5 h5 hc x0 x1 xo = GB x0 xo := by
  unfold out0_B_3
  rw [View.read_writes_eq_canon _ _ _ (cover0_B_3 c i a2 h2 a3 h3 a4 h4 a5 h5 hc x0 x1 xo)]
  funext y
  refine View.canon_apply_of_pieces (GB x0 xo) _ ?_ y (cover0_B_3 c i a2 h2 a3 h3 a4 h4 a5 h5 hc x0 x1 xo y)
  unfold kernelRun0_B
  dsimp only
  sl_unfold_words
  simp only [View.readAt_eq_ld, h2.read_unread, h5.read_unread, pay8_eq, pay12_eq, pay15_eq, pay18_eq, pay21_eq, pay26_eq,
    pay1_eq, pay4_eq]
  intro p hp
  simp only [List.mem_cons, List.not_mem_nil, or_false] at hp
  rcases hp with rfl | rfl | rfl | rfl | rfl | rfl | rfl | rfl
  · intro x; exact rowPiece_B x0 xo 7 (by decide) _ _ x
  · intro x; exact rowPiece_B x0 xo 6 (by decide) _ _ x
  · intro x; exact rowPiece_B x0 xo 5 (by decide) _ _ x
  · intro x; exact rowPiece_B x0 xo 4 (by decide) _ _ x
  · intro x; exact rowPiece_B x0 xo 3 (by decide) _ _ x
  · intro x; exact rowPiece_B x0 xo 2 (by decide) _ _ x
  · intro x; exact rowPiece_B x0 xo 1 (by decide) _ _ x
  · intro x; exact rowPiece_B x0 xo 0 (by decide) _ _ x

/-- CASE A (the first batch tile), store by store: the zero block, -/
theorem HA_1 : View.canon (kernelRun0_A.sl.H3_1 (F := Ideal)) = GA x0 0 := by
  unfold kernelRun0_A.sl.H3_1
  rw [View.canon_unit_zero hz2]
  funext y
  unfold GA
  rw [if_neg (Nat.not_lt_zero _)]
  rfl

/-- then slot 0's row, -/
theorem HA_2 : View.canon (kernelRun0_A.sl.H3_2 (F := Ideal) c a2 h2 a5 x0) = GA x0 1 := by
  unfold kernelRun0_A.sl.H3_2 kernelRun0_A.sl.v24
  simp only [View.readAt_eq_ld, h2.read_unread, pay8_eq]
  exact canon_step x0 a5.view 0 (by decide) _ _ _ (HA_1 x0) _ rfl

/-- slot 1's, -/
theorem HA_3 : View.canon (kernelRun0_A.sl.H3_3 (F := Ideal) c a2 h2 a5 x0) = GA x0 2 := by
  unfold kernelRun0_A.sl.H3_3 kernelRun0_A.sl.v50 kernelRun0_A.sl.r
  simp only [View.readAt_eq_ld, h2.read_unread, pay12_eq]
  exact canon_step x0 a5.view 1 (by decide) _ _ _ (HA_2 c a2 h2 a5 x0) _ rfl

/-- slot 2's, -/
theorem HA_4 : View.canon (kernelRun0_A.sl.H3_4 (F := Ideal) c a2 h2 a5 x0) = GA x0 3 := by
  unfold kernelRun0_A.sl.H3_4 kernelRun0_A.sl.v76 kernelRun0_A.sl.r_1 kernelRun0_A.sl.v3
  simp only [View.readAt_eq_ld, h2.read_unread, pay15_eq]
  exact canon_step x0 a5.view 2 (by decide) _ _ _ (HA_3 c a2 h2 a5 x0) _ rfl

/-- slot 3's, -/
theorem HA_5 : View.canon (kernelRun0_A.sl.H3_5 (F := Ideal) c a2 h2 a5 x0) = GA x0 4 := by
  unfold kernelRun0_A.sl.H3_5 kernelRun0_A.sl.r_3 kernelRun0_A.sl.v102 kernelRun0_A.sl.v3
  simp only [View.readAt_eq_ld, h2.read_unread, pay18_eq]
  exact canon_step x0 a5.view 3 (by decide) _ _ _ (HA_4 c a2 h2 a5 x0) _ rfl

/-- slot 4's, -/
theorem HA_6 : View.canon (kernelRun0_A.sl.H3_6 (F := Ideal) c a2 h2 a5 x0) = GA x0 5 := by
  unfold kernelRun0_A.sl.H3_6 kernelRun0_A.sl.v128 kernelRun0_A.sl.v3
  simp only [View.readAt_eq_ld, h2.read_unread, pay21_eq]
  exact canon_step x0 a5.view 4 (by decide) _ _ _ (HA_5 c a2 h2 a5 x0) _ rfl

/-- slot 5's, -/
theorem HA_7 : View.canon (kernelRun0_A.sl.H3_7 (F := Ideal) c a2 h2 a5 x0) = GA x0 6 := by
  unfold kernelRun0_A.sl.H3_7 kernelRun0_A.sl.v154 kernelRun0_A.sl.r_4 kernelRun0_A.sl.v3
  simp only [View.readAt_eq_ld, h2.read_unread, pay26_eq]
  exact canon_step x0 a5.view 5 (by decide) _ _ _ (HA_6 c a2 h2 a5 x0) _ rfl

/-- slot 6's, -/
theorem HA_8 : View.canon (kernelRun0_A.sl.H3_8 (F := Ideal) c a2 h2 a5 x0) = GA x0 7 := by
  unfold kernelRun0_A.sl.H3_8 kernelRun0_A.sl.v180 kernelRun0_A.sl.r_7 kernelRun0_A.sl.v3
  simp only [View.readAt_eq_ld, h2.read_unread, pay1_eq]
  exact canon_step x0 a5.view 6 (by decide) _ _ _ (HA_7 c a2 h2 a5 x0) _ rfl

/-- and slot 7's: every row holds zero plus its hit count. -/
theorem out_A (hc : cond0_0 i) :
    out0_A_3 (F := Ideal) c i a2 h2 a3 h3 a4 h4 a5 h5 hc x0 x1 = GA x0 8 := by
  unfold out0_A_3
  rw [View.read_writes_eq_canon _ _ _ (cover0_A_3 c i a2 h2 a3 h3 a4 h4 a5 h5 hc x0 x1)]
  unfold kernelRun0_A
  dsimp only
  unfold kernelRun0_A.sl.v206 kernelRun0_A.sl.v3
  simp only [View.readAt_eq_ld, h2.read_unread, pay4_eq]
  exact canon_step x0 a5.view 7 (by decide) _ _ _ (HA_8 c a2 h2 a5 x0) _ rfl

end Cases

/-! ## From blocks to the array -/

/-- The printed index maps over the grid: point `t` is slot tile `t / 4`, batch tile `t % 4`; the index words' block moves
    with both, the counts block with the slot tile only. -/
theorem idx_facts : ∀ t : Fin cfg0.N,
    win0_0.index t (0 : Fin 3) = t.val / 4 ∧ win0_0.index t (1 : Fin 3) = 0 ∧ win0_0.index t (2 : Fin 3) = t.val % 4
    ∧ win0_3.index t (0 : Fin 2) = t.val / 4 ∧ win0_3.index t (1 : Fin 2) = 0 :=
  (by decide +kernel : ∀ t : Fin grid0.N, _)

/-- The index words' block and the embedding rows' block at a point, at their literal types. -/
abbrev xblk (c : Dev nD) (t : Fin cfg0.N) : Vec Ideal S8x1x1024 .i32 := iblk0 V c 0 t
abbrev wblk (c : Dev nD) (t : Fin cfg0.N) : Vec Ideal S8x1024x128 .f32 := iblk0 V c 1 t

/-- How many of the 1024 batch rows of batch tile `j` have the code `k` in slot row `s` (the two positions taken modulo
    the array's extents, so that the count is defined for all naturals). -/
def tileCnt (ixT : Spec.SIdxT.Idx → BitVec 32) (s j : Nat) (k : Fin 1024) : EReal :=
  ∑ q : Fin 1024, if ixT (ix3 (⟨s % 32, Nat.mod_lt _ (by decide)⟩ : Fin 32) (0 : Fin 1)
      (⟨(1024 * j + q.val) % 4096, Nat.mod_lt _ (by decide)⟩ : Fin 4096)) = BitVec.ofNat 32 k.val then (1 : EReal) else 0

/-- The block of index words at point `t`: slot rows `8 (t / 4) …`, batch rows `1024 (t % 4) …` of the array. -/
theorem xblk_apply (c : Dev nD) (t : Fin cfg0.N) (sl : Fin 8) (q : Fin 1024) :
    xblk V c t (ix3 sl (0 : Fin 1) q)
      = (V c main_v2 : Spec.SIdxT.Idx → BitVec 32) (ix3 (⟨(8 * (t.val / 4) + sl.val) % 32, Nat.mod_lt _ (by decide)⟩ : Fin 32) (0 : Fin 1)
          (⟨(1024 * (t.val % 4) + q.val) % 4096, Nat.mod_lt _ (by decide)⟩ : Fin 4096)) := by
  have hN : t.val < 16 := lt_of_lt_of_eq t.isLt (show cfg0.N = 16 from N_0)
  obtain ⟨e0, e1, e2, -, -⟩ := idx_facts t
  show V c main_v2 (((cfg0.win 0).blk t).view.emb (ix3 sl (0 : Fin 1) q)) = _
  refine congrArg (V c main_v2) (funext fun a => Fin.ext ?_)
  match a with
  | ⟨0, _⟩ => show win0_0.index t (0 : Fin 3) * 8 + 1 * sl.val = (8 * (t.val / 4) + sl.val) % 32; rw [e0]; omega
  | ⟨1, _⟩ => show win0_0.index t (1 : Fin 3) * 1 + 1 * 0 = 0; rw [e1]
  | ⟨2, _⟩ => show win0_0.index t (2 : Fin 3) * 1024 + 1 * q.val = (1024 * (t.val % 4) + q.val) % 4096; rw [e2]; omega

/-- So a slot row's hit count in that block is the tile's count in the array. -/
theorem hitsRow_blk (c : Dev nD) (t : Fin cfg0.N) (sl : Fin 8) (k : Fin 1024) :
    hitsRow (xblk V c t) sl k = tileCnt (V c main_v2) (8 * (t.val / 4) + sl.val) (t.val % 4) k := by
  unfold hitsRow tileCnt
  refine Finset.sum_congr rfl fun q _ => ?_
  rw [xblk_apply V c t sl q]

/-- The counts block after a first batch tile: zero plus the tile's count. -/
theorem outs_A (c : Dev nD) (t : Fin cfg0.N) (h0 : t.val % 4 = 0) (r : Fin 8) (k : Fin 1024) :
    (outsAt0 V c t.val t.isLt).2 (ix2 r k) = zf + tileCnt (V c main_v2) (8 * (t.val / 4) + r.val) 0 k := by
  rw [outsAt0_A V c t h0]
  dsimp only
  refine (congrFun (out_A c (grid0.coords t) (ms0_0 t) (hs0_0 t) (ms0_1 t) (hs0_1 t) (ms0_2 t) (hs0_2 t) (ms0_3 t) (hs0_3 t)
    (xblk V c t) (wblk V c t) ((hcond0_0 t).mpr h0)) (ix2 r k)).trans ?_
  unfold GA
  rw [if_pos (show r.val < 8 from r.isLt)]
  refine congrArg (zf + ·) ?_
  refine (hitsRow_blk V c t r k).trans ?_
  rw [h0]

/-- The counts block after a later batch tile: what the tile before left, plus this tile's count. -/
theorem outs_B (c : Dev nD) (t : Fin cfg0.N) (h0 : ¬t.val % 4 = 0) (r : Fin 8) (k : Fin 1024) :
    (outsAt0 V c t.val t.isLt).2 (ix2 r k)
      = (outsAt0 V c (t.val - 1) (Nat.lt_of_le_of_lt (Nat.sub_le _ _) t.isLt)).2 (ix2 r k)
        + tileCnt (V c main_v2) (8 * (t.val / 4) + r.val) (t.val % 4) k := by
  rw [outsAt0_B V c t h0]
  dsimp only
  refine (congrFun (out_B c (grid0.coords t) (ms0_0 t) (hs0_0 t) (ms0_1 t) (hs0_1 t) (ms0_2 t) (hs0_2 t) (ms0_3 t) (hs0_3 t)
    (xblk V c t) (wblk V c t) (fun h => h0 ((hcond0_0 t).mp h))
    (outsAt0 V c (t.val - 1) (Nat.lt_of_le_of_lt (Nat.sub_le _ _) t.isLt)).2) (ix2 r k)).trans ?_
  unfold GB
  exact congrArg (_ + ·) (hitsRow_blk V c t r k)

/-- THE INVARIANT, by induction on the point: after point `n` (slot tile `n / 4`, batch tile `n % 4`) the carried block's
    entry (r, k) is zero plus the counts of the batch tiles `0 … n % 4` for slot row `8 (n / 4) + r`. -/
theorem outs_eq (c : Dev nD) : ∀ (n : Nat) (h : n < cfg0.N) (r : Fin 8) (k : Fin 1024),
    (outsAt0 V c n h).2 (ix2 r k)
      = zf + ∑ j ∈ Finset.range (n % 4 + 1), tileCnt (V c main_v2) (8 * (n / 4) + r.val) j k
  | 0, h, r, k => by
    refine (outs_A V c ⟨0, h⟩ rfl r k).trans ?_
    show zf + tileCnt (V c main_v2) (8 * (0 / 4) + r.val) 0 k = zf + ∑ j ∈ Finset.range 1, tileCnt (V c main_v2) (8 * (0 / 4) + r.val) j k
    rw [Finset.sum_range_one]
  | n + 1, h, r, k => by
    by_cases h0 : (n + 1) % 4 = 0
    · refine (outs_A V c ⟨n + 1, h⟩ h0 r k).trans ?_
      show zf + tileCnt (V c main_v2) (8 * ((n + 1) / 4) + r.val) 0 k = _
      rw [h0, Finset.sum_range_one]
    · refine (outs_B V c ⟨n + 1, h⟩ h0 r k).trans ?_
      show (outsAt0 V c n (Nat.lt_of_succ_lt h)).2 (ix2 r k) + tileCnt (V c main_v2) (8 * ((n + 1) / 4) + r.val) ((n + 1) % 4) k = _
      rw [outs_eq c n (Nat.lt_of_succ_lt h) r k]
      have e1 : (n + 1) / 4 = n / 4 := by omega
      have e2 : (n + 1) % 4 = n % 4 + 1 := by omega
      rw [e1, e2, Finset.sum_range_succ _ (n % 4 + 1), add_assoc]

/-- The four batch tiles' counts are the count over all 4096 batch rows: the rows `1024 j + q`, `j < 4`, `q < 1024`, are
    all of them, once each. -/
theorem cnt_split (ixT : Spec.SIdxT.Idx → BitVec 32) (s : Nat) (k : Fin 1024) :
    zf + ∑ j ∈ Finset.range 4, tileCnt ixT s j k
      = Spec.cntT ixT (ix2 (⟨s % 32, Nat.mod_lt _ (by decide)⟩ : Fin 32) k) := by
  rw [show zf = 0 from Ideal.ofBits_zero_f32, zero_add, Finset.sum_range]
  unfold tileCnt
  show _ = ∑ b : Fin 4096, if ixT (ix3 (⟨s % 32, Nat.mod_lt _ (by decide)⟩ : Fin 32) (0 : Fin 1) b) = BitVec.ofNat 32 k.val then (1 : EReal) else 0
  refine Eq.trans ?_ (Equiv.sum_comp (finProdFinEquiv (m := 4) (n := 1024))
    (fun b : Fin 4096 => if ixT (ix3 (⟨s % 32, Nat.mod_lt _ (by decide)⟩ : Fin 32) (0 : Fin 1) b) = BitVec.ofNat 32 k.val then (1 : EReal) else 0))
  rw [Fintype.sum_prod_type]
  refine Finset.sum_congr rfl fun j _ => Finset.sum_congr rfl fun q _ => ?_
  have e : (⟨(1024 * j.val + q.val) % 4096, Nat.mod_lt _ (by decide)⟩ : Fin 4096) = finProdFinEquiv (j, q) :=
    Fin.ext (by show (1024 * j.val + q.val) % 4096 = q.val + 1024 * j.val; omega)
  rw [e]

/-- WHAT A POINT WRITES BACK (the last batch tile of a slot tile) is its block of the counts over the whole batch. -/
theorem flushed_eq (c : Dev nD) (t : Fin cfg0.N) (hf : (cfg0.win 3).flush t = true) :
    (dat0 (F := Ideal) V c).flushed 3 t = ((cfg0.win 3).blk t).view.read (Elt Ideal) (Spec.cntT (V c main_v2)) := by
  have hN : t.val < 16 := lt_of_lt_of_eq t.isLt (show cfg0.N = 16 from N_0)
  have h3 : t.val % 4 = 3 := (flush0_3 t).mp hf
  obtain ⟨-, -, -, e3, e4⟩ := idx_facts t
  show (cfg0.win 3).cut (grid0.coords t) ((dat0 (F := Ideal) V c).after 3 t) = _
  rw [after0_3]
  have key : (outsAt0 V c t.val t.isLt).2 = fun y : S8x1024.Idx =>
      Spec.cntT (V c main_v2) (ix2 (⟨(8 * (t.val / 4) + (y 0).val) % 32, Nat.mod_lt _ (by decide)⟩ : Fin 32) (⟨(y 1).val, (y 1).isLt⟩ : Fin 1024)) := by
    funext y
    obtain ⟨r, k, rfl⟩ : ∃ (r : Fin 8) (k : Fin 1024), y = ix2 r k := ⟨y 0, y 1, eq_ix2 y⟩
    rw [outs_eq V c t.val t.isLt r k, h3]
    exact cnt_split (V c main_v2) (8 * (t.val / 4) + r.val) k
  rw [key]
  funext j
  show Spec.cntT (V c main_v2) (ix2 (⟨(8 * (t.val / 4) + (j 0).val) % 32, Nat.mod_lt _ (by decide)⟩ : Fin 32) (⟨(j 1).val, (j 1).isLt⟩ : Fin 1024))
    = Spec.cntT (V c main_v2) (((cfg0.win 3).blk t).view.emb j)
  refine congrArg (Spec.cntT (V c main_v2)) (funext fun a => Fin.ext ?_)
  have hj0 : (j 0).val < 8 := (j 0).isLt
  match a with
  | ⟨0, _⟩ => show (8 * (t.val / 4) + (j 0).val) % 32 = win0_3.index t (0 : Fin 2) * 8 + 1 * (j 0).val; rw [e3]; omega
  | ⟨1, _⟩ => show (j 1).val = win0_3.index t (1 : Fin 2) * 1024 + 1 * (j 1).val; rw [e4]; omega

/-- An index of the counts array is in point `t`'s block iff each coordinate is in the block's range on its axis. -/
theorem mem_blk (t : Fin cfg0.N) (i : S32x1024.Idx) :
    i ∈ ((cfg0.win 3).blk t).view.set
      ↔ ∀ a : Fin 2, win0_3.index t a * S8x1024.size a ≤ (i a).val ∧ (i a).val < win0_3.index t a * S8x1024.size a + S8x1024.size a := by
  show i ∈ ((View.whole main_v3_1).slice (win0_3.rect t)).set ↔ _
  rw [View.set_slice_whole, Rect.mem_set_unit]
  exact Iff.rfl

/-- The counts array after the first kernel: entry (s, k) is the number of batch rows b with ixT[s, 0, b] = k. -/
theorem arr0_3 (c : Dev nD) :
    (dat0 (F := Ideal) V c).arrAt 3 cfg0.N = Spec.cntT (V c main_v2) := by
  -- row `s` lies in the block of slot tile `s / 8`, which is written back at that tile's last batch tile
  refine (dat0 (F := Ideal) V c).arrAt_eq_of_cover 3 (Spec.cntT (V c main_v2)) (fun t hf => flushed_eq V c t hf) fun i => ?_
  have hi0 : (i 0).val < 32 := (i 0).isLt
  have hi1 : (i 1).val < 1024 := (i 1).isLt
  have hN : cfg0.N = 16 := N_0
  have ht : 4 * ((i 0).val / 8) + 3 < cfg0.N := by rw [hN]; omega
  obtain ⟨-, -, -, e3, e4⟩ := idx_facts ⟨4 * ((i 0).val / 8) + 3, ht⟩
  refine ⟨⟨4 * ((i 0).val / 8) + 3, ht⟩, (flush0_3 _).mpr (by show (4 * ((i 0).val / 8) + 3) % 4 = 3; omega), ?_⟩
  rw [mem_blk]
  intro a
  match a with
  | ⟨0, _⟩ =>
    show win0_3.index ⟨4 * ((i 0).val / 8) + 3, ht⟩ (0 : Fin 2) * 8 ≤ (i 0).val
      ∧ (i 0).val < win0_3.index ⟨4 * ((i 0).val / 8) + 3, ht⟩ (0 : Fin 2) * 8 + 8
    rw [e3]
    show (4 * ((i 0).val / 8) + 3) / 4 * 8 ≤ (i 0).val ∧ (i 0).val < (4 * ((i 0).val / 8) + 3) / 4 * 8 + 8
    omega
  | ⟨1, _⟩ =>
    show win0_3.index ⟨4 * ((i 0).val / 8) + 3, ht⟩ (1 : Fin 2) * 1024 ≤ (i 1).val
      ∧ (i 1).val < win0_3.index ⟨4 * ((i 0).val / 8) + 3, ht⟩ (1 : Fin 2) * 1024 + 1024
    rw [e4]
    omega

end Cert.KernelIdeal.Reg0C

end
-- ==== Proof.Reg1.lean ====
/-
  The second kernel (one grid point over whole [32, 1024] arrays): new_ecs = 0.99 · ecs + 0.01 · counts, and the smoothed
  cluster size (new_ecs + ε) / (n + 1024 ε) · n with n the row sum of new_ecs.
-/
import proofs.«402485_j27315992003198_3_alg».proof.Proof.Gen.KernelIdeal.Frame
import proofs.«402485_j27315992003198_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

section Layout
variable {α : Type}

/-- An `[a]` array cast to a column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- A row's sum: the lane reduction of a `[32, 1024]` array over its second axis, read at row `p`. -/
private theorem laneSum_apply (x : FVec Ideal S32x1024 .f32) (h : S32x1024.Reduces [1] S32) (hφ : FKind.Formats .f32)
    (hacc : (0x00000000#32 : BitVec 32) = 0x00000000#32) (p : Fin 32) :
    multiReduction .add [1] S32 x 0x00000000#32 h hφ hacc (ix1 p) = ∑ k : Fin 1024, x (ix2 p k) := by
  refine (Ideal.multiReduction_add_single x 0x00000000#32 h hφ hacc (ix1 p)).trans ?_
  show ∑ k : Fin 1024, x (h.lift (ix1 p) k) = _
  refine Finset.sum_congr rfl fun k _ => congrArg x ?_
  funext ax; apply Fin.ext
  match ax with
  | ⟨0, _⟩ => rfl
  | ⟨1, _⟩ => rfl

/-- The first stored value at an index: 0.99 · ecs + 0.01 · counts. -/
private theorem pay1_apply (ecs cn : Vec Ideal S32x1024 .f32) (j : S32x1024.Idx) :
    k1_pay1 (F := Ideal) ecs cn j = Spec.c99 * ecs j + Spec.c01 * cn j := by
  unfold k1_pay1
  rw [shapeCast_self]
  rfl

/-- The second stored value at an index `(p, q)`, over the first one's row sum. -/
private theorem pay2_apply (ecs cn : Vec Ideal S32x1024 .f32) (p : Fin 32) (q : Fin 1024) :
    k1_pay2 (F := Ideal) ecs cn (ix2 p q)
      = Ideal.div (k1_pay1 (F := Ideal) ecs cn (ix2 p q) + Spec.eps) ((∑ k : Fin 1024, k1_pay1 (F := Ideal) ecs cn (ix2 p k)) + Spec.keps)
        * ∑ k : Fin 1024, k1_pay1 (F := Ideal) ecs cn (ix2 p k) := by
  unfold k1_pay2
  simp only [mulf_apply, divf_apply, addf_apply, broadcast_apply, broadcastTo_a1_ab_apply, shapeCast_a_a1_apply]
  have hs := laneSum_apply (k1_pay1 (F := Ideal) ecs cn) reduces_S32x1024_S32 (.inl rfl) rfl p
  exact congrArg (fun z => Ideal.div (k1_pay1 (F := Ideal) ecs cn (ix2 p q) + Spec.eps) (z + Spec.keps) * z) hs

/-- The second stored value is the smoothed cluster size of the two arrays. -/
private theorem pay2_spec (ecs cn : Vec Ideal S32x1024 .f32) (j : S32x1024.Idx) :
    k1_pay2 (F := Ideal) ecs cn j = Spec.clus cn ecs j := by
  obtain ⟨p, q, rfl⟩ : ∃ (p : Fin 32) (q : Fin 1024), j = ix2 p q := ⟨j 0, j 1, eq_ix2 j⟩
  rw [pay2_apply]
  simp only [pay1_apply]
  rfl

/-! ## The one grid point: every window's block is its whole array -/

private theorem hz : (![0, 0] : Fin 2 → Nat) = fun _ => 0 := funext fun a => by fin_cases a <;> rfl

/-- Every window's block index is (0, 0) at every point of the one-point grid. -/
private theorem idx_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- So a block's index `y` is the array's index `y`: block index × extent + the coordinate inside the block. -/
private theorem emb0 (t : Fin cfg1.N) (y : S32x1024.Idx) : ((cfg1.win 0).blk t).view.emb y = y := by
  obtain ⟨e0, e1, -⟩ := idx_zero t
  funext a; apply Fin.ext
  match a with
  | ⟨0, _⟩ => show win1_0.index t (0 : Fin 2) * 32 + 1 * (y 0).val = (y 0).val; omega
  | ⟨1, _⟩ => show win1_0.index t (1 : Fin 2) * 1024 + 1 * (y 1).val = (y 1).val; omega

private theorem emb1 (t : Fin cfg1.N) (y : S32x1024.Idx) : ((cfg1.win 1).blk t).view.emb y = y := by
  obtain ⟨-, -, e0, e1, -⟩ := idx_zero t
  funext a; apply Fin.ext
  match a with
  | ⟨0, _⟩ => show win1_1.index t (0 : Fin 2) * 32 + 1 * (y 0).val = (y 0).val; omega
  | ⟨1, _⟩ => show win1_1.index t (1 : Fin 2) * 1024 + 1 * (y 1).val = (y 1).val; omega

private theorem emb2 (t : Fin cfg1.N) (y : S32x1024.Idx) : ((cfg1.win 2).blk t).view.emb y = y := by
  obtain ⟨-, -, -, -, e0, e1, -⟩ := idx_zero t
  funext a; apply Fin.ext
  match a with
  | ⟨0, _⟩ => show win1_2.index t (0 : Fin 2) * 32 + 1 * (y 0).val = (y 0).val; omega
  | ⟨1, _⟩ => show win1_2.index t (1 : Fin 2) * 1024 + 1 * (y 1).val = (y 1).val; omega

private theorem emb3 (t : Fin cfg1.N) (y : S32x1024.Idx) : ((cfg1.win 3).blk t).view.emb y = y := by
  obtain ⟨-, -, -, -, -, -, e0, e1⟩ := idx_zero t
  funext a; apply Fin.ext
  match a with
  | ⟨0, _⟩ => show win1_3.index t (0 : Fin 2) * 32 + 1 * (y 0).val = (y 0).val; omega
  | ⟨1, _⟩ => show win1_3.index t (1 : Fin 2) * 1024 + 1 * (y 1).val = (y 1).val; omega

variable (V : (c : Dev nD) → (b : Ref sig .tc) → Buf (Elt Ideal) ((c : Thread nD τ).loc b))

/-- The counts window's block is the counts array. -/
private theorem blk_cn (c : Dev nD) (t : Fin cfg1.N) :
    (iblk1 (F := Ideal) V c 0 t : S32x1024.Idx → EReal) = V c main_v3_1 := by
  funext y
  show V c main_v3_1 (((cfg1.win 0).blk t).view.emb y) = V c main_v3_1 y
  exact congrArg (V c main_v3_1) (emb0 t y)

/-- The ecs window's block is the ecs array. -/
private theorem blk_ecs (c : Dev nD) (t : Fin cfg1.N) :
    (iblk1 (F := Ideal) V c 1 t : S32x1024.Idx → EReal) = V c main_arg2 := by
  funext y
  show V c main_arg2 (((cfg1.win 1).blk t).view.emb y) = V c main_arg2 y
  exact congrArg (V c main_arg2) (emb1 t y)

/-! ## What the one point writes back, and the arrays after the region -/

/-- The point writes back, through window 2, new_ecs of the two arrays. -/
private theorem flushed_necs (c : Dev nD) (t : Fin cfg1.N) :
    (dat1 (F := Ideal) V c).flushed 2 t
      = ((cfg1.win 2).blk t).view.read (Elt Ideal) (Spec.necs (V c main_v3_1) (V c main_arg2)) := by
  show (cfg1.win 2).cut (grid1.coords t) ((dat1 (F := Ideal) V c).after 2 t) = _
  rw [after1_2]
  unfold out1_2
  rw [View.canon_unit_zero hz]
  simp only [View.ld_unit_zero (S := S32x1024) hz]
  funext j
  show k1_pay1 (F := Ideal) (iblk1 (F := Ideal) V c 1 t) (iblk1 (F := Ideal) V c 0 t) j
    = Spec.necs (V c main_v3_1) (V c main_arg2) (((cfg1.win 2).blk t).view.emb j)
  rw [emb2 t j, blk_cn V c t, blk_ecs V c t]
  exact pay1_apply (V c main_arg2) (V c main_v3_1) j

/-- An index of the array is in the point's block iff each coordinate is in the block's range. -/
private theorem mem_blk2 (t : Fin cfg1.N) (i : S32x1024.Idx) :
    i ∈ ((cfg1.win 2).blk t).view.set ↔ ∀ a : Fin 2, win1_2.index t a * S32x1024.size a ≤ (i a).val ∧ (i a).val < win1_2.index t a * S32x1024.size a + S32x1024.size a := by
  show i ∈ ((View.whole main_v5_0).slice (win1_2.rect t)).set ↔ _
  rw [View.set_slice_whole, Rect.mem_set_unit]
  exact Iff.rfl

/-- new_ecs, of the counts array and the ecs array as the kernel finds them. -/
theorem arr1_2 (c : Dev nD) :
    (dat1 (F := Ideal) V c).arrAt 2 cfg1.N = Spec.necs (V c main_v3_1) (V c main_arg2) :=
  (dat1 (F := Ideal) V c).arrAt_eq_of_cover 2 _ (fun t _ => flushed_necs V c t) (fun i => by
    refine ⟨t1_0, flush1_2 t1_0, ?_⟩
    rw [mem_blk2]
    obtain ⟨-, -, -, -, e0, e1, -⟩ := idx_zero t1_0
    have h0 : (i 0).val < 32 := (i 0).isLt
    have h1 : (i 1).val < 1024 := (i 1).isLt
    intro a
    match a with
    | ⟨0, _⟩ => show win1_2.index t1_0 (0 : Fin 2) * 32 ≤ (i 0).val ∧ (i 0).val < win1_2.index t1_0 (0 : Fin 2) * 32 + 32; omega
    | ⟨1, _⟩ => show win1_2.index t1_0 (1 : Fin 2) * 1024 ≤ (i 1).val ∧ (i 1).val < win1_2.index t1_0 (1 : Fin 2) * 1024 + 1024; omega)

/-- The point writes back, through window 3, the cluster size of the two arrays. -/
private theorem flushed_clus (c : Dev nD) (t : Fin cfg1.N) :
    (dat1 (F := Ideal) V c).flushed 3 t
      = ((cfg1.win 3).blk t).view.read (Elt Ideal) (Spec.clus (V c main_v3_1) (V c main_arg2)) := by
  show (cfg1.win 3).cut (grid1.coords t) ((dat1 (F := Ideal) V c).after 3 t) = _
  rw [after1_3]
  unfold out1_3
  rw [View.canon_unit_zero hz]
  simp only [View.ld_unit_zero (S := S32x1024) hz]
  funext j
  show k1_pay2 (F := Ideal) (iblk1 (F := Ideal) V c 1 t) (iblk1 (F := Ideal) V c 0 t) j
    = Spec.clus (V c main_v3_1) (V c main_arg2) (((cfg1.win 3).blk t).view.emb j)
  rw [emb3 t j, blk_cn V c t, blk_ecs V c t]
  exact pay2_spec (V c main_arg2) (V c main_v3_1) j

private theorem mem_blk3 (t : Fin cfg1.N) (i : S32x1024.Idx) :
    i ∈ ((cfg1.win 3).blk t).view.set ↔ ∀ a : Fin 2, win1_3.index t a * S32x1024.size a ≤ (i a).val ∧ (i a).val < win1_3.index t a * S32x1024.size a + S32x1024.size a := by
  show i ∈ ((View.whole main_v5_1).slice (win1_3.rect t)).set ↔ _
  rw [View.set_slice_whole, Rect.mem_set_unit]
  exact Iff.rfl

/-- The cluster size, of the same two arrays. -/
theorem arr1_3 (c : Dev nD) :
    (dat1 (F := Ideal) V c).arrAt 3 cfg1.N = Spec.clus (V c main_v3_1) (V c main_arg2) :=
  (dat1 (F := Ideal) V c).arrAt_eq_of_cover 3 _ (fun t _ => flushed_clus V c t) (fun i => by
    refine ⟨t1_0, flush1_3 t1_0, ?_⟩
    rw [mem_blk3]
    obtain ⟨-, -, -, -, -, -, e0, e1⟩ := idx_zero t1_0
    have h0 : (i 0).val < 32 := (i 0).isLt
    have h1 : (i 1).val < 1024 := (i 1).isLt
    intro a
    match a with
    | ⟨0, _⟩ => show win1_3.index t1_0 (0 : Fin 2) * 32 ≤ (i 0).val ∧ (i 0).val < win1_3.index t1_0 (0 : Fin 2) * 32 + 32; omega
    | ⟨1, _⟩ => show win1_3.index t1_0 (1 : Fin 2) * 1024 ≤ (i 1).val ∧ (i 1).val < win1_3.index t1_0 (1 : Fin 2) * 1024 + 1024; omega)

end Cert.KernelIdeal.Reg1

end
-- ==== Proof.Reg2.lean ====
/-
  The third kernel (blocks of 8 slots × 512 codes × 128): new_ema_w = 0.99 · ema_w + 0.01 · (counts · embedding), the count
  broadcast along the row, and new_embedding = new_ema_w / cluster, the cluster size broadcast along the row.
-/
import proofs.«402485_j27315992003198_3_alg».proof.Proof.Gen.KernelIdeal.Frame
import proofs.«402485_j27315992003198_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole rank-3 block, as a constant function. -/
private theorem hz3 : (![0, 0, 0] : Fin 3 → Nat) = fun _ => 0 := funext fun a => by fin_cases a <;> rfl
/-- The zero offsets of a whole rank-2 block, as a constant function. -/
private theorem hz2 : (![0, 0] : Fin 2 → Nat) = fun _ => 0 := funext fun a => by fin_cases a <;> rfl

/-- A per-(slot, code) value, given a trailing unit axis and repeated along the 128 row entries, reads at (p, q, r) the value at (p, q). -/
private theorem keep_row (v : Vec Ideal S8x512 .f32) (p : Fin 8) (q : Fin 512) (r : Fin 128) :
    broadcastTo S8x512x128 (shapeCast S8x512x1 (shapeCast S8x512 v shapeCasts_S8x512_S8x512) shapeCasts_S8x512_S8x512x1) broadcasts_S8x512x1_S8x512x128 (ix3 p q r) = v (ix2 p q) := by
  rw [shapeCast_self]
  refine (broadcastTo_apply _ _ (ix3 p q r) (ix3 p q (0 : Fin 1)) (fun a => ?_)).trans ?_
  · match a with
    | ⟨0, _⟩ => rfl
    | ⟨1, _⟩ => rfl
    | ⟨2, _⟩ => rfl
  · refine shapeCast_apply _ _ (ix3 p q (0 : Fin 1)) (ix2 p q) ?_
    rw [Shape.rowMajor_val_two, Shape.rowMajor_val_three]
    show (p.val * 512 + q.val) = (p.val * 512 + q.val) * 1 + 0
    omega

/-- The new_ema_w payload at (p, q, r): 0.99 · ema_w + 0.01 · (count at (p, q) · embedding). -/
private theorem pay1_at (x2 : Vec Ideal S8x512 .f32) (x0 x1 : Vec Ideal S8x512x128 .f32) (p : Fin 8) (q : Fin 512) (r : Fin 128) :
    k2_pay1 x2 x0 x1 (ix3 p q r) = Spec.c99 * x1 (ix3 p q r) + Spec.c01 * (x2 (ix2 p q) * x0 (ix3 p q r)) := by
  unfold k2_pay1
  simp only [addf_apply, mulf_apply, broadcast_apply]
  rw [keep_row]
  rfl

/-- The new_embedding payload at (p, q, r): the new_ema_w payload there divided by the cluster size at (p, q). -/
private theorem pay2_at (x2 : Vec Ideal S8x512 .f32) (x0 x1 : Vec Ideal S8x512x128 .f32) (x3 : Vec Ideal S8x512 .f32) (p : Fin 8) (q : Fin 512) (r : Fin 128) :
    k2_pay2 x2 x0 x1 x3 (ix3 p q r) = Ideal.div (k2_pay1 x2 x0 x1 (ix3 p q r)) (x3 (ix2 p q)) := by
  unfold k2_pay2
  simp only [divf_apply]
  rw [keep_row]

/-- Where each window's block sits at grid point t: slot tile t / 2, code tile t % 2, the whole row. -/
private theorem idx_all : ∀ t : Fin cfg2.N,
    (win2_0.index t (0 : Fin 3) = t.val / 2 ∧ win2_0.index t (1 : Fin 3) = t.val % 2 ∧ win2_0.index t (2 : Fin 3) = 0)
    ∧ (win2_1.index t (0 : Fin 3) = t.val / 2 ∧ win2_1.index t (1 : Fin 3) = t.val % 2 ∧ win2_1.index t (2 : Fin 3) = 0)
    ∧ (win2_2.index t (0 : Fin 2) = t.val / 2 ∧ win2_2.index t (1 : Fin 2) = t.val % 2)
    ∧ (win2_3.index t (0 : Fin 2) = t.val / 2 ∧ win2_3.index t (1 : Fin 2) = t.val % 2)
    ∧ (win2_4.index t (0 : Fin 3) = t.val / 2 ∧ win2_4.index t (1 : Fin 3) = t.val % 2 ∧ win2_4.index t (2 : Fin 3) = 0)
    ∧ (win2_5.index t (0 : Fin 3) = t.val / 2 ∧ win2_5.index t (1 : Fin 3) = t.val % 2 ∧ win2_5.index t (2 : Fin 3) = 0) :=
  (by decide +kernel : ∀ t : Fin grid2.N, _)

/-- The embedding block at point t, entry y, is the embedding array at (8 (t / 2) + y₀, 512 (t % 2) + y₁, y₂). -/
private theorem read0 (c : Dev nD) (t : Fin cfg2.N) (y : S8x512x128.Idx) (i : S32x1024x128.Idx)
    (h0 : (i 0).val = t.val / 2 * 8 + (y 0).val) (h1 : (i 1).val = t.val % 2 * 512 + (y 1).val) (h2 : (i 2).val = (y 2).val) :
    (iblk2 V c 0 t : Vec Ideal S8x512x128 .f32) y = (V c main_arg1 : S32x1024x128.Idx → EReal) i := by
  obtain ⟨⟨e0, e1, e2⟩, -⟩ := idx_all t
  unfold iblk2
  rw [View.read_apply]
  show V c main_arg1 _ = V c main_arg1 _
  congr 1
  funext a
  apply Fin.ext
  match a with
  | ⟨0, _⟩ => show win2_0.index t (0 : Fin 3) * 8 + 1 * (y 0).val = (i 0).val; rw [e0, h0]; omega
  | ⟨1, _⟩ => show win2_0.index t (1 : Fin 3) * 512 + 1 * (y 1).val = (i 1).val; rw [e1, h1]; omega
  | ⟨2, _⟩ => show win2_0.index t (2 : Fin 3) * 128 + 1 * (y 2).val = (i 2).val; rw [e2, h2]; omega

/-- The ema_w block at point t, entry y, is the ema_w array at (8 (t / 2) + y₀, 512 (t % 2) + y₁, y₂). -/
private theorem read1 (c : Dev nD) (t : Fin cfg2.N) (y : S8x512x128.Idx) (i : S32x1024x128.Idx)
    (h0 : (i 0).val = t.val / 2 * 8 + (y 0).val) (h1 : (i 1).val = t.val % 2 * 512 + (y 1).val) (h2 : (i 2).val = (y 2).val) :
    (iblk2 V c 1 t : Vec Ideal S8x512x128 .f32) y = (V c main_arg3 : S32x1024x128.Idx → EReal) i := by
  obtain ⟨-, ⟨e0, e1, e2⟩, -⟩ := idx_all t
  unfold iblk2
  rw [View.read_apply]
  show V c main_arg3 _ = V c main_arg3 _
  congr 1
  funext a
  apply Fin.ext
  match a with
  | ⟨0, _⟩ => show win2_1.index t (0 : Fin 3) * 8 + 1 * (y 0).val = (i 0).val; rw [e0, h0]; omega
  | ⟨1, _⟩ => show win2_1.index t (1 : Fin 3) * 512 + 1 * (y 1).val = (i 1).val; rw [e1, h1]; omega
  | ⟨2, _⟩ => show win2_1.index t (2 : Fin 3) * 128 + 1 * (y 2).val = (i 2).val; rw [e2, h2]; omega

/-- The counts block at point t, entry z, is the counts array at (8 (t / 2) + z₀, 512 (t % 2) + z₁). -/
private theorem read2 (c : Dev nD) (t : Fin cfg2.N) (z : S8x512.Idx) (k : S32x1024.Idx)
    (h0 : (k 0).val = t.val / 2 * 8 + (z 0).val) (h1 : (k 1).val = t.val % 2 * 512 + (z 1).val) :
    (iblk2 V c 2 t : Vec Ideal S8x512 .f32) z = (V c main_v3_1 : S32x1024.Idx → EReal) k := by
  obtain ⟨-, -, ⟨e0, e1⟩, -⟩ := idx_all t
  unfold iblk2
  rw [View.read_apply]
  show V c main_v3_1 _ = V c main_v3_1 _
  congr 1
  funext a
  apply Fin.ext
  match a with
  | ⟨0, _⟩ => show win2_2.index t (0 : Fin 2) * 8 + 1 * (z 0).val = (k 0).val; rw [e0, h0]; omega
  | ⟨1, _⟩ => show win2_2.index t (1 : Fin 2) * 512 + 1 * (z 1).val = (k 1).val; rw [e1, h1]; omega

/-- The cluster-size block at point t, entry z, is the cluster-size array at (8 (t / 2) + z₀, 512 (t % 2) + z₁). -/
private theorem read3 (c : Dev nD) (t : Fin cfg2.N) (z : S8x512.Idx) (k : S32x1024.Idx)
    (h0 : (k 0).val = t.val / 2 * 8 + (z 0).val) (h1 : (k 1).val = t.val % 2 * 512 + (z 1).val) :
    (iblk2 V c 3 t : Vec Ideal S8x512 .f32) z = (V c main_v5_1 : S32x1024.Idx → EReal) k := by
  obtain ⟨-, -, -, ⟨e0, e1⟩, -⟩ := idx_all t
  unfold iblk2
  rw [View.read_apply]
  show V c main_v5_1 _ = V c main_v5_1 _
  congr 1
  funext a
  apply Fin.ext
  match a with
  | ⟨0, _⟩ => show win2_3.index t (0 : Fin 2) * 8 + 1 * (z 0).val = (k 0).val; rw [e0, h0]; omega
  | ⟨1, _⟩ => show win2_3.index t (1 : Fin 2) * 512 + 1 * (z 1).val = (k 1).val; rw [e1, h1]; omega

/-- The new_ema_w payload at a block entry y, the count read at y's first two coordinates. -/
private theorem pay1_blk (x2 : Vec Ideal S8x512 .f32) (x0 x1 : Vec Ideal S8x512x128 .f32) (y : S8x512x128.Idx) :
    k2_pay1 x2 x0 x1 y = Spec.c99 * x1 y + Spec.c01 * (x2 (ix2 (⟨(y 0).val, (y 0).isLt⟩ : Fin 8) (⟨(y 1).val, (y 1).isLt⟩ : Fin 512)) * x0 y) := by
  obtain ⟨p, q, r, rfl⟩ : ∃ (p : Fin 8) (q : Fin 512) (r : Fin 128), y = ix3 p q r := ⟨y 0, y 1, y 2, eq_ix3 y⟩
  exact pay1_at x2 x0 x1 p q r

/-- The new_embedding payload at a block entry y, the cluster size read at y's first two coordinates. -/
private theorem pay2_blk (x2 : Vec Ideal S8x512 .f32) (x0 x1 : Vec Ideal S8x512x128 .f32) (x3 : Vec Ideal S8x512 .f32) (y : S8x512x128.Idx) :
    k2_pay2 x2 x0 x1 x3 y = Ideal.div (k2_pay1 x2 x0 x1 y) (x3 (ix2 (⟨(y 0).val, (y 0).isLt⟩ : Fin 8) (⟨(y 1).val, (y 1).isLt⟩ : Fin 512))) := by
  obtain ⟨p, q, r, rfl⟩ : ∃ (p : Fin 8) (q : Fin 512) (r : Fin 128), y = ix3 p q r := ⟨y 0, y 1, y 2, eq_ix3 y⟩
  exact pay2_at x2 x0 x1 x3 p q r

/-- The new_ema_w formula from its three ingredients at one array index. -/
private theorem nemaw_of (A0 A1 : Spec.SEmb.Idx → EReal) (A2 : Spec.SCnt.Idx → EReal) (i : Spec.SEmb.Idx) (a0 a1 a2 : EReal)
    (h0 : a0 = A0 i) (h1 : a1 = A1 i) (h2 : a2 = A2 (ix2 (⟨(i 0).val, (i 0).isLt⟩ : Fin 32) (⟨(i 1).val, (i 1).isLt⟩ : Fin 1024))) :
    Spec.c99 * a1 + Spec.c01 * (a2 * a0) = Spec.nemaw A0 A1 A2 i := by
  subst h0 h1 h2; rfl

/-- What point t writes back to the new_ema_w array: block t of the whole-array function. -/
private theorem flushed5_eq (c : Dev nD) (t : Fin cfg2.N) :
    (dat2 (F := Ideal) V c).flushed 5 t = ((cfg2.win 5).blk t).view.read (Elt Ideal) (Spec.nemaw (V c main_arg1) (V c main_arg3) (V c main_v3_1)) := by
  show (cfg2.win 5).cut (grid2.coords t) ((dat2 (F := Ideal) V c).after 5 t) = _
  rw [after2_5]
  unfold out2_5
  rw [View.canon_unit_zero hz3]
  simp only [View.ld_unit_zero (S := S8x512x128) hz3, View.ld_unit_zero (S := S8x512) hz2]
  obtain ⟨-, -, -, -, -, ⟨e0, e1, e2⟩⟩ := idx_all t
  funext j
  have hj0 : (j 0).val < 8 := (j 0).isLt
  have hj1 : (j 1).val < 512 := (j 1).isLt
  have hj2 : (j 2).val < 128 := (j 2).isLt
  have i0 : ((((cfg2.win 5).blk t).view.emb j) 0).val = t.val / 2 * 8 + (j 0).val := by
    show win2_5.index t (0 : Fin 3) * 8 + 1 * (j 0).val = _; rw [e0]; omega
  have i1 : ((((cfg2.win 5).blk t).view.emb j) 1).val = t.val % 2 * 512 + (j 1).val := by
    show win2_5.index t (1 : Fin 3) * 512 + 1 * (j 1).val = _; rw [e1]; omega
  have i2 : ((((cfg2.win 5).blk t).view.emb j) 2).val = (j 2).val := by
    show win2_5.index t (2 : Fin 3) * 128 + 1 * (j 2).val = _; rw [e2]; omega
  refine (pay1_blk (iblk2 V c 2 t) (iblk2 V c 0 t) (iblk2 V c 1 t) _).trans ?_
  show _ = Spec.nemaw (V c main_arg1) (V c main_arg3) (V c main_v3_1) (((cfg2.win 5).blk t).view.emb j)
  refine nemaw_of _ _ _ _ _ _ _ ?_ ?_ ?_
  · exact read0 V c t _ _ i0 i1 i2
  · exact read1 V c t _ _ i0 i1 i2
  · exact read2 V c t _ _ i0 i1

/-- The new_embedding formula from the new_ema_w entry and the cluster size at one array index. -/
private theorem nemb_of (A0 A1 : Spec.SEmb.Idx → EReal) (A2 A3 : Spec.SCnt.Idx → EReal) (i : Spec.SEmb.Idx) (a b : EReal)
    (h0 : a = Spec.nemaw A0 A1 A2 i) (h1 : b = A3 (ix2 (⟨(i 0).val, (i 0).isLt⟩ : Fin 32) (⟨(i 1).val, (i 1).isLt⟩ : Fin 1024))) :
    Ideal.div a b = Spec.nemb A0 A1 A2 A3 i := by
  subst h0 h1; rfl

/-- What point t writes back to the new_embedding array: block t of the whole-array function. -/
private theorem flushed4_eq (c : Dev nD) (t : Fin cfg2.N) :
    (dat2 (F := Ideal) V c).flushed 4 t = ((cfg2.win 4).blk t).view.read (Elt Ideal) (Spec.nemb (V c main_arg1) (V c main_arg3) (V c main_v3_1) (V c main_v5_1)) := by
  show (cfg2.win 4).cut (grid2.coords t) ((dat2 (F := Ideal) V c).after 4 t) = _
  rw [after2_4]
  unfold out2_4
  rw [View.canon_unit_zero hz3]
  simp only [View.ld_unit_zero (S := S8x512x128) hz3, View.ld_unit_zero (S := S8x512) hz2]
  obtain ⟨-, -, -, -, ⟨e0, e1, e2⟩, -⟩ := idx_all t
  funext j
  have hj0 : (j 0).val < 8 := (j 0).isLt
  have hj1 : (j 1).val < 512 := (j 1).isLt
  have hj2 : (j 2).val < 128 := (j 2).isLt
  have i0 : ((((cfg2.win 4).blk t).view.emb j) 0).val = t.val / 2 * 8 + (j 0).val := by
    show win2_4.index t (0 : Fin 3) * 8 + 1 * (j 0).val = _; rw [e0]; omega
  have i1 : ((((cfg2.win 4).blk t).view.emb j) 1).val = t.val % 2 * 512 + (j 1).val := by
    show win2_4.index t (1 : Fin 3) * 512 + 1 * (j 1).val = _; rw [e1]; omega
  have i2 : ((((cfg2.win 4).blk t).view.emb j) 2).val = (j 2).val := by
    show win2_4.index t (2 : Fin 3) * 128 + 1 * (j 2).val = _; rw [e2]; omega
  refine (pay2_blk (iblk2 V c 2 t) (iblk2 V c 0 t) (iblk2 V c 1 t) (iblk2 V c 3 t) _).trans ?_
  show _ = Spec.nemb (V c main_arg1) (V c main_arg3) (V c main_v3_1) (V c main_v5_1) (((cfg2.win 4).blk t).view.emb j)
  refine nemb_of _ _ _ _ _ _ _ ?_ ?_
  · refine (pay1_blk (iblk2 V c 2 t) (iblk2 V c 0 t) (iblk2 V c 1 t) _).trans ?_
    refine nemaw_of _ _ _ _ _ _ _ ?_ ?_ ?_
    · exact read0 V c t _ _ i0 i1 i2
    · exact read1 V c t _ _ i0 i1 i2
    · exact read2 V c t _ _ i0 i1
  · exact read3 V c t _ _ i0 i1

/-- An array index lies in point t's block of the new_embedding window iff each coordinate lies in the block's range. -/
private theorem mem_blk4 (t : Fin cfg2.N) (i : S32x1024x128.Idx) :
    i ∈ ((cfg2.win 4).blk t).view.set ↔ ∀ a : Fin 3, win2_4.index t a * S8x512x128.size a ≤ (i a).val ∧ (i a).val < win2_4.index t a * S8x512x128.size a + S8x512x128.size a := by
  show i ∈ ((View.whole main_v6_0).slice (win2_4.rect t)).set ↔ _
  rw [View.set_slice_whole, Rect.mem_set_unit]
  exact Iff.rfl

/-- The same for the new_ema_w window. -/
private theorem mem_blk5 (t : Fin cfg2.N) (i : S32x1024x128.Idx) :
    i ∈ ((cfg2.win 5).blk t).view.set ↔ ∀ a : Fin 3, win2_5.index t a * S8x512x128.size a ≤ (i a).val ∧ (i a).val < win2_5.index t a * S8x512x128.size a + S8x512x128.size a := by
  show i ∈ ((View.whole main_v6_1).slice (win2_5.rect t)).set ↔ _
  rw [View.set_slice_whole, Rect.mem_set_unit]
  exact Iff.rfl

/-- The grid point whose blocks hold array index (s, k, d): slot tile s / 8, code tile k / 512. -/
private theorem point_of (i : S32x1024x128.Idx) : ∃ t : Fin cfg2.N, t.val = (i 0).val / 8 * 2 + (i 1).val / 512 := by
  have hi0 : (i 0).val < 32 := (i 0).isLt
  have hi1 : (i 1).val < 1024 := (i 1).isLt
  have hN : cfg2.N = 8 := N_2
  exact ⟨⟨(i 0).val / 8 * 2 + (i 1).val / 512, by rw [hN]; omega⟩, rfl⟩

/-- Every index of the new_embedding array is in some point's block. -/
private theorem cover4 (i : S32x1024x128.Idx) : ∃ t : Fin cfg2.N, (cfg2.win 4).flush t = true ∧ i ∈ ((cfg2.win 4).blk t).view.set := by
  have hi0 : (i 0).val < 32 := (i 0).isLt
  have hi1 : (i 1).val < 1024 := (i 1).isLt
  have hi2 : (i 2).val < 128 := (i 2).isLt
  obtain ⟨t, ht⟩ := point_of i
  obtain ⟨-, -, -, -, ⟨e0, e1, e2⟩, -⟩ := idx_all t
  refine ⟨t, flush2_4 t, ?_⟩
  rw [mem_blk4]
  intro a
  match a with
  | ⟨0, _⟩ => show win2_4.index t (0 : Fin 3) * 8 ≤ (i 0).val ∧ (i 0).val < win2_4.index t (0 : Fin 3) * 8 + 8; rw [e0, ht]; omega
  | ⟨1, _⟩ => show win2_4.index t (1 : Fin 3) * 512 ≤ (i 1).val ∧ (i 1).val < win2_4.index t (1 : Fin 3) * 512 + 512; rw [e1, ht]; omega
  | ⟨2, _⟩ => show win2_4.index t (2 : Fin 3) * 128 ≤ (i 2).val ∧ (i 2).val < win2_4.index t (2 : Fin 3) * 128 + 128; rw [e2]; omega

/-- Every index of the new_ema_w array is in some point's block. -/
private theorem cover5 (i : S32x1024x128.Idx) : ∃ t : Fin cfg2.N, (cfg2.win 5).flush t = true ∧ i ∈ ((cfg2.win 5).blk t).view.set := by
  have hi0 : (i 0).val < 32 := (i 0).isLt
  have hi1 : (i 1).val < 1024 := (i 1).isLt
  have hi2 : (i 2).val < 128 := (i 2).isLt
  obtain ⟨t, ht⟩ := point_of i
  obtain ⟨-, -, -, -, -, ⟨e0, e1, e2⟩⟩ := idx_all t
  refine ⟨t, flush2_5 t, ?_⟩
  rw [mem_blk5]
  intro a
  match a with
  | ⟨0, _⟩ => show win2_5.index t (0 : Fin 3) * 8 ≤ (i 0).val ∧ (i 0).val < win2_5.index t (0 : Fin 3) * 8 + 8; rw [e0, ht]; omega
  | ⟨1, _⟩ => show win2_5.index t (1 : Fin 3) * 512 ≤ (i 1).val ∧ (i 1).val < win2_5.index t (1 : Fin 3) * 512 + 512; rw [e1, ht]; omega
  | ⟨2, _⟩ => show win2_5.index t (2 : Fin 3) * 128 ≤ (i 2).val ∧ (i 2).val < win2_5.index t (2 : Fin 3) * 128 + 128; rw [e2]; omega

/-- new_embedding, of the four arrays as the kernel finds them. -/
theorem arr2_4 (c : Dev nD) :
    (dat2 (F := Ideal) V c).arrAt 4 cfg2.N = Spec.nemb (V c main_arg1) (V c main_arg3) (V c main_v3_1) (V c main_v5_1) :=
  (dat2 (F := Ideal) V c).arrAt_eq_of_cover 4 (Spec.nemb (V c main_arg1) (V c main_arg3) (V c main_v3_1) (V c main_v5_1))
    (fun t _ => flushed4_eq V c t) cover4

/-- new_ema_w, of the embedding, ema_w and counts arrays as the kernel finds them. -/
theorem arr2_5 (c : Dev nD) :
    (dat2 (F := Ideal) V c).arrAt 5 cfg2.N = Spec.nemaw (V c main_arg1) (V c main_arg3) (V c main_v3_1) :=
  (dat2 (F := Ideal) V c).arrAt_eq_of_cover 5 (Spec.nemaw (V c main_arg1) (V c main_arg3) (V c main_v3_1))
    (fun t _ => flushed5_eq V c t) cover5

end Cert.KernelIdeal.Reg2

end
-- ==== Proof.SpecGlue.lean ====
/-
  The specification over the transposed index array is the specification over the index array: the first kernel reads
  `ixT[s, 0, b] = indices[b, s]` (the clip to [0, 1023] changes no word that already names a code), its flat z_q array
  reshaped [4096, 32·128] → [4096, 32, 128] is z_q, and its counts are the counts.
-/
import proofs.«402485_j27315992003198_3_alg».proof.Proof.Spec
import Idealize.ShloMosaic.Lib.Pipeline.Value
import Idealize.ShloMosaic.Lib.ValueIdx

noncomputable section

open scoped BigOperators

namespace Cert.SpecGlue

open Idealize.ShloMosaic Idealize.ShloMosaic.ValueIdx Cert.Spec

/-- Clipping a word that names a code to [0, 1023] leaves it. -/
theorem clip_id (w : BitVec 32) (h : w.toNat < 1024) : IntOp.minsi 1023#32 (IntOp.maxsi 0#32 w) = w := by
  have hm : w.msb = false := by
    rw [BitVec.msb_eq_decide]; simp; omega
  have hi : w.toInt = (w.toNat : ℤ) := BitVec.toInt_eq_toNat_of_msb hm
  have h1 : IntOp.maxsi 0#32 w = w := by
    unfold IntOp.maxsi
    rw [if_neg]
    rw [BitVec.slt]; simp only [decide_eq_true_eq, not_lt]
    rw [hi]; simp
  rw [h1]
  unfold IntOp.minsi
  rw [if_neg]
  rw [BitVec.slt]; simp only [decide_eq_true_eq, not_lt]
  rw [hi]; simp; omega

variable (ixT : SIdxT.Idx → BitVec 32) (idx : SIdx.Idx → BitVec 32)

/-- The counts over the transposed array are the counts. -/
theorem cntT_eq (h : ∀ (s : Fin 32) (b : Fin 4096), ixT (ix3 s (0 : Fin 1) b) = idx (ix2 b s)) : cntT ixT = cnt idx := by
  funext j
  unfold cntT cnt cntAt
  refine Finset.sum_congr rfl fun b _ => ?_
  rw [h]

/-- The flat z_q array, reshaped, is z_q. -/
theorem zflat_reshape (emb : SEmb.Idx → EReal) (h : ∀ (s : Fin 32) (b : Fin 4096), ixT (ix3 s (0 : Fin 1) b) = idx (ix2 b s))
    (hc : SZf.ShapeCasts SZq) : shapeCast SZq (zflat ixT emb) hc = zq idx emb := by
  funext i
  have h0 : (i 0).val < 4096 := (i 0).isLt
  have h1 : (i 1).val < 32 := (i 1).isLt
  have h2 : (i 2).val < 128 := (i 2).isLt
  refine (shapeCast_apply (zflat ixT emb) hc i
    (ix2 (⟨(i 0).val, h0⟩ : Fin 4096) (⟨128 * (i 1).val + (i 2).val, by omega⟩ : Fin 4096)) ?_).trans ?_
  · rw [Shape.rowMajor_val_two, Shape.rowMajor_val_three]
    show (i 0).val * 4096 + (128 * (i 1).val + (i 2).val) = ((i 0).val * 32 + (i 1).val) * 128 + (i 2).val
    omega
  · unfold zflat zq zqAt
    have e1 : (128 * (i 1).val + (i 2).val) / 128 = (i 1).val := by omega
    have e2 : (128 * (i 1).val + (i 2).val) % 128 = (i 2).val := by omega
    have hs : (⟨(128 * (i 1).val + (i 2).val) / 128, by omega⟩ : Fin 32) = ⟨(i 1).val, h1⟩ := Fin.ext e1
    have hd : (⟨(128 * (i 1).val + (i 2).val) % 128, Nat.mod_lt _ (by decide)⟩ : Fin 128) = ⟨(i 2).val, h2⟩ := Fin.ext e2
    show emb (ix3 (⟨(128 * (i 1).val + (i 2).val) / 128, _⟩ : Fin 32)
        (pos (ixT (ix3 (⟨(128 * (i 1).val + (i 2).val) / 128, _⟩ : Fin 32) (0 : Fin 1) (⟨(i 0).val, _⟩ : Fin 4096))))
        (⟨(128 * (i 1).val + (i 2).val) % 128, _⟩ : Fin 128)) = _
    rw [hs, hd, h]

end Cert.SpecGlue

end
-- ==== Proof.KVal.lean ====
/-
  The kernel program's four results as functions of its four arguments. The first kernel reads the index words
  transposed and clipped; for words that name codes the clip is the identity, so its flat z_q array reshaped is z_q and
  its counts are the counts; the second and third kernels' elementwise results then are the specification's, the
  arrays each finds being the arguments or what an earlier kernel left.
-/
import proofs.«402485_j27315992003198_3_alg».proof.Proof.KRun
import proofs.«402485_j27315992003198_3_alg».proof.Proof.KGlue
import proofs.«402485_j27315992003198_3_alg».proof.Proof.Reg0Z
import proofs.«402485_j27315992003198_3_alg».proof.Proof.Reg0C
import proofs.«402485_j27315992003198_3_alg».proof.Proof.Reg1
import proofs.«402485_j27315992003198_3_alg».proof.Proof.Reg2
import proofs.«402485_j27315992003198_3_alg».proof.Proof.Spec
import proofs.«402485_j27315992003198_3_alg».proof.Proof.SpecGlue
import Idealize.ShloMosaic.Lib.Pipeline.Value
import Idealize.ShloMosaic.Lib.ValueIdx

set_option maxRecDepth 16384

noncomputable section

namespace Cert.KernelIdeal.Vals

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The index word the first kernel reads at (s, 0, b) is indices[b, s], when the words name codes. -/
theorem ixT_eq (c : Dev nD) (h : Spec.InRange (S := Spec.SIdx) (m ((c : Thread nD τ).loc main_arg0))) (s : Fin 32) (b : Fin 4096) :
    V3 m ρ c main_v2 (ix3 s (0 : Fin 1) b) = m ((c : Thread nD τ).loc main_arg0) (ix2 b s) := by
  rw [Glue.V3_v2]
  refine (broadcastInDim_apply ![0, 2] bcast_S32x4096_S32x1x4096_0_2 _ (ix3 s (0 : Fin 1) b) (ix2 s b) (fun a => match a with
    | ⟨0, _⟩ => by show s.val = if (32 : Nat) = 1 then 0 else s.val; rw [if_neg (by decide)]
    | ⟨1, _⟩ => by show b.val = if (4096 : Nat) = 1 then 0 else b.val; rw [if_neg (by decide)])).trans ?_
  refine (transpose_apply [1, 0] _ transposes_S4096x32_S32x4096_1_0 (ix2 s b) (ix2 b s) (fun a => match a with
    | ⟨0, _⟩ => rfl
    | ⟨1, _⟩ => rfl)).trans ?_
  show IntOp.minsi 1023#32 (IntOp.maxsi 0#32 (m ((c : Thread nD τ).loc main_arg0) (ix2 b s))) = _
  exact SpecGlue.clip_id _ (h _)

/-- So the words the first kernel reads name codes too. -/
theorem rngT (c : Dev nD) (h : Spec.InRange (S := Spec.SIdx) (m ((c : Thread nD τ).loc main_arg0))) :
    Spec.InRange (S := Spec.SIdxT) (V3 m ρ c main_v2) := fun i => by
  have h1 : (i 1).val < 1 := (i 1).isLt
  have e : i = ix3 (⟨(i 0).val, (i 0).isLt⟩ : Fin 32) (0 : Fin 1) (⟨(i 2).val, (i 2).isLt⟩ : Fin 4096) := by
    funext a
    match a with
    | ⟨0, _⟩ => rfl
    | ⟨1, _⟩ => exact Fin.ext (by show (i 1).val = 0; omega)
    | ⟨2, _⟩ => rfl
  rw [e, ixT_eq m ρ c h]
  exact h _

/-- The counts array the first kernel leaves. -/
theorem counts_eq (c : Dev nD) (h : Spec.InRange (S := Spec.SIdx) (m ((c : Thread nD τ).loc main_arg0))) :
    (dat0 (V3 m ρ) c).arrAt 3 cfg0.N = Spec.cnt (m ((c : Thread nD τ).loc main_arg0)) :=
  (Reg0C.arr0_3 (V3 m ρ) c).trans (SpecGlue.cntT_eq _ _ (ixT_eq m ρ c h))

/-- The cluster-size array the second kernel leaves. -/
theorem cluster_eq (c : Dev nD) (h : Spec.InRange (S := Spec.SIdx) (m ((c : Thread nD τ).loc main_arg0))) :
    (dat1 (V5 m ρ) c).arrAt 3 cfg1.N
      = Spec.clus (Spec.cnt (m ((c : Thread nD τ).loc main_arg0))) (m ((c : Thread nD τ).loc main_arg2)) := by
  rw [Reg1.arr1_3 (V5 m ρ) c, Glue.V5_v3_1 m ρ c, Glue.V5_arg2 m ρ c, counts_eq m ρ c h]

/-- The four results at the last boundary, for index words that name codes and a real embedding table. -/
theorem vals (c : Dev nD) (h : Spec.InRange (S := Spec.SIdx) (m ((c : Thread nD τ).loc main_arg0)))
    (hf : Spec.Finite (S := Spec.SEmb) (m ((c : Thread nD τ).loc main_arg1))) :
    W7 m ρ c (Proc.devRef .tc main_v4) = Spec.zq (m ((c : Thread nD τ).loc main_arg0)) (m ((c : Thread nD τ).loc main_arg1))
    ∧ W7 m ρ c (Proc.devRef .tc main_v6_0)
        = Spec.nemb (m ((c : Thread nD τ).loc main_arg1)) (m ((c : Thread nD τ).loc main_arg3))
            (Spec.cnt (m ((c : Thread nD τ).loc main_arg0)))
            (Spec.clus (Spec.cnt (m ((c : Thread nD τ).loc main_arg0))) (m ((c : Thread nD τ).loc main_arg2)))
    ∧ W7 m ρ c (Proc.devRef .tc main_v5_0)
        = Spec.necs (Spec.cnt (m ((c : Thread nD τ).loc main_arg0))) (m ((c : Thread nD τ).loc main_arg2))
    ∧ W7 m ρ c (Proc.devRef .tc main_v6_1)
        = Spec.nemaw (m ((c : Thread nD τ).loc main_arg1)) (m ((c : Thread nD τ).loc main_arg3))
            (Spec.cnt (m ((c : Thread nD τ).loc main_arg0))) := by
  refine ⟨?_, ?_, ?_, ?_⟩
  · rw [Glue.out_v4 m ρ c, Reg0Z.arr0_2 (V3 m ρ) c (rngT m ρ c h) (by rw [Glue.V3_arg1 m ρ c]; exact hf), Glue.V3_arg1 m ρ c]
    exact SpecGlue.zflat_reshape _ _ _ (ixT_eq m ρ c h) _
  · rw [Glue.out_v6_0 m ρ c, Reg2.arr2_4 (V6 m ρ) c, Glue.V6_arg1 m ρ c, Glue.V6_arg3 m ρ c, Glue.V6_v3_1 m ρ c,
      Glue.V6_v5_1 m ρ c, counts_eq m ρ c h, cluster_eq m ρ c h]
  · rw [Glue.out_v5_0 m ρ c, Reg1.arr1_2 (V5 m ρ) c, Glue.V5_v3_1 m ρ c, Glue.V5_arg2 m ρ c, counts_eq m ρ c h]
  · rw [Glue.out_v6_1 m ρ c, Reg2.arr2_5 (V6 m ρ) c, Glue.V6_arg1 m ρ c, Glue.V6_arg3 m ρ c, Glue.V6_v3_1 m ρ c,
      counts_eq m ρ c h]

/-- The run of the kernel program with its results named. -/
theorem run (hpre : ∀ c : Dev nD, Spec.InRange (S := Spec.SIdx) (m ((c : Thread nD τ).loc main_arg0))
      ∧ Spec.Finite (S := Spec.SEmb) (m ((c : Thread nD τ).loc main_arg1))) :
    θ_run defs (onTc (τ := τ) (main (F := Ideal))) ⟨m, fun _ => 0, ρ⟩ (fun r => ∀ c : Dev nD,
      r.2.mem ((c.tc : Thread nD τ).loc main_v4) = Spec.zq (m ((c : Thread nD τ).loc main_arg0)) (m ((c : Thread nD τ).loc main_arg1))
      ∧ r.2.mem ((c.tc : Thread nD τ).loc main_v6_0)
          = Spec.nemb (m ((c : Thread nD τ).loc main_arg1)) (m ((c : Thread nD τ).loc main_arg3))
              (Spec.cnt (m ((c : Thread nD τ).loc main_arg0)))
              (Spec.clus (Spec.cnt (m ((c : Thread nD τ).loc main_arg0))) (m ((c : Thread nD τ).loc main_arg2)))
      ∧ r.2.mem ((c.tc : Thread nD τ).loc main_v5_0)
          = Spec.necs (Spec.cnt (m ((c : Thread nD τ).loc main_arg0))) (m ((c : Thread nD τ).loc main_arg2))
      ∧ r.2.mem ((c.tc : Thread nD τ).loc main_v6_1)
          = Spec.nemaw (m ((c : Thread nD τ).loc main_arg1)) (m ((c : Thread nD τ).loc main_arg3))
              (Spec.cnt (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => by
    obtain ⟨e0, e1, e2, e3, k0, k1, k2, k3⟩ := hr c
    obtain ⟨v0, v1, v2, v3⟩ := vals m ρ c (hpre c).1 (hpre c).2
    exact ⟨e0.trans v0, e1.trans v1, e2.trans v2, e3.trans v3, k0, k1, k2, k3⟩) (run_vals m ρ)

end Cert.KernelIdeal.Vals

end
-- ==== Proof.LibPair.lean ====
/-
  `stablehlo.gather` and the accumulating float `stablehlo.scatter` READ AT ONE ELEMENT, for start indices that are an
  [n0, n1, 2] array of coordinate PAIRS (index vector on the last axis) addressing the two leading axes of the operand —
  what `x[i, j]` and `x.at[i, j].add(u)` print for index arrays `i`, `j` of one rank-2 shape:

  * `gather_pair_apply`            — a table [A, B, C] read at (pair p q, k): the table at (first word, second word, k),
                                      each word read signed and clamped to its axis;
  * `scatterAdd_pair_apply`        — updates [n0, n1] added into a matrix [A, B]: element (a, b) is the operand's plus the
                                      sum of the updates whose pair is exactly (a, b) (a pair outside the matrix lands nowhere);
  * `scatterAdd_pair_rows_apply`   — update rows [n0, n1, C] added into a table [A, B, C]: the same, column by column.

  General in the sizes; the dimension numbers enter as equations on the record's fields, which a printed record meets by `rfl`.
-/
import Idealize.ShloMosaic.PureOps
import Idealize.ShloMosaic.Lib.ValueIdx
import Mathlib.Algebra.BigOperators.Group.Finset.Basic
import Mathlib.Algebra.BigOperators.Group.Finset.Piecewise

noncomputable section

open scoped BigOperators

namespace Cert.LibPair

open Idealize.ShloMosaic Idealize.ShloMosaic.ValueIdx

/-- The position a start word selects on an axis of `N` positions: read signed, clamped to `[0, N − 1]`. -/
def clampPos {w : Nat} (N : Nat) (hN : 0 < N) (i : BitVec w) : Fin N := ⟨min i.toInt.toNat (N - 1), by omega⟩

/-! ## A rank-3 index set as the product of its coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather -/

/-- An operand axis that is start-indexed and collapsed (slice size 1) reads the start index's component for it, signed
    and clamped to the axis. -/
theorem operandIdx_indexed {s si t : Shape} {w : Nat} (d : GatherDims s si t) (j : t.Idx) (idx : IVec si w)
    (a : Fin s.rank) (hm : a ∈ d.startIndexMap) (hc : a ∈ d.collapsedSliceDims) (hb : a ∉ d.operandBatchingDims) :
    (d.operandIdx j idx a).val
      = min (idx (d.siIdx j ⟨d.startIndexMap.idxOf a, List.idxOf_lt_length_iff.2 hm⟩)).toInt.toNat (s.size a - 1) := by
  have hk : a ∉ d.sKept := fun h => ((d.mem_sKept a).1 h).1 hc
  show d.start j idx a + d.batchCoord j a + d.offCoord j a = _
  rw [d.batchCoord_eq_zero j a hb, d.offCoord_eq_zero j a hk]
  simp only [Nat.add_zero]
  unfold GatherDims.start
  rw [dif_pos hm, d.slice_collapsed a hc]

/-- An operand axis that is kept whole and not start-indexed reads the result's coordinate on its offset axis. -/
theorem operandIdx_kept {s si t : Shape} {w : Nat} (d : GatherDims s si t) (j : t.Idx) (idx : IVec si w)
    (a : Fin s.rank) (hm : a ∉ d.startIndexMap) (hk : a ∈ d.sKept) :
    (d.operandIdx j idx a).val
      = (j (d.offsetDims[d.sKept.idxOf a]'(by rw [d.offset_length]; exact List.idxOf_lt_length_iff.2 hk))).val := by
  have hb := ((d.mem_sKept a).1 hk).2
  show d.start j idx a + d.batchCoord j a + d.offCoord j a = _
  rw [d.batchCoord_eq_zero j a hb, Nat.add_zero]
  unfold GatherDims.start GatherDims.offCoord
  rw [dif_neg hm, dif_pos hk, Nat.zero_add]

/-- Start indices [n0, n1, m] with the index vector on axis 2: the start-indices index of component `k` for a result
    index whose first two batch coordinates are `p` and `q` is (p, q, k). -/
theorem siIdx_pair {s t : Shape} {n0 n1 m : Nat} (d : GatherDims s ⟨3, ![n0, n1, m]⟩ t) (hivd : d.indexVectorDim = 2)
    (j : t.Idx) (p : Fin n0) (q : Fin n1)
    (hp : ∀ h : 0 < d.batchDims.length, (j (d.batchDims[0]'h)).val = p.val)
    (hq : ∀ h : 1 < d.batchDims.length, (j (d.batchDims[1]'h)).val = q.val)
    (c : Fin d.startIndexMap.length) (k : Fin m) (hck : c.val = k.val) :
    d.siIdx j c = ix3 p q k := by
  funext b
  match b with
  | ⟨0, _⟩ =>
    unfold GatherDims.siIdx
    rw [dif_neg (by rw [hivd]; simp)]
    unfold GatherDims.siCoord
    apply Fin.ext
    simp only [Fin.val_cast]
    have key : ∀ (i : Nat) (h : i < d.batchDims.length), i = 0 → (j (d.batchDims[i]'h)).val = p.val := by
      intro i h hi; subst hi; exact hp h
    apply key
    show List.idxOf _ (List.filter (fun b : Fin 3 => decide (b.val ≠ d.indexVectorDim)) (List.finRange 3)) = 0
    rw [hivd]; rfl
  | ⟨1, _⟩ =>
    unfold GatherDims.siIdx
    rw [dif_neg (by rw [hivd]; simp)]
    unfold GatherDims.siCoord
    apply Fin.ext
    simp only [Fin.val_cast]
    have key : ∀ (i : Nat) (h : i < d.batchDims.length), i = 1 → (j (d.batchDims[i]'h)).val = q.val := by
      intro i h hi; subst hi; exact hq h
    apply key
    show List.idxOf _ (List.filter (fun b : Fin 3 => decide (b.val ≠ d.indexVectorDim)) (List.finRange 3)) = 1
    rw [hivd]; rfl
  | ⟨2, _⟩ =>
    unfold GatherDims.siIdx
    rw [dif_pos (by rw [hivd])]
    apply Fin.ext
    exact hck

/-- A table [A, B, C] gathered by [n0, n1, 2] coordinate pairs, rows kept whole. -/
theorem gather_pair_apply {α : Type} {A B C n0 n1 w : Nat} (hA : 0 < A) (hB : 0 < B)
    (d : GatherDims ⟨3, ![A, B, C]⟩ ⟨3, ![n0, n1, 2]⟩ ⟨3, ![n0, n1, C]⟩)
    (hoff : d.offsetDims = [2]) (hcoll : d.collapsedSliceDims = [0, 1]) (hob : d.operandBatchingDims = [])
    (hsb : d.startIndicesBatchingDims = []) (hsim : d.startIndexMap = [0, 1]) (hivd : d.indexVectorDim = 2)
    (x : (⟨3, ![A, B, C]⟩ : Shape).Idx → α) (idx : IVec ⟨3, ![n0, n1, 2]⟩ w) (p : Fin n0) (q : Fin n1) (k : Fin C) :
    Host.gather d x idx (ix3 p q k)
      = x (ix3 (clampPos A hA (idx (ix3 p q (0 : Fin 2)))) (clampPos B hB (idx (ix3 p q (1 : Fin 2)))) k) := by
  unfold Host.gather
  congr 1
  funext a
  apply Fin.ext
  have hb : ∀ a : Fin 3, a ∉ d.operandBatchingDims := fun a => by rw [hob]; exact List.not_mem_nil
  -- the result's batch axes are axes 0 and 1 (axis 2 is the offset axis): their coordinates are p and q
  have hbd : d.batchDims = [0, 1] := by
    show Shape.kept _ d.offsetDims = [0, 1]
    rw [hoff]; rfl
  have hp : ∀ h : 0 < d.batchDims.length,
      ((ix3 p q k : (⟨3, ![n0, n1, C]⟩ : Shape).Idx) (d.batchDims[0]'h)).val = p.val := by
    have key : ∀ (l : List (Fin 3)) (h : 0 < l.length), l = [0, 1] →
        ((ix3 p q k : (⟨3, ![n0, n1, C]⟩ : Shape).Idx) (l[0]'h)).val = p.val := by
      intro l h hl; subst hl; rfl
    exact fun h => key _ h hbd
  have hq : ∀ h : 1 < d.batchDims.length,
      ((ix3 p q k : (⟨3, ![n0, n1, C]⟩ : Shape).Idx) (d.batchDims[1]'h)).val = q.val := by
    have key : ∀ (l : List (Fin 3)) (h : 1 < l.length), l = [0, 1] →
        ((ix3 p q k : (⟨3, ![n0, n1, C]⟩ : Shape).Idx) (l[1]'h)).val = q.val := by
      intro l h hl; subst hl; rfl
    exact fun h => key _ h hbd
  match a with
  | ⟨0, _⟩ =>
    -- axis 0 is start-indexed and collapsed: the pair's first word, signed and clamped
    rw [operandIdx_indexed d _ idx _ (by rw [hsim]; simp) (by rw [hcoll]; simp) (hb _),
      siIdx_pair d hivd _ p q hp hq _ (0 : Fin 2) (by show List.idxOf _ d.startIndexMap = 0; rw [hsim]; rfl)]
    rfl
  | ⟨1, _⟩ =>
    -- axis 1 likewise: the pair's second word
    rw [operandIdx_indexed d _ idx _ (by rw [hsim]; simp) (by rw [hcoll]; simp) (hb _),
      siIdx_pair d hivd _ p q hp hq _ (1 : Fin 2) (by show List.idxOf _ d.startIndexMap = 1; rw [hsim]; rfl)]
    rfl
  | ⟨2, _⟩ =>
    -- the rows are kept whole: the result's coordinate on its one offset axis
    have hk : (⟨2, by decide⟩ : Fin 3) ∈ d.sKept := (d.mem_sKept _).2 ⟨by rw [hcoll]; simp, hb _⟩
    rw [operandIdx_kept d _ idx _ (by rw [hsim]; simp) hk]
    have key : ∀ (l : List (Fin 3)) (i : Nat) (h : i < l.length), l = [2] →
        ((ix3 p q k : (⟨3, ![n0, n1, C]⟩ : Shape).Idx) (l[i]'h)).val = k.val := by
      intro l i h hl; subst hl
      have hi : i = 0 := by simpa using h
      subst hi; rfl
    exact key _ _ _ hoff

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates [n0, n1] added into a matrix at coordinate pairs -/

section Pair

variable {A B n0 n1 w : Nat}

/-- With both operand axes inserted and mapped from the index pair (index_vector_dim = 2 over indices [n0, n1, 2], no
    window axis), update `(p, q)`'s window starts at row word `idx[p, q, 0]` and column word `idx[p, q, 1]`, and has
    no extent. -/
theorem pair_start (d : ScatterDims ⟨2, ![A, B]⟩ ⟨3, ![n0, n1, 2]⟩ ⟨2, ![n0, n1]⟩)
    (huw : d.updateWindowDims = []) (hiw : d.insertedWindowDims = [0, 1]) (hsd : d.scatterDimsToOperandDims = [0, 1])
    (hiv : d.indexVectorDim = 2) (idx : IVec ⟨3, ![n0, n1, 2]⟩ w) (p : Fin n0) (q : Fin n1) :
    d.start (ix2 p q) idx 0 = (idx (ix3 p q (0 : Fin 2))).toInt ∧ d.start (ix2 p q) idx 1 = (idx (ix3 p q (1 : Fin 2))).toInt
      ∧ d.window (ix2 p q) 0 = 0 ∧ d.window (ix2 p q) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
    | ⟨2, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
    | ⟨2, _⟩ => rfl
  · unfold ScatterDims.window; rw [dif_neg (by simp [ScatterDims.sKept, Shape.kept])]
  · unfold ScatterDims.window; rw [dif_neg (by simp [ScatterDims.sKept, Shape.kept])]

/-- THE PAIR SCATTER READ AT (a, b): the operand's element plus every update whose first word is `a` and whose second
    word is `b` (read signed; a negative or too large word matches no coordinate). -/
theorem ideal_scatterAdd_pair_apply (d : ScatterDims ⟨2, ![A, B]⟩ ⟨3, ![n0, n1, 2]⟩ ⟨2, ![n0, n1]⟩)
    (huw : d.updateWindowDims = []) (hiw : d.insertedWindowDims = [0, 1]) (hsd : d.scatterDimsToOperandDims = [0, 1])
    (hiv : d.indexVectorDim = 2)
    (x : (⟨2, ![A, B]⟩ : Shape).Idx → EReal) (idx : IVec ⟨3, ![n0, n1, 2]⟩ w) (upd : (⟨2, ![n0, n1]⟩ : Shape).Idx → EReal)
    (a : Fin A) (b : Fin B) :
    Ideal.hostScatterAdd d x idx upd (ix2 a b)
      = x (ix2 a b) + ∑ p : Fin n0, ∑ q : Fin n1,
          if (idx (ix3 p q (0 : Fin 2))).toInt = (a.val : ℤ) ∧ (idx (ix3 p q (1 : Fin 2))).toInt = (b.val : ℤ) then upd (ix2 p q) else 0 := by
  unfold Ideal.hostScatterAdd
  congr 1
  rw [Finset.sum_filter, sum_idx2]
  refine Finset.sum_congr rfl fun p _ => Finset.sum_congr rfl fun q _ => ?_
  obtain ⟨h0, h1, w0, w1⟩ := pair_start d huw hiw hsd hiv idx p q
  have key : d.resultIdx? (ix2 p q) idx = some (ix2 a b)
      ↔ (idx (ix3 p q (0 : Fin 2))).toInt = (a.val : ℤ) ∧ (idx (ix3 p q (1 : Fin 2))).toInt = (b.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ c
      match c with
      | ⟨0, _⟩ => show d.start (ix2 p q) idx 0 + (d.window (ix2 p q) 0 : ℤ) = _; rw [h0, w0, e0]; simp
      | ⟨1, _⟩ => show d.start (ix2 p q) idx 1 + (d.window (ix2 p q) 1 : ℤ) = _; rw [h1, w1, e1]; simp
  simp only [key]

end Pair

/-- Updates [n0, n1] added into a matrix [A, B] at [n0, n1, 2] coordinate pairs. -/
theorem scatterAdd_pair_apply {A B n0 n1 w : Nat} {φ : FTy}
    (d : ScatterDims ⟨2, ![A, B]⟩ ⟨3, ![n0, n1, 2]⟩ ⟨2, ![n0, n1]⟩)
    (huw : d.updateWindowDims = []) (hiw : d.insertedWindowDims = [0, 1]) (hsd : d.scatterDimsToOperandDims = [0, 1])
    (hiv : d.indexVectorDim = 2)
    (x : FVec Ideal ⟨2, ![A, B]⟩ φ) (idx : IVec ⟨3, ![n0, n1, 2]⟩ w) (upd : FVec Ideal ⟨2, ![n0, n1]⟩ φ) (a : Fin A) (b : Fin B) :
    Host.scatterAdd (F := Ideal) d x idx upd (ix2 a b)
      = x (ix2 a b) + ∑ p : Fin n0, ∑ q : Fin n1,
          if (idx (ix3 p q (0 : Fin 2))).toInt = (a.val : ℤ) ∧ (idx (ix3 p q (1 : Fin 2))).toInt = (b.val : ℤ) then upd (ix2 p q) else 0 :=
  ideal_scatterAdd_pair_apply d huw hiw hsd hiv x idx upd a b

/-! ## Update rows [n0, n1, C] added into a table at coordinate pairs -/

section PairRows

variable {A B C n0 n1 w : Nat}

/-- With the operand's two leading axes inserted and mapped from the index pair and its last axis the updates' window
    axis (index_vector_dim = 2 over indices [n0, n1, 2]), update `(p, q, k')`'s window starts at the words
    `idx[p, q, 0]`, `idx[p, q, 1]` and column 0, and `k'` is its coordinate along the row. -/
theorem pair_rows_start (d : ScatterDims ⟨3, ![A, B, C]⟩ ⟨3, ![n0, n1, 2]⟩ ⟨3, ![n0, n1, C]⟩)
    (huw : d.updateWindowDims = [2]) (hiw : d.insertedWindowDims = [0, 1]) (hsd : d.scatterDimsToOperandDims = [0, 1])
    (hiv : d.indexVectorDim = 2) (idx : IVec ⟨3, ![n0, n1, 2]⟩ w) (p : Fin n0) (q : Fin n1) (k' : Fin C) :
    d.start (ix3 p q k') idx 0 = (idx (ix3 p q (0 : Fin 2))).toInt
      ∧ d.start (ix3 p q k') idx 1 = (idx (ix3 p q (1 : Fin 2))).toInt ∧ d.start (ix3 p q k') idx 2 = 0
      ∧ d.window (ix3 p q k') 0 = 0 ∧ d.window (ix3 p q k') 1 = 0 ∧ d.window (ix3 p q k') 2 = k'.val := by
  obtain ⟨uw, iw, sd, iv, wf⟩ := d
  dsimp only at huw hiw hsd hiv
  subst huw hiw hsd hiv
  refine ⟨?_, ?_, ?_, ?_, ?_, ?_⟩
  · unfold ScatterDims.start
    rw [dif_pos (show (0 : Fin 3) ∈ [(0 : Fin 3), 1] by decide)]
    refine congrArg (fun k => (idx k).toInt) (funext fun b => Fin.ext ?_)
    match b with
    | ⟨0, _⟩ => rfl
    | ⟨1, _⟩ => rfl
    | ⟨2, _⟩ => rfl
  · unfold ScatterDims.start
    rw [dif_pos (show (1 : Fin 3) ∈ [(0 : Fin 3), 1] by decide)]
    refine congrArg (fun k => (idx k).toInt) (funext fun b => Fin.ext ?_)
    match b with
    | ⟨0, _⟩ => rfl
    | ⟨1, _⟩ => rfl
    | ⟨2, _⟩ => rfl
  · unfold ScatterDims.start; rw [dif_neg (show (2 : Fin 3) ∉ [(0 : Fin 3), 1] by decide)]
  · unfold ScatterDims.window; rw [dif_neg (by simp [ScatterDims.sKept, Shape.kept])]
  · unfold ScatterDims.window; rw [dif_neg (by simp [ScatterDims.sKept, Shape.kept])]
  · unfold ScatterDims.window; rw [dif_pos (by simp [ScatterDims.sKept, Shape.kept])]; rfl

/-- THE PAIR ROW SCATTER READ AT (a, b, k): the operand's element plus, of every update row whose first word is `a` and
    whose second word is `b` (read signed; a negative or too large word matches no coordinate), the element in column `k`. -/
theorem ideal_scatterAdd_pair_rows_apply (d : ScatterDims ⟨3, ![A, B, C]⟩ ⟨3, ![n0, n1, 2]⟩ ⟨3, ![n0, n1, C]⟩)
    (huw : d.updateWindowDims = [2]) (hiw : d.insertedWindowDims = [0, 1]) (hsd : d.scatterDimsToOperandDims = [0, 1])
    (hiv : d.indexVectorDim = 2)
    (x : (⟨3, ![A, B, C]⟩ : Shape).Idx → EReal) (idx : IVec ⟨3, ![n0, n1, 2]⟩ w) (upd : (⟨3, ![n0, n1, C]⟩ : Shape).Idx → EReal)
    (a : Fin A) (b : Fin B) (k : Fin C) :
    Ideal.hostScatterAdd d x idx upd (ix3 a b k)
      = x (ix3 a b k) + ∑ p : Fin n0, ∑ q : Fin n1,
          if (idx (ix3 p q (0 : Fin 2))).toInt = (a.val : ℤ) ∧ (idx (ix3 p q (1 : Fin 2))).toInt = (b.val : ℤ) then upd (ix3 p q k) else 0 := by
  unfold Ideal.hostScatterAdd
  congr 1
  rw [Finset.sum_filter, sum_idx3]
  refine Finset.sum_congr rfl fun p _ => Finset.sum_congr rfl fun q _ => ?_
  have key : ∀ k' : Fin C, d.resultIdx? (ix3 p q k') idx = some (ix3 a b k)
      ↔ (((idx (ix3 p q (0 : Fin 2))).toInt = (a.val : ℤ) ∧ (idx (ix3 p q (1 : Fin 2))).toInt = (b.val : ℤ)) ∧ k' = k) := by
    intro k'
    obtain ⟨h0, h1, h2, w0, w1, w2⟩ := pair_rows_start d huw hiw hsd hiv idx p q k'
    rw [resultIdx?_eq_some_iff]
    constructor
    · intro h
      have a0 := h 0; have a1 := h 1; have a2 := h 2
      rw [h0, w0] at a0; rw [h1, w1] at a1; rw [h2, w2] at a2
      simp only [Nat.cast_zero, add_zero, zero_add] at a0 a1 a2
      exact ⟨⟨a0, a1⟩, Fin.ext (by exact_mod_cast a2)⟩
    · rintro ⟨⟨e0, e1⟩, rfl⟩ c
      match c with
      | ⟨0, _⟩ => show d.start (ix3 p q k') idx 0 + (d.window (ix3 p q k') 0 : ℤ) = _; rw [h0, w0, e0]; simp
      | ⟨1, _⟩ => show d.start (ix3 p q k') idx 1 + (d.window (ix3 p q k') 1 : ℤ) = _; rw [h1, w1, e1]; simp
      | ⟨2, _⟩ => show d.start (ix3 p q k') idx 2 + (d.window (ix3 p q k') 2 : ℤ) = _; rw [h2, w2]; simp
  simp only [key]
  by_cases hP : (idx (ix3 p q (0 : Fin 2))).toInt = (a.val : ℤ) ∧ (idx (ix3 p q (1 : Fin 2))).toInt = (b.val : ℤ)
  · simp only [hP, true_and]
    rw [Finset.sum_ite_eq']; simp
  · simp only [hP, false_and, if_false]
    exact Finset.sum_const_zero

end PairRows

/-- Update rows [n0, n1, C] added into a table [A, B, C] at [n0, n1, 2] coordinate pairs. -/
theorem scatterAdd_pair_rows_apply {A B C n0 n1 w : Nat} {φ : FTy}
    (d : ScatterDims ⟨3, ![A, B, C]⟩ ⟨3, ![n0, n1, 2]⟩ ⟨3, ![n0, n1, C]⟩)
    (huw : d.updateWindowDims = [2]) (hiw : d.insertedWindowDims = [0, 1]) (hsd : d.scatterDimsToOperandDims = [0, 1])
    (hiv : d.indexVectorDim = 2)
    (x : FVec Ideal ⟨3, ![A, B, C]⟩ φ) (idx : IVec ⟨3, ![n0, n1, 2]⟩ w) (upd : FVec Ideal ⟨3, ![n0, n1, C]⟩ φ)
    (a : Fin A) (b : Fin B) (k : Fin C) :
    Host.scatterAdd (F := Ideal) d x idx upd (ix3 a b k)
      = x (ix3 a b k) + ∑ p : Fin n0, ∑ q : Fin n1,
          if (idx (ix3 p q (0 : Fin 2))).toInt = (a.val : ℤ) ∧ (idx (ix3 p q (1 : Fin 2))).toInt = (b.val : ℤ) then upd (ix3 p q k) else 0 :=
  ideal_scatterAdd_pair_rows_apply d huw hiw hsd hiv x idx upd a b k

end Cert.LibPair

end
-- ==== Proof.RefGS.lean ====
/-
  The reference's three index-driven operations read at an element, for index words that name codes. Its index pairs are
  (slot, word): the slot number from an iota (never negative, so jnp's wrap of negative indices leaves it), the word
  from the argument (not negative either, so the wrap leaves it too). The gather reads the selected row; the scatter of
  ones counts, per (slot, code), the batch rows selecting the code; the scatter of the gathered rows adds the selected
  row — which IS row (slot, code) — once per such batch row, that is counts · row, the row's entries being real.
-/
import proofs.«402485_j27315992003198_3_alg».proof.Proof.Gen.ReferenceIdeal.Read
import proofs.«402485_j27315992003198_3_alg».proof.Proof.Spec
import proofs.«402485_j27315992003198_3_alg».proof.Proof.LibPair
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefGS

open Cert.ReferenceIdeal Cert.ReferenceIdeal.Read
open Idealize.ShloMosaic Idealize.ShloMosaic.ValueIdx

/-! ## Words -/

/-- A word below 1024 read signed is itself. -/
theorem toInt_small (w : BitVec 32) (hw : w.toNat < 1024) : w.toInt = (w.toNat : ℤ) := by
  rw [BitVec.toInt_eq_toNat_cond]
  split <;> omega

/-- A word below 1024 is not negative. -/
theorem slt_zero_small (w : BitVec 32) (hw : w.toNat < 1024) : IntOp.cmpi .slt w 0#32 = 0#1 := by
  have h0 : ¬ (w.toInt < 0) := by
    rw [toInt_small w hw]; omega
  simp [IntOp.cmpi, BitVec.slt, h0]

/-- The wrap of a negative index leaves a word below 1024 as it is. -/
theorem wrap_small (w c : BitVec 32) (hw : w.toNat < 1024) :
    Scalar.select (IntOp.cmpi .slt w 0#32) (IntOp.addi w c) w = w := by
  rw [slt_zero_small w hw]; exact select_zero _ _

/-- The word of a number below 1024 is below 1024. -/
theorem toNat_ofNat_small (n : Nat) (hn : n < 1024) : (BitVec.ofNat 32 n).toNat = n := by
  rw [BitVec.toNat_ofNat]; exact Nat.mod_eq_of_lt (by omega)

/-- A word below 1024 read signed is the code `k` iff it is `k`'s word. -/
theorem toInt_eq_iff (w : BitVec 32) (hw : w.toNat < 1024) (k : Nat) (hk : k < 1024) :
    w.toInt = (k : ℤ) ↔ w = BitVec.ofNat 32 k := by
  rw [toInt_small w hw]
  constructor
  · intro e
    apply BitVec.eq_of_toNat_eq
    rw [toNat_ofNat_small k hk]; exact_mod_cast e
  · intro e
    rw [e, toNat_ofNat_small k hk]

/-- The position a word below 1024 selects among 1024, clamped, is the specification's. -/
theorem clampPos_code (w : BitVec 32) (hw : w.toNat < 1024) :
    LibPair.clampPos 1024 (by decide) w = Spec.pos w := by
  apply Fin.ext
  show min w.toInt.toNat (1024 - 1) = min w.toNat 1023
  rw [toInt_small w hw, Int.toNat_natCast]

/-- The position a slot's word selects among the 32 slots is the slot. -/
theorem clampPos_slot (q : Fin 32) : LibPair.clampPos 32 (by decide) (BitVec.ofNat 32 q.val) = q := by
  apply Fin.ext
  have hq : (BitVec.ofNat 32 q.val).toNat = q.val := toNat_ofNat_small _ (by have := q.isLt; omega)
  show min (BitVec.ofNat 32 q.val).toInt.toNat (32 - 1) = q.val
  rw [toInt_small _ (by rw [hq]; have := q.isLt; omega), hq, Int.toNat_natCast]
  have := q.isLt; omega

/-- The specification's position of a code's word is the code. -/
theorem pos_ofNat (k : Fin 1024) : Spec.pos (BitVec.ofNat 32 k.val) = k := by
  apply Fin.ext
  show min (BitVec.ofNat 32 k.val).toNat 1023 = k.val
  rw [toNat_ofNat_small _ k.isLt]
  have := k.isLt; omega

/-! ## The index pairs -/

/-- The index pairs' joining at component 0 reads the first piece … -/
theorem concat_at0 {α : Type} (y₁ y₂ : S4096x32x1.Idx → α) (hc : Shape.Concatenates [S4096x32x1, S4096x32x1] S4096x32x2 2)
    (p : Fin 4096) (q : Fin 32) :
    concatenate S4096x32x2 2 [⟨S4096x32x1, y₁⟩, ⟨S4096x32x1, y₂⟩] hc (ix3 p q (0 : Fin 2)) = y₁ (ix3 p q (0 : Fin 1)) := by
  refine concatenate_pair_apply_left (2 : Fin S4096x32x2.rank) y₁ y₂ hc (ix3 p q (0 : Fin 2)) rfl (ix3 p q (0 : Fin 1)) ?_
  intro b
  match b with
  | ⟨0, _⟩ => rfl
  | ⟨1, _⟩ => rfl
  | ⟨2, _⟩ => rfl

/-- … and at component 1 the second. -/
theorem concat_at1 {α : Type} (y₁ y₂ : S4096x32x1.Idx → α) (hc : Shape.Concatenates [S4096x32x1, S4096x32x1] S4096x32x2 2)
    (p : Fin 4096) (q : Fin 32) :
    concatenate S4096x32x2 2 [⟨S4096x32x1, y₁⟩, ⟨S4096x32x1, y₂⟩] hc (ix3 p q (1 : Fin 2)) = y₂ (ix3 p q (0 : Fin 1)) := by
  refine concatenate_pair_apply_right (2 : Fin S4096x32x2.rank) y₁ y₂ hc (ix3 p q (1 : Fin 2)) rfl rfl (ix3 p q (0 : Fin 1)) ?_ rfl
  intro b hb
  match b, hb with
  | ⟨0, _⟩, _ => rfl
  | ⟨1, _⟩, _ => rfl
  | ⟨2, _⟩, hb => exact absurd rfl hb

/-- The slot component of a pair: the slot's number as a word (an iota is not negative, the wrap leaves it). -/
theorem v6_at (p : Fin 4096) (q : Fin 32) : val_main_v6 (F := Ideal) (ix2 p q) = BitVec.ofNat 32 q.val := by
  rw [val_main_v6_apply, val_main_v3_apply, val_main_v5_apply, val_main_v1_apply, val_main_v2_apply, val_main_v4_apply,
    val_main_v0_apply, val_main_c_apply, val_main_c_0_apply]
  show Scalar.select (IntOp.cmpi .slt (BitVec.ofNat 32 q.val) 0#32) (IntOp.addi (BitVec.ofNat 32 q.val) 32#32)
    (BitVec.ofNat 32 q.val) = BitVec.ofNat 32 q.val
  exact wrap_small _ _ (by rw [toNat_ofNat_small _ (by have := q.isLt; omega)]; have := q.isLt; omega)

variable (x0 : IVec S4096x32 32) (x1 : FVec Ideal S32x1024x128 .f32)

/-- The word component of a pair: the argument's word (not negative, the wrap leaves it). -/
theorem v11_at (h : Spec.InRange (S := Spec.SIdx) x0) (p : Fin 4096) (q : Fin 32) :
    val_main_v11 (F := Ideal) x0 (ix2 p q) = x0 (ix2 p q) := by
  rw [val_main_v11_apply, val_main_v8_apply, val_main_v10_apply, val_main_v7_apply, val_main_c_1_apply]
  exact wrap_small _ _ (h (ix2 p q))

/-- The first pair array at component 0. -/
theorem v14_at0 (p : Fin 4096) (q : Fin 32) : val_main_v14 (F := Ideal) x0 (ix3 p q (0 : Fin 2)) = BitVec.ofNat 32 q.val := by
  unfold val_main_v14
  rw [concat_at0, val_main_v12_apply]
  have e : idx_main_v12 (ix3 p q (0 : Fin 1)) = ix2 p q := by
    funext a; match a with | ⟨0, _⟩ => rfl | ⟨1, _⟩ => rfl
  rw [e, v6_at]

/-- The first pair array at component 1. -/
theorem v14_at1 (h : Spec.InRange (S := Spec.SIdx) x0) (p : Fin 4096) (q : Fin 32) :
    val_main_v14 (F := Ideal) x0 (ix3 p q (1 : Fin 2)) = x0 (ix2 p q) := by
  unfold val_main_v14
  rw [concat_at1, val_main_v13_apply]
  have e : idx_main_v13 (ix3 p q (0 : Fin 1)) = ix2 p q := by
    funext a; match a with | ⟨0, _⟩ => rfl | ⟨1, _⟩ => rfl
  rw [e, v11_at x0 h]

/-- The second and third pair arrays are the first, spelled again. -/
theorem v29_eq_v14 : val_main_v29 (F := Ideal) x0 = val_main_v14 (F := Ideal) x0 := rfl
theorem v45_eq_v14 : val_main_v45 (F := Ideal) x0 = val_main_v14 (F := Ideal) x0 := rfl

/-! ## The gather -/

/-- The gather at (p, q, k): the row of slot `q` the word selects. -/
theorem v15_at (h : Spec.InRange (S := Spec.SIdx) x0) (p : Fin 4096) (q : Fin 32) (k : Fin 128) :
    val_main_v15 (F := Ideal) x0 x1 (ix3 p q k) = x1 (ix3 q (Spec.pos (x0 (ix2 p q))) k) := by
  unfold val_main_v15
  rw [LibPair.gather_pair_apply (by decide : 0 < 32) (by decide : 0 < 1024)
    gather_S32x1024x128_S4096x32x2_S4096x32x128_2_01_n_n_01_2_11128 rfl rfl rfl rfl rfl rfl x1 (val_main_v14 (F := Ideal) x0) p q k]
  rw [v14_at0, v14_at1 x0 h, clampPos_slot, clampPos_code _ (h (ix2 p q))]

/-- The gather: z_q. -/
theorem v15_eq (h : Spec.InRange (S := Spec.SIdx) x0) : val_main_v15 (F := Ideal) x0 x1 = Spec.zq x0 x1 := by
  funext i
  obtain ⟨p, q, k, rfl⟩ : ∃ (p : Fin 4096) (q : Fin 32) (k : Fin 128), i = ix3 p q k := ⟨i 0, i 1, i 2, eq_ix3 i⟩
  rw [v15_at x0 x1 h]
  rfl

/-! ## Sums over the pairs -/

/-- Over the (slot, word) pairs, the updates whose pair is exactly (s, k): the slot component forces the slot, and what
    is left is a sum over the batch rows whose word at slot `s` is `k`'s. -/
theorem pair_sum (h : Spec.InRange (S := Spec.SIdx) x0) (s : Fin 32) (k : Fin 1024) (f : Fin 4096 → Fin 32 → EReal) :
    (∑ p : Fin 4096, ∑ q : Fin 32,
        if (val_main_v14 (F := Ideal) x0 (ix3 p q (0 : Fin 2))).toInt = (s.val : ℤ)
            ∧ (val_main_v14 (F := Ideal) x0 (ix3 p q (1 : Fin 2))).toInt = (k.val : ℤ) then f p q else 0)
      = ∑ p : Fin 4096, if x0 (ix2 p s) = BitVec.ofNat 32 k.val then f p s else 0 := by
  refine Finset.sum_congr rfl fun p _ => ?_
  have hc : ∀ q : Fin 32,
      ((val_main_v14 (F := Ideal) x0 (ix3 p q (0 : Fin 2))).toInt = (s.val : ℤ)
          ∧ (val_main_v14 (F := Ideal) x0 (ix3 p q (1 : Fin 2))).toInt = (k.val : ℤ))
        ↔ (q = s ∧ x0 (ix2 p q) = BitVec.ofNat 32 k.val) := by
    intro q
    rw [v14_at0, v14_at1 x0 h, toInt_eq_iff _ (h (ix2 p q)) k.val k.isLt]
    have hq : (BitVec.ofNat 32 q.val).toNat = q.val := toNat_ofNat_small _ (by have := q.isLt; omega)
    rw [toInt_small _ (by rw [hq]; have := q.isLt; omega), hq]
    constructor
    · rintro ⟨e, e'⟩; exact ⟨Fin.ext (by exact_mod_cast e), e'⟩
    · rintro ⟨rfl, e'⟩; exact ⟨rfl, e'⟩
  simp only [hc, ite_and]
  rw [Finset.sum_ite_eq']
  simp only [Finset.mem_univ, if_true]

/-- A real sum's coercion is the sum of the coercions. -/
theorem coe_sum {ι : Type} (t : Finset ι) (f : ι → ℝ) : ((∑ p ∈ t, f p : ℝ) : EReal) = ∑ p ∈ t, (f p : EReal) := by
  classical
  refine Finset.induction_on t (by simp) ?_
  intro a t ha ih
  rw [Finset.sum_insert ha, Finset.sum_insert ha, EReal.coe_add, ih]

/-- Adding one real `r` per member of a set of rows is the count of the set times `r`. -/
theorem sum_ite_real {ι : Type} [Fintype ι] (c : ι → Prop) [DecidablePred c] (r : ℝ) :
    (∑ p : ι, if c p then (r : EReal) else 0) = (∑ p : ι, if c p then (1 : EReal) else 0) * (r : EReal) := by
  have e1 : (∑ p : ι, if c p then (r : EReal) else 0) = ((∑ p : ι, if c p then r else 0 : ℝ) : EReal) := by
    rw [coe_sum]
    refine Finset.sum_congr rfl fun p _ => ?_
    split <;> simp
  have e2 : (∑ p : ι, if c p then (1 : EReal) else 0) = ((∑ p : ι, if c p then (1 : ℝ) else 0 : ℝ) : EReal) := by
    rw [coe_sum]
    refine Finset.sum_congr rfl fun p _ => ?_
    split <;> simp
  rw [e1, e2, ← EReal.coe_mul, Finset.sum_mul]
  congr 1
  refine Finset.sum_congr rfl fun p _ => ?_
  split <;> simp

/-! ## The scatters -/

/-- The scatter of ones at (s, k): the count of the batch rows whose word at slot `s` is `k`'s. -/
theorem v31_at (h : Spec.InRange (S := Spec.SIdx) x0) (s : Fin 32) (k : Fin 1024) :
    val_main_v31 (F := Ideal) x0 (ix2 s k) = Spec.cntAt x0 s k := by
  unfold val_main_v31
  rw [LibPair.scatterAdd_pair_apply (φ := .f32) scatter_S32x1024_S4096x32x2_S4096x32_n_01_01_2 rfl rfl rfl rfl
    (val_main_v16 (F := Ideal)) (val_main_v29 (F := Ideal) x0) (val_main_v30 (F := Ideal)) s k]
  rw [v29_eq_v14, pair_sum x0 h s k (fun p q => val_main_v30 (F := Ideal) (ix2 p q))]
  rw [val_main_v16_apply, val_main_cst_apply]
  show Ideal.ofBits .f32 0x00000000#32 + _ = _
  rw [Ideal.ofBits_zero_f32, zero_add]
  unfold Spec.cntAt
  refine Finset.sum_congr rfl fun p _ => ?_
  rw [val_main_v30_apply, val_main_cst_7_apply]
  show (if _ then Ideal.ofBits .f32 0x3F800000#32 else 0) = _
  rw [Ideal.ofBits_one_f32]

/-- The scatter of ones into zeros: the counts. -/
theorem v31_eq (h : Spec.InRange (S := Spec.SIdx) x0) : val_main_v31 (F := Ideal) x0 = Spec.cnt x0 := by
  funext i
  obtain ⟨s, k, rfl⟩ : ∃ (s : Fin 32) (k : Fin 1024), i = ix2 s k := ⟨i 0, i 1, eq_ix2 i⟩
  rw [v31_at x0 h]
  rfl

/-- The scatter of the gathered rows at (s, k, d): the count times the row's entry. -/
theorem v46_at (h : Spec.InRange (S := Spec.SIdx) x0) (hf : Spec.Finite (S := Spec.SEmb) x1)
    (s : Fin 32) (k : Fin 1024) (d : Fin 128) :
    val_main_v46 (F := Ideal) x0 x1 (ix3 s k d) = Spec.cntAt x0 s k * x1 (ix3 s k d) := by
  unfold val_main_v46
  rw [LibPair.scatterAdd_pair_rows_apply (φ := .f32) scatter_S32x1024x128_S4096x32x2_S4096x32x128_2_01_01_2 rfl rfl rfl rfl
    (val_main_v32 (F := Ideal)) (val_main_v45 (F := Ideal) x0) (val_main_v15 (F := Ideal) x0 x1) s k d]
  rw [v45_eq_v14, pair_sum x0 h s k (fun p q => val_main_v15 (F := Ideal) x0 x1 (ix3 p q d))]
  rw [val_main_v32_apply, val_main_cst_8_apply]
  show Ideal.ofBits .f32 0x00000000#32 + _ = _
  rw [Ideal.ofBits_zero_f32, zero_add]
  obtain ⟨r, hr⟩ := hf (ix3 s k d)
  -- under the condition the selected row is row (s, k)
  have e : ∀ p : Fin 4096,
      (if x0 (ix2 p s) = BitVec.ofNat 32 k.val then val_main_v15 (F := Ideal) x0 x1 (ix3 p s d) else 0)
        = if x0 (ix2 p s) = BitVec.ofNat 32 k.val then (r : EReal) else 0 := by
    intro p
    split
    · rename_i hc
      rw [v15_at x0 x1 h, hc, pos_ofNat, hr]
    · rfl
  simp only [e]
  rw [sum_ite_real, hr]
  rfl

/-- The scatter of the gathered rows into zeros: counts · embedding. -/
theorem v46_eq (h : Spec.InRange (S := Spec.SIdx) x0) (hf : Spec.Finite (S := Spec.SEmb) x1) :
    val_main_v46 (F := Ideal) x0 x1
      = fun i => Spec.cnt x0 (ix2 ⟨(i 0).val, (i 0).isLt⟩ ⟨(i 1).val, (i 1).isLt⟩) * x1 i := by
  funext i
  obtain ⟨s, k, d, rfl⟩ : ∃ (s : Fin 32) (k : Fin 1024) (d : Fin 128), i = ix3 s k d := ⟨i 0, i 1, i 2, eq_ix3 i⟩
  rw [v46_at x0 x1 h hf]
  rfl

end Cert.ReferenceIdeal.RefGS

end
-- ==== Proof.RefTail.lean ====
/-
  The reference's elementwise tail, over its counts array and its scatter of the gathered rows taken as given:
  new_ecs = 0.99 · ecs + 0.01 · counts, new_ema_w = 0.99 · ema_w + 0.01 · dw with dw = counts · embedding,
  n = the row sum of new_ecs (the host's reduction starts from the zero word), cluster = (new_ecs + ε) / (n + 1024 ε) · n,
  new_embedding = new_ema_w / cluster.
-/
import proofs.«402485_j27315992003198_3_alg».proof.Proof.Gen.ReferenceIdeal.Read
import proofs.«402485_j27315992003198_3_alg».proof.Proof.Spec
import Idealize.ShloMosaic.Lib.Pipeline.Value
import Idealize.ShloMosaic.Lib.ValueIdx
import Idealize.ShloMosaic.PureOps.Ideal.Laws

noncomputable section

namespace Cert.ReferenceIdeal.RefTail

open Cert.ReferenceIdeal Cert.ReferenceIdeal.Read
open Idealize.ShloMosaic Idealize.ShloMosaic.ValueIdx

variable (x0 : IVec S4096x32 32) (x1 x3 : FVec Ideal S32x1024x128 .f32) (x2 : FVec Ideal S32x1024 .f32)

/-- The row-sum's operand index, composed through the two broadcasts of the sum, is (row of i, k). -/
private theorem idx_row63 (i : S32x1024.Idx) (k : Fin 1024) :
    idx_main_v57 (idx_main_v58 (idx_main_v63 i)) k = ix2 (⟨(i 0).val, (i 0).isLt⟩ : Fin 32) k :=
  funext fun a => Fin.ext (by match a with | ⟨0, _⟩ => rfl | ⟨1, _⟩ => rfl)

private theorem idx_row65 (i : S32x1024.Idx) (k : Fin 1024) :
    idx_main_v57 (idx_main_v58 (idx_main_v65 i)) k = ix2 (⟨(i 0).val, (i 0).isLt⟩ : Fin 32) k :=
  funext fun a => Fin.ext (by match a with | ⟨0, _⟩ => rfl | ⟨1, _⟩ => rfl)

/-- The cluster array's index under the two broadcasts along the last axis is (slot, code) of i. -/
private theorem idx_cell (i : S32x1024x128.Idx) :
    idx_main_v67 (idx_main_v68 i) = ix2 (⟨(i 0).val, (i 0).isLt⟩ : Fin 32) (⟨(i 1).val, (i 1).isLt⟩ : Fin 1024) :=
  funext fun a => Fin.ext (by match a with | ⟨0, _⟩ => rfl | ⟨1, _⟩ => rfl)

/-- new_ecs, given the counts. -/
theorem v51_eq (cn : Spec.SCnt.Idx → EReal) (h31 : val_main_v31 (F := Ideal) x0 = cn) :
    val_main_v51 (F := Ideal) x0 x2 = Spec.necs cn x2 := by
  funext i
  rw [val_main_v51_apply, val_main_v48_apply, val_main_v47_apply, val_main_cst_13_apply, val_main_v50_apply,
    val_main_v49_apply, val_main_cst_14_apply, h31]
  simp only [Ideal.mulf_def, Ideal.addf_def, Ideal.ofBits_def]
  rfl

/-- new_ema_w, given that the scatter of the gathered rows is counts · embedding. -/
theorem v56_eq (cn : Spec.SCnt.Idx → EReal)
    (h46 : val_main_v46 (F := Ideal) x0 x1 = fun i => cn (ix2 ⟨(i 0).val, (i 0).isLt⟩ ⟨(i 1).val, (i 1).isLt⟩) * x1 i) :
    val_main_v56 (F := Ideal) x0 x1 x3 = Spec.nemaw x1 x3 cn := by
  funext i
  rw [val_main_v56_apply, val_main_v53_apply, val_main_v52_apply, val_main_cst_15_apply, val_main_v55_apply,
    val_main_v54_apply, val_main_cst_16_apply, h46]
  simp only [Ideal.mulf_def, Ideal.addf_def, Ideal.ofBits_def]
  rfl

/-- The smoothed cluster size, given the counts: the row sum starts from the zero word, which is 0. -/
theorem v66_eq (cn : Spec.SCnt.Idx → EReal) (h31 : val_main_v31 (F := Ideal) x0 = cn) :
    val_main_v66 (F := Ideal) x0 x2 = Spec.clus cn x2 := by
  funext i
  simp only [val_main_v66_apply, val_main_v64_apply, val_main_v60_apply, val_main_v59_apply, val_main_cst_18_apply,
    val_main_v63_apply, val_main_v62_apply, val_main_v58_apply, val_main_v57_apply, val_main_cst_17_apply,
    val_main_v61_apply, val_main_cst_19_apply, val_main_v65_apply, v51_eq x0 x2 cn h31,
    Ideal.mulf_def, Ideal.addf_def, Ideal.hostDivf_def, Ideal.ofBits_def, Ideal.ofBits_zero_f32, zero_add,
    idx_row63, idx_row65]
  rfl

/-- new_embedding, given both. -/
theorem v69_eq (cn : Spec.SCnt.Idx → EReal) (h31 : val_main_v31 (F := Ideal) x0 = cn)
    (h46 : val_main_v46 (F := Ideal) x0 x1 = fun i => cn (ix2 ⟨(i 0).val, (i 0).isLt⟩ ⟨(i 1).val, (i 1).isLt⟩) * x1 i) :
    val_main_v69 (F := Ideal) x0 x1 x2 x3 = Spec.nemb x1 x3 cn (Spec.clus cn x2) := by
  funext i
  rw [val_main_v69_apply, val_main_v68_apply, val_main_v67_apply, v56_eq x0 x1 x3 cn h46, v66_eq x0 x2 cn h31,
    Ideal.hostDivf_def, idx_cell]
  rfl

end Cert.ReferenceIdeal.RefTail

end
-- ==== Proof.RefVal.lean ====
/-
  The reference program's four results as functions of its four arguments, for index words that name codes and a real
  embedding table: its run with each result's composed term read as the specification's function.
-/
import proofs.«402485_j27315992003198_3_alg».proof.Proof.Gen.ReferenceIdeal.Run
import proofs.«402485_j27315992003198_3_alg».proof.Proof.Gen.ReferenceIdeal.Read
import proofs.«402485_j27315992003198_3_alg».proof.Proof.RefGS
import proofs.«402485_j27315992003198_3_alg».proof.Proof.RefTail
import proofs.«402485_j27315992003198_3_alg».proof.Proof.Spec

noncomputable section

namespace Cert.ReferenceIdeal.RefVal

open Cert.ReferenceIdeal
open Idealize.ShloMosaic Idealize.ShloMosaic.TcCoe Idealize.SL.Sem

variable (m : (ℓ : Loc nD τ sig) → Buf (Elt Ideal) ℓ) (ρ : Dev nD → PrngReg)

/-- The run of the reference program with its results named. -/
theorem run (hpre : ∀ c : Dev nD, Spec.InRange (S := Spec.SIdx) (m ((c.tc : Thread nD τ).loc main_arg0))
      ∧ Spec.Finite (S := Spec.SEmb) (m ((c.tc : Thread nD τ).loc main_arg1))) :
    θ_run defs (onTc (τ := τ) (main (F := Ideal))) ⟨m, fun _ => 0, ρ⟩ (fun r => ∀ c : Dev nD,
      r.2.mem ((c.tc : Thread nD τ).loc main_v15) = Spec.zq (m ((c.tc : Thread nD τ).loc main_arg0)) (m ((c.tc : Thread nD τ).loc main_arg1))
      ∧ r.2.mem ((c.tc : Thread nD τ).loc main_v69)
          = Spec.nemb (m ((c.tc : Thread nD τ).loc main_arg1)) (m ((c.tc : Thread nD τ).loc main_arg3))
              (Spec.cnt (m ((c.tc : Thread nD τ).loc main_arg0)))
              (Spec.clus (Spec.cnt (m ((c.tc : Thread nD τ).loc main_arg0))) (m ((c.tc : Thread nD τ).loc main_arg2)))
      ∧ r.2.mem ((c.tc : Thread nD τ).loc main_v51)
          = Spec.necs (Spec.cnt (m ((c.tc : Thread nD τ).loc main_arg0))) (m ((c.tc : Thread nD τ).loc main_arg2))
      ∧ r.2.mem ((c.tc : Thread nD τ).loc main_v56)
          = Spec.nemaw (m ((c.tc : Thread nD τ).loc main_arg1)) (m ((c.tc : Thread nD τ).loc main_arg3))
              (Spec.cnt (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨e15, e69, e51, e56, k0, k1, k2, k3⟩ := h c
    have h31 := RefGS.v31_eq (m ((c.tc : Thread nD τ).loc main_arg0)) (hpre c).1
    have h46 := RefGS.v46_eq (m ((c.tc : Thread nD τ).loc main_arg0)) (m ((c.tc : Thread nD τ).loc main_arg1)) (hpre c).1 (hpre c).2
    exact ⟨e15.trans ((Read.val_main_v15_eq _ _).trans (RefGS.v15_eq _ _ (hpre c).1)),
      e69.trans ((Read.val_main_v69_eq m c).trans (RefTail.v69_eq _ _ _ _ _ h31 h46)),
      e51.trans ((Read.val_main_v51_eq _ _).trans (RefTail.v51_eq _ _ _ h31)),
      e56.trans ((Read.val_main_v56_eq _ _ _).trans (RefTail.v56_eq _ _ _ _ h46)),
      k0, k1, k2, k3⟩) (Cert.ReferenceIdeal.Value.run (F := Ideal) m ρ)

end Cert.ReferenceIdeal.RefVal

end
-- ==== Proof.lean ====
/-
  The certificate of a vector-quantiser's codebook update: a three-kernel program against its jnp reference, equal over
  the extended reals for index words that name one of the 1024 codes (0 ≤ indices < 1024, added to the precondition: outside it
  the kernel clips a word where the reference wraps or drops it) and finite float inputs.

  With indices[b, s] selecting a code row of embedding[s]:
    z_q[b, s, :]           = embedding[s, indices[b, s], :]                — the kernel multiplies a one-hot matrix into the
                             code table (twice: into the table and into the table minus itself, which is zero for real
                             entries); the reference gathers;
    counts[s, k]           = #{b | indices[b, s] = k}                      — the kernel sums the one-hot matrix's columns, tile
                             by tile into a carried block; the reference scatters ones;
    new_ecs, new_ema_w, new_embedding — elementwise from these, where the reference's scatter of the gathered rows is
                             counts · embedding (the row added once per selecting batch row).
  The three frames are the generated ones (the reference's is its generated run with the results dropped); `preserves` is one
  statement of the narrowing-and-widening rule per site; `algebraic` pairs the two runs at the specification's functions.
-/
import proofs.«402485_j27315992003198_3_alg».proof.Defs
import proofs.«402485_j27315992003198_3_alg».proof.Proof.Gen.Kernel
import proofs.«402485_j27315992003198_3_alg».proof.Proof.Gen.Kernel.Frame
import proofs.«402485_j27315992003198_3_alg».proof.Proof.Gen.KernelIdeal
import proofs.«402485_j27315992003198_3_alg».proof.Proof.Gen.KernelIdeal.Frame
import proofs.«402485_j27315992003198_3_alg».proof.Proof.Gen.ReferenceIdeal
import proofs.«402485_j27315992003198_3_alg».proof.Proof.Gen.ReferenceIdeal.Run
import proofs.«402485_j27315992003198_3_alg».proof.Proof.Gen.Pre_finite_inputs
import proofs.«402485_j27315992003198_3_alg».proof.Proof.Spec
import proofs.«402485_j27315992003198_3_alg».proof.Proof.PreDecode
import proofs.«402485_j27315992003198_3_alg».proof.Proof.KVal
import proofs.«402485_j27315992003198_3_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Sixteen sites of one rule: a vector narrowed to bf16 and widened back is, at the ideal instance, the vector. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both programs end at the specification's four functions of arguments that agree. -/
theorem algebraic : Cert.algebraic_KernelIdeal_ReferenceIdeal := by
  intro m ρ m' ρ' hpre hagree
  have hk : ∀ c : Dev Cert.KernelIdeal.nD, Spec.InRange (S := Spec.SIdx) (m ((c.tc : Thread Cert.KernelIdeal.nD Cert.KernelIdeal.τ).loc Cert.KernelIdeal.main_arg0))
      ∧ Spec.Finite (S := Spec.SEmb) (m ((c.tc : Thread Cert.KernelIdeal.nD Cert.KernelIdeal.τ).loc Cert.KernelIdeal.main_arg1)) := fun c => Cert.PreDecode.of_pre _ _ _ _ (hpre c)
  have hr : ∀ c : Dev Cert.ReferenceIdeal.nD,
      Spec.InRange (S := Spec.SIdx) (m' ((c.tc : Thread Cert.ReferenceIdeal.nD Cert.ReferenceIdeal.τ).loc Cert.ReferenceIdeal.main_arg0))
      ∧ Spec.Finite (S := Spec.SEmb) (m' ((c.tc : Thread Cert.ReferenceIdeal.nD Cert.ReferenceIdeal.τ).loc Cert.ReferenceIdeal.main_arg1)) := fun c => by
    rw [(hagree c).1, (hagree c).2.1]; exact hk c
  refine ⟨fun c => Spec.zq (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Spec.nemb (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (Spec.cnt (m ((c.tc : Thread Cert.KernelIdeal.nD Cert.KernelIdeal.τ).loc Cert.KernelIdeal.main_arg0))) (Spec.clus (Spec.cnt (m ((c.tc : Thread Cert.KernelIdeal.nD Cert.KernelIdeal.τ).loc Cert.KernelIdeal.main_arg0))) (m ((c.tc : Thread Cert.KernelIdeal.nD Cert.KernelIdeal.τ).loc Cert.KernelIdeal.main_arg2))),
    fun c => Spec.necs (Spec.cnt (m ((c.tc : Thread Cert.KernelIdeal.nD Cert.KernelIdeal.τ).loc Cert.KernelIdeal.main_arg0))) (m ((c.tc : Thread Cert.KernelIdeal.nD Cert.KernelIdeal.τ).loc Cert.KernelIdeal.main_arg2)),
    fun c => Spec.nemaw (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (Spec.cnt (m ((c.tc : Thread Cert.KernelIdeal.nD Cert.KernelIdeal.τ).loc Cert.KernelIdeal.main_arg0))),
    Cert.KernelIdeal.Vals.run m ρ hk, ?_⟩
  refine (θ_run Cert.ReferenceIdeal.defs _ _).mono (fun r h c => ?_) (Cert.ReferenceIdeal.RefVal.run m' ρ' hr)
  obtain ⟨a0, a1, a2, a3⟩ := hagree c
  obtain ⟨e0, e1, e2, e3, k⟩ := h c
  exact ⟨e0.trans (by rw [a0, a1]), e1.trans (by rw [a0, a1, a2, a3]), e2.trans (by rw [a0, a2]), e3.trans (by rw [a0, a1, a3]), k⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
